-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x600000 : Shape := ⟨2, ![2, 600000]⟩
abbrev S600000 : Shape := ⟨1, ![600000]⟩
abbrev S768x128 : Shape := ⟨2, ![768, 128]⟩
abbrev S128 : Shape := ⟨1, ![128]⟩
abbrev S2x128x128 : Shape := ⟨3, ![2, 128, 128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S600000 : S_.BroadcastsInDim S600000 (![] : Fin 0 → Fin S600000.rank)
  reducesTo_S600000_S_d0 : S600000.ReducesTo [0] S_

variable [Facts]

def fn_part2 {F : FTy → Type} [FloatOps F] (main_arg2 : IVec S600000 32) (main_arg9 : FVec F S3 .f32) (main_v33 : IVec S_ 1) : IVec S_ 1 :=
  let main_v34 : FVec F S3 .f32 := Host.absf main_arg9
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_c_14 : IVec S_ 32 := constantI S_ 32 0#32
  let main_v39 : IVec S600000 32 := broadcastInDim S600000 ![] bcast_S_S600000 main_c_14
  let main_v40 : IVec S600000 1 := cmpi .sge main_arg2 main_v39
  let main_c_15 : IVec S_ 32 := constantI S_ 32 2#32
  let main_v41 : IVec S600000 32 := broadcastInDim S600000 ![] bcast_S_S600000 main_c_15
  let main_v42 : IVec S600000 1 := cmpi .slt main_arg2 main_v41
  let main_v43 : IVec S600000 1 := andi main_v40 main_v42
  let main_c_16 : IVec S_ 1 := constantI S_ 1 1#1
  let main_v44 : IVec S_ 1 := (fun x v => Host.reduce IntOp.andi x v reducesTo_S600000_S_d0 h_S_) main_v43 main_c_16
  let main_v45 : IVec S_ 1 := andi main_v38 main_v44
  main_v45

def fn_part1 {F : FTy → Type} [FloatOps F] (main_arg2 : IVec S600000 32) (main_arg6 : FVec F S128x128 .f32) (main_arg7 : FVec F S128 .f32) (main_arg8 : FVec F S128x3 .f32) (main_arg9 : FVec F S3 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x3 .f32 := Host.absf main_arg8
  let main_cst_10 : FVec F S_ .f32 := constant S_ .f32 0x7F800000#32
  let main_v30 : FVec F S128x3 .f32 := broadcastInDim S128x3 ![] bcast_S_S128x3 main_cst_10
  let main_v31 : IVec S128x3 1 := cmpf .olt main_v29 main_v30
  let main_c_11 : IVec S_ 1 := constantI S_ 1 1#1
  let main_v32 : IVec S_ 1 := (fun x v => Host.reduce IntOp.andi x v reducesTo_S128x3_S_d0_1 h_S_) main_v31 main_c_11
  let main_v33 : IVec S_ 1 := andi main_v28 main_v32
  fn_part2 (F := F) main_arg2 main_arg9 main_v33

def fn {F : FTy → Type} [FloatOps F] (main_arg0 : FVec F S50000x768 .f32) (main_arg1 : IVec S2x600000 32) (main_arg2 : IVec S600000 32) (main_arg3 : FVec F S768x128 .f32) (main_arg4 : FVec F S128 .f32) (main_arg5 : FVec F S2x128x128 .f32) (main_arg6 : FVec F S128x128 .f32) (main_arg7 : FVec F S128 .f32) (main_arg8 : FVec F S128x3 .f32) (main_arg9 : FVec F S3 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x128 .f32 := Host.absf main_arg3
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg2 main_arg6 main_arg7 main_arg8 main_arg9 main_v13 main_v16
-- ==== Kernel.lean ====
abbrev S50000x768 : Shape := ⟨2, ![50000, 768]⟩
abbrev S2x600000 : Shape := ⟨2, ![2, 600000]⟩
abbrev S600000 : Shape := ⟨1, ![600000]⟩
abbrev S768x128 : Shape := ⟨2, ![768, 128]⟩
abbrev S128 : Shape := ⟨1, ![128]⟩
abbrev S2x128x128 : Shape := ⟨3, ![2, 128, 128]⟩
abbrev S128x128 : Shape := ⟨2, ![128, 128]⟩
abbrev S128x3 : Shape := ⟨2, ![128, 3]⟩
abbrev S3 : Shape := ⟨1, ![3]⟩
abbrev S1x600000 : Shape := ⟨2, ![1, 600000]⟩
abbrev S1x128 : Shape := ⟨2, ![1, 128]⟩
abbrev S50000x128 : Shape := ⟨2, ![50000, 128]⟩
abbrev S2000x768 : Shape := ⟨2, ![2000, 768]⟩
abbrev S2000x128 : Shape := ⟨2, ![2000, 128]⟩
abbrev S600000x1 : Shape := ⟨2, ![600000, 1]⟩
abbrev S1x2 : Shape := ⟨2, ![1, 2]⟩
abbrev S600000x2 : Shape := ⟨2, ![600000, 2]⟩
abbrev S_ : Shape := ⟨0, ![]⟩
abbrev S50000x2 : Shape := ⟨2, ![50000, 2]⟩
abbrev S1x128x128 : Shape := ⟨3, ![1, 128, 128]⟩
abbrev S128x256 : Shape := ⟨2, ![128, 256]⟩
abbrev S128x384 : Shape := ⟨2, ![128, 384]⟩
abbrev S256 : Shape := ⟨1, ![256]⟩
abbrev S384 : Shape := ⟨1, ![384]⟩
abbrev S1x384 : Shape := ⟨2, ![1, 384]⟩
abbrev S50000x384 : Shape := ⟨2, ![50000, 384]⟩
abbrev S2000x384 : Shape := ⟨2, ![2000, 384]⟩
abbrev S50000x256 : Shape := ⟨2, ![50000, 256]⟩
abbrev S50000x2x128 : Shape := ⟨3, ![50000, 2, 128]⟩
abbrev S600000x128 : Shape := ⟨2, ![600000, 128]⟩
abbrev S1x3 : Shape := ⟨2, ![1, 3]⟩
abbrev S50000x3 : Shape := ⟨2, ![50000, 3]⟩
abbrev S2000x3 : Shape := ⟨2, ![2000, 3]⟩

abbrev nBuf : Space → Nat
  | .hbm => 123
  | .vmem => 24
  | .smem => 0
  | _ => 0

abbrev bufTy : (tb : Table) → Fin (tcTables nBuf tb) → BufTy
  | .hbm, ⟨0, _⟩ => ⟨S50000x768, .f32⟩
  | .hbm, ⟨1, _⟩ => ⟨S2x600000, .i32⟩
  | .hbm, ⟨2, _⟩ => ⟨S600000, .i32⟩
  | .hbm, ⟨3, _⟩ => ⟨S768x128, .f32⟩
  | .hbm, ⟨4, _⟩ => ⟨S128, .f32⟩
  | .hbm, ⟨5, _⟩ => ⟨S2x128x128, .f32⟩
  | .hbm, ⟨6, _⟩ => ⟨S128x128, .f32⟩
  | .hbm, ⟨7, _⟩ => ⟨S128, .f32⟩
  | .hbm, ⟨8, _⟩ => ⟨S128x3, .f32⟩
  | .hbm, ⟨9, _⟩ => ⟨S3, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S1x128, .f32⟩
  | .hbm, ⟨15, _⟩ => ⟨S50000x128, .f32⟩
  | .hbm, ⟨16, _⟩ => ⟨S600000x1, .i32⟩
  | .hbm, ⟨17, _⟩ => ⟨S1x2, .i32⟩
  | .hbm, ⟨18, _⟩ => ⟨S600000x2, .i32⟩
  | .hbm, ⟨19, _⟩ => ⟨S600000x2, .i32⟩
  | .hbm, ⟨20, _⟩ => ⟨S600000x2, .i1⟩
  | .hbm, ⟨21, _⟩ => ⟨S600000x2, .f32⟩
  | .hbm, ⟨22, _⟩ => ⟨S_, .f32⟩
  | .hbm, ⟨23, _⟩ => ⟨S50000x2, .f32⟩
  | .hbm, ⟨24, _⟩ => ⟨S600000x1, .i32⟩
  | .hbm, ⟨25, _⟩ => ⟨S50000x2, .f32⟩
  | .hbm, ⟨26, _⟩ => ⟨S_, .f32⟩
  | .hbm, ⟨27, _⟩ => ⟨S50000x2, .f32⟩
  | .hbm, ⟨28, _⟩ => ⟨S50000x2, .f32⟩
  | .hbm, ⟨29, _⟩ => ⟨S_, .f32⟩
  | .hbm, ⟨30, _⟩ => ⟨S50000x2, .f32⟩
  | .hbm, ⟨31, _⟩ => ⟨S50000x2, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x1, .i32⟩
  | .hbm, ⟨48, _⟩ => ⟨S600000x2, .i32⟩
  | .hbm, ⟨49, _⟩ => ⟨S600000, .f32⟩
  | .hbm, ⟨50, _⟩ => ⟨S1x128x128, .f32⟩
  | .hbm, ⟨51, _⟩ => ⟨S128x128, .f32⟩
  | .hbm, ⟨52, _⟩ => ⟨S1x128x128, .f32⟩
  | .hbm, ⟨53, _⟩ => ⟨S128x128, .f32⟩
  | .hbm, ⟨54, _⟩ => ⟨S128x256, .f32⟩
  | .hbm, ⟨55, _⟩ => ⟨S128x384, .f32⟩
  | .hbm, ⟨56, _⟩ => ⟨S_, .f32⟩
  | .hbm, ⟨57, _⟩ => ⟨S256, .f32⟩
  | .hbm, ⟨58, _⟩ => ⟨S384, .f32⟩
  | .hbm, ⟨59, _⟩ => ⟨S1x384, .f32⟩
  | .hbm, ⟨60, _⟩ => ⟨S50000x384, .f32⟩
  | .hbm, ⟨61, _⟩ => ⟨S50000x128, .f32⟩
  | .hbm, ⟨62, _⟩ => ⟨S50000x256, .f32⟩
  | .hbm, ⟨63, _⟩ => ⟨S50000x2x128, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S_, .i32⟩
  | .hbm, ⟨72, _⟩ => ⟨S600000, .i32⟩
  | .hbm, ⟨73, _⟩ => ⟨S600000, .i1⟩
  | .hbm, ⟨74, _⟩ => ⟨S_, .i32⟩
  | .hbm, ⟨75, _⟩ => ⟨S600000, .i32⟩
  | .hbm, ⟨76, _⟩ => ⟨S600000, .i32⟩
  | .hbm, ⟨77, _⟩ => ⟨S600000, .i32⟩
  | .hbm, ⟨78, _⟩ => ⟨S600000x1, .i32⟩
  | .hbm, ⟨79, _⟩ => ⟨S600000x1, .i32⟩
  | .hbm, ⟨80, _⟩ => ⟨S600000x2, .i32⟩
  | .hbm, ⟨81, _⟩ => ⟨S600000x128, .f32⟩
  | .hbm, ⟨82, _⟩ => ⟨S600000x1, .f32⟩
  | .hbm, ⟨83, _⟩ => ⟨S600000x128, .f32⟩
  | .hbm, ⟨84, _⟩ => ⟨S600000x128, .f32⟩
  | .hbm, ⟨85, _⟩ => ⟨S_, .f32⟩
  | .hbm, ⟨86, _⟩ => ⟨S50000x128, .f32⟩
  | .hbm, ⟨87, _⟩ => ⟨S600000x1, .i32⟩
  | .hbm, ⟨88, _⟩ => ⟨S50000x128, .f32⟩
  | .hbm, ⟨89, _⟩ => ⟨S50000x128, .f32⟩
  | .hbm, ⟨90, _⟩ => ⟨S1x384, .f32⟩
  | .hbm, ⟨91, _⟩ => ⟨S50000x384, .f32⟩
  | .hbm, ⟨92, _⟩ => ⟨S50000x128, .f32⟩
  | .hbm, ⟨93, _⟩ => ⟨S50000x256, .f32⟩
  | .hbm, ⟨94, _⟩ => ⟨S50000x2x128, .f32⟩
  | .hbm, ⟨95, _⟩ => ⟨S_, .i32⟩
  | .hbm, ⟨96, _⟩ => ⟨S600000, .i32⟩
  | .hbm, ⟨97, _⟩ => ⟨S600000, .i1⟩
  | .hbm, ⟨98, _⟩ => ⟨S_, .i32⟩
  | .hbm, ⟨99, _⟩ => ⟨S600000, .i32⟩
  | .hbm, ⟨100, _⟩ => ⟨S600000, .i32⟩
  | .hbm, ⟨101, _⟩ => ⟨S600000, .i32⟩
  | .hbm, ⟨102, _⟩ => ⟨S_, .i32⟩
  | .hbm, ⟨103, _⟩ => ⟨S600000, .i32⟩
  | .hbm, ⟨104, _⟩ => ⟨S600000, .i1⟩
  | .hbm, ⟨105, _⟩ => ⟨S_, .i32⟩
  | .hbm, ⟨106, _⟩ => ⟨S600000, .i32⟩
  | .hbm, ⟨107, _⟩ => ⟨S600000, .i32⟩
  | .hbm, ⟨108, _⟩ => ⟨S600000, .i32⟩
  | .hbm, ⟨109, _⟩ => ⟨S600000x1, .i32⟩
  | .hbm, ⟨110, _⟩ => ⟨S600000x1, .i32⟩
  | .hbm, ⟨111, _⟩ => ⟨S600000x2, .i32⟩
  | .hbm, ⟨112, _⟩ => ⟨S600000x128, .f32⟩
  | .hbm, ⟨113, _⟩ => ⟨S600000x1, .f32⟩
  | .hbm, ⟨114, _⟩ => ⟨S600000x128, .f32⟩
  | .hbm, ⟨115, _⟩ => ⟨S600000x128, .f32⟩
  | .hbm, ⟨116, _⟩ => ⟨S_, .f32⟩
  | .hbm, ⟨117, _⟩ => ⟨S50000x128, .f32⟩
  | .hbm, ⟨118, _⟩ => ⟨S600000x1, .i32⟩
  | .hbm, ⟨119, _⟩ => ⟨S50000x128, .f32⟩
  | .hbm, ⟨120, _⟩ => ⟨S50000x128, .f32⟩
  | .hbm, ⟨121, _⟩ => ⟨S1x3, .f32⟩
  | .hbm, ⟨122, _⟩ => ⟨S50000x3, .f32⟩
  | .local _ .vmem, ⟨0, _⟩ => ⟨S2000x768, .f32⟩
  | .local _ .vmem, ⟨1, _⟩ => ⟨S2000x768, .f32⟩
  | .local _ .vmem, ⟨2, _⟩ => ⟨S768x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x384, .f32⟩
  | .local _ .vmem, ⟨9, _⟩ => ⟨S1x384, .f32⟩
  | .local _ .vmem, ⟨10, _⟩ => ⟨S2000x384, .f32⟩
  | .local _ .vmem, ⟨11, _⟩ => ⟨S2000x384, .f32⟩
  | .local _ .vmem, ⟨12, _⟩ => ⟨S2000x128, .f32⟩
  | .local _ .vmem, ⟨13, _⟩ => ⟨S2000x128, .f32⟩
  | .local _ .vmem, ⟨14, _⟩ => ⟨S128x384, .f32⟩
  | .local _ .vmem, ⟨15, _⟩ => ⟨S1x384, .f32⟩
  | .local _ .vmem, ⟨16, _⟩ => ⟨S2000x384, .f32⟩
  | .local _ .vmem, ⟨17, _⟩ => ⟨S2000x384, .f32⟩
  | .local _ .vmem, ⟨18, _⟩ => ⟨S2000x128, .f32⟩
  | .local _ .vmem, ⟨19, _⟩ => ⟨S2000x128, .f32⟩
  | .local _ .vmem, ⟨20, _⟩ => ⟨S128x3, .f32⟩
  | .local _ .vmem, ⟨21, _⟩ => ⟨S1x3, .f32⟩
  | .local _ .vmem, ⟨22, _⟩ => ⟨S2000x3, .f32⟩
  | .local _ .vmem, ⟨23, _⟩ => ⟨S2000x3, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_v41 : Ref sig .tc := ⟨.hbm, 65, rfl⟩
abbrev main_v42 : Ref sig .tc := ⟨.hbm, 66, rfl⟩
abbrev main_c_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_8 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_11 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_13 : Ref sig .tc := ⟨.hbm, 102, rfl⟩
abbrev main_v72 : Ref sig .tc := ⟨.hbm, 103, rfl⟩
abbrev main_v73 : Ref sig .tc := ⟨.hbm, 104, rfl⟩
abbrev main_c_14 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x384 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x3 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x3 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S600000_S600000x1_0 : S600000.BroadcastsInDim S600000x1 (![0] : Fin 1 → Fin S600000x1.rank)
  bcast_S600000x1_S600000x2_0_1 : S600000x1.BroadcastsInDim S600000x2 (![0, 1] : Fin 2 → Fin S600000x2.rank)
  bcast_S1x2_S600000x2_0_1 : S1x2.BroadcastsInDim S600000x2 (![0, 1] : Fin 2 → Fin S600000x2.rank)
  bcast_S_S50000x2 : S_.BroadcastsInDim S50000x2 (![] : Fin 0 → Fin S50000x2.rank)
  bcast_S_S600000 : S_.BroadcastsInDim S600000 (![] : Fin 0 → Fin S600000.rank)
  concatenates_S600000x1_S600000x1_S600000x2_d1 : Shape.Concatenates [S600000x1, S600000x1] S600000x2 1
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  concatenates_S128x128_S128x128_S128x256_d1 : Shape.Concatenates [S128x128, S128x128] S128x256 1
  concatenates_S128x128_S128x256_S128x384_d1 : Shape.Concatenates [S128x128, S128x256] S128x384 1
  bcast_S_S256 : S_.BroadcastsInDim S256 (![] : Fin 0 → Fin S256.rank)
  concatenates_S128_S256_S384_d0 : Shape.Concatenates [S128, S256] S384 0
  shapeCasts_S384_S1x384 : S384.ShapeCasts S1x384
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  slices_S50000x384_S50000x128_0_0 : S50000x384.Slices ![0, 0] S50000x128
  slices_S50000x384_S50000x256_0_128 : S50000x384.Slices ![0, 128] S50000x256
  shapeCasts_S50000x256_S50000x2x128 : S50000x256.ShapeCasts S50000x2x128
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S3_S1x3 : S3.ShapeCasts S1x3
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  dot_S2000x768_S768x128_S2000x128_1_0_0_1_n_n_wf : DotDims.WF S2000x768 S768x128 S2000x128 [1] [0] [0] [1] [] []
  scatter_S50000x2_S600000x1_S600000x2_1_0_0_1_wf : ScatterDims.WF S50000x2 S600000x1 S600000x2 [1] [0] [0] 1
  gather_S50000x2_S600000x2_S600000_n_01_n_n_01_1_11_wf : GatherDims.WF S50000x2 S600000x2 S600000 [] [0, 1] [] [0, 1] [] 1 ![1, 1]
  dot_S2000x128_S128x384_S2000x384_1_0_0_1_n_n_wf : DotDims.WF S2000x128 S128x384 S2000x384 [1] [0] [0] [1] [] []
  gather_S50000x2x128_S600000x2_S600000x128_1_01_n_n_01_1_11128_wf : GatherDims.WF S50000x2x128 S600000x2 S600000x128 [1] [0, 1] [] [0, 1] [] 1 ![1, 1, 128]
  scatter_S50000x128_S600000x1_S600000x128_1_0_0_1_wf : ScatterDims.WF S50000x128 S600000x1 S600000x128 [1] [0] [0] 1
  dot_S2000x128_S128x3_S2000x3_1_0_0_1_n_n_wf : DotDims.WF S2000x128 S128x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x384.size a ≤ S128x384.size a
  hwx1_1 : ∀ i : grid1.Coords, EltTy.bits .f32 = 32 ∨ (Rect.block (s := S128x384) S128x384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x384.size a ≤ S1x384.size a
  hwx1_2 : ∀ i : grid1.Coords, EltTy.bits .f32 = 32 ∨ (Rect.block (s := S1x384) S1x384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x384.size a ≤ S50000x384.size a
  hwx1_3 : ∀ i : grid1.Coords, EltTy.bits .f32 = 32 ∨ (Rect.block (s := S50000x384) S2000x384.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x384.size a ≤ S128x384.size a
  hwx2_1 : ∀ i : grid2.Coords, EltTy.bits .f32 = 32 ∨ (Rect.block (s := S128x384) S128x384.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x384.size a ≤ S1x384.size a
  hwx2_2 : ∀ i : grid2.Coords, EltTy.bits .f32 = 32 ∨ (Rect.block (s := S1x384) S1x384.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x384.size a ≤ S50000x384.size a
  hwx2_3 : ∀ i : grid2.Coords, EltTy.bits .f32 = 32 ∨ (Rect.block (s := S50000x384) S2000x384.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x3.size a ≤ S128x3.size a
  hwx3_1 : ∀ i : grid3.Coords, EltTy.bits .f32 = 32 ∨ (Rect.block (s := S128x3) S128x3.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x3.size a ≤ S1x3.size a
  hwx3_2 : ∀ i : grid3.Coords, EltTy.bits .f32 = 32 ∨ (Rect.block (s := S1x3) S1x3.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x3.size a ≤ S50000x3.size a
  hwx3_3 : ∀ i : grid3.Coords, EltTy.bits .f32 = 32 ∨ (Rect.block (s := S50000x3) S2000x3.size (cc3_transform_3 i) (hinb3_3 i)).WholeWords (EltTy.packing .f32)

variable [Facts₀]

def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def scatter_S50000x2_S600000x1_S600000x2_1_0_0_1 : ScatterDims S50000x2 S600000x1 S600000x2 where
  updateWindowDims := [1]
  insertedWindowDims := [0]
  scatterDimsToOperandDims := [0]
  indexVectorDim := 1
  wf := scatter_S50000x2_S600000x1_S600000x2_1_0_0_1_wf
def gather_S50000x2_S600000x2_S600000_n_01_n_n_01_1_11 : GatherDims S50000x2 S600000x2 S600000 where
  offsetDims := []
  collapsedSliceDims := [0, 1]
  operandBatchingDims := []
  startIndicesBatchingDims := []
  startIndexMap := [0, 1]
  indexVectorDim := 1
  sliceSizes := ![1, 1]
  wf := gather_S50000x2_S600000x2_S600000_n_01_n_n_01_1_11_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S50000x2x128_S600000x2_S600000x128_1_01_n_n_01_1_11128 : GatherDims S50000x2x128 S600000x2 S600000x128 where
  offsetDims := [1]
  collapsedSliceDims := [0, 1]
  operandBatchingDims := []
  startIndicesBatchingDims := []
  startIndexMap := [0, 1]
  indexVectorDim := 1
  sliceSizes := ![1, 1, 128]
  wf := gather_S50000x2x128_S600000x2_S600000x128_1_01_n_n_01_1_11128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S128x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S2000x384.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S128x384.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S2000x384.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v87) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x3.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S2000x3.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x768 : Shape := ⟨2, ![50000, 768]⟩
abbrev S2x600000 : Shape := ⟨2, ![2, 600000]⟩
abbrev S600000 : Shape := ⟨1, ![600000]⟩
abbrev S768x128 : Shape := ⟨2, ![768, 128]⟩
abbrev S128 : Shape := ⟨1, ![128]⟩
abbrev S2x128x128 : Shape := ⟨3, ![2, 128, 128]⟩
abbrev S128x128 : Shape := ⟨2, ![128, 128]⟩
abbrev S128x3 : Shape := ⟨2, ![128, 3]⟩
abbrev S3 : Shape := ⟨1, ![3]⟩
abbrev S50000x128 : Shape := ⟨2, ![50000, 128]⟩
abbrev S1x128 : Shape := ⟨2, ![1, 128]⟩
abbrev S_ : Shape := ⟨0, ![]⟩
abbrev S1x600000 : Shape := ⟨2, ![1, 600000]⟩
abbrev S600000x1 : Shape := ⟨2, ![600000, 1]⟩
abbrev S600000x128 : Shape := ⟨2, ![600000, 128]⟩
abbrev S1x128x128 : Shape := ⟨3, ![1, 128, 128]⟩
abbrev S50000 : Shape := ⟨1, ![50000]⟩
abbrev S50000x1 : Shape := ⟨2, ![50000, 1]⟩
abbrev S50000x3 : Shape := ⟨2, ![50000, 3]⟩
abbrev S1x3 : Shape := ⟨2, ![1, 3]⟩

abbrev nBuf : Space → Nat
  | .hbm => 189
  | .vmem => 0
  | .smem => 0
  | _ => 0

abbrev hbmTy0_0 (i : Nat) : BufTy := match i % 128 with
  | 0 => ⟨S50000x768, .f32⟩
  | 1 => ⟨S2x600000, .i32⟩
  | 2 => ⟨S600000, .i32⟩
  | 3 => ⟨S768x128, .f32⟩
  | 4 => ⟨S128, .f32⟩
  | 5 => ⟨S2x128x128, .f32⟩
  | 6 => ⟨S128x128, .f32⟩
  | 7 => ⟨S128, .f32⟩
  | 8 => ⟨S128x3, .f32⟩
  | 9 => ⟨S3, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .i1⟩
  | 17 => ⟨S_, .f32⟩
  | 18 => ⟨S50000x128, .f32⟩
  | 19 => ⟨S50000x128, .f32⟩
  | 20 => ⟨S50000x128, .f32⟩
  | 21 => ⟨S1x600000, .i32⟩
  | 22 => ⟨S600000, .i32⟩
  | 23 => ⟨S1x600000, .i32⟩
  | 24 => ⟨S600000, .i32⟩
  | 25 => ⟨S50000x128, .f32⟩
  | 26 => ⟨S1x128, .f32⟩
  | 27 => ⟨S50000x128, .f32⟩
  | 28 => ⟨S50000x128, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S1x128x128, .f32⟩
  | 42 => ⟨S128x128, .f32⟩
  | 43 => ⟨S600000x128, .f32⟩
  | 44 => ⟨S600000x1, .i1⟩
  | 45 => ⟨S_, .f32⟩
  | 46 => ⟨S_, .f32⟩
  | 47 => ⟨S600000x128, .i1⟩
  | 48 => ⟨S600000x128, .f32⟩
  | 49 => ⟨S600000x128, .f32⟩
  | 50 => ⟨S_, .f32⟩
  | 51 => ⟨S50000x128, .f32⟩
  | 52 => ⟨S600000x1, .i32⟩
  | 53 => ⟨S50000x128, .f32⟩
  | 54 => ⟨S600000, .f32⟩
  | 55 => ⟨S_, .f32⟩
  | 56 => ⟨S50000, .f32⟩
  | 57 => ⟨S600000x1, .i32⟩
  | 58 => ⟨S50000, .f32⟩
  | 59 => ⟨S_, .f32⟩
  | 60 => ⟨S50000, .f32⟩
  | 61 => ⟨S50000, .f32⟩
  | 62 => ⟨S50000x1, .f32⟩
  | 63 => ⟨S50000x128, .f32⟩
  | 64 => ⟨S50000x128, .f32⟩
  | 65 => ⟨S50000x128, .f32⟩
  | 66 => ⟨S_, .i32⟩
  | 67 => ⟨S600000, .i32⟩
  | 68 => ⟨S600000, .i1⟩
  | 69 => ⟨S_, .i32⟩
  | 70 => ⟨S600000, .i32⟩
  | 71 => ⟨S600000, .i1⟩
  | 72 => ⟨S_, .i32⟩
  | 73 => ⟨S600000, .i32⟩
  | 74 => ⟨S600000, .i32⟩
  | 75 => ⟨S600000, .i32⟩
  | 76 => ⟨S600000x1, .i32⟩
  | 77 => ⟨S600000x128, .f32⟩
  | 78 => ⟨S1x128x128, .f32⟩
  | 79 => ⟨S128x128, .f32⟩
  | 80 => ⟨S600000x128, .f32⟩
  | 81 => ⟨S600000x1, .i1⟩
  | 82 => ⟨S_, .f32⟩
  | 83 => ⟨S_, .f32⟩
  | 84 => ⟨S600000x128, .i1⟩
  | 85 => ⟨S600000x128, .f32⟩
  | 86 => ⟨S600000x128, .f32⟩
  | 87 => ⟨S_, .f32⟩
  | 88 => ⟨S50000x128, .f32⟩
  | 89 => ⟨S600000x1, .i32⟩
  | 90 => ⟨S50000x128, .f32⟩
  | 91 => ⟨S600000, .f32⟩
  | 92 => ⟨S_, .f32⟩
  | 93 => ⟨S50000, .f32⟩
  | 94 => ⟨S600000x1, .i32⟩
  | 95 => ⟨S50000, .f32⟩
  | 96 => ⟨S_, .f32⟩
  | 97 => ⟨S50000, .f32⟩
  | 98 => ⟨S50000, .f32⟩
  | 99 => ⟨S50000x1, .f32⟩
  | 100 => ⟨S50000x128, .f32⟩
  | 101 => ⟨S50000x128, .f32⟩
  | 102 => ⟨S50000x128, .f32⟩
  | 103 => ⟨S1x600000, .i32⟩
  | 104 => ⟨S600000, .i32⟩
  | 105 => ⟨S1x600000, .i32⟩
  | 106 => ⟨S600000, .i32⟩
  | 107 => ⟨S50000x128, .f32⟩
  | 108 => ⟨S1x128, .f32⟩
  | 109 => ⟨S50000x128, .f32⟩
  | 110 => ⟨S50000x128, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S1x128x128, .f32⟩
  | 124 => ⟨S128x128, .f32⟩
  | 125 => ⟨S600000x128, .f32⟩
  | 126 => ⟨S600000x1, .i1⟩
  | 127 => ⟨S_, .f32⟩
  | _ => ⟨S50000x768, .f32⟩

abbrev hbmTy0_1 (i : Nat) : BufTy := match i % 128 with
  | 0 => ⟨S_, .f32⟩
  | 1 => ⟨S600000x128, .i1⟩
  | 2 => ⟨S600000x128, .f32⟩
  | 3 => ⟨S600000x128, .f32⟩
  | 4 => ⟨S_, .f32⟩
  | 5 => ⟨S50000x128, .f32⟩
  | 6 => ⟨S600000x1, .i32⟩
  | 7 => ⟨S50000x128, .f32⟩
  | 8 => ⟨S600000, .f32⟩
  | 9 => ⟨S_, .f32⟩
  | 10 => ⟨S50000, .f32⟩
  | 11 => ⟨S600000x1, .i32⟩
  | 12 => ⟨S50000, .f32⟩
  | 13 => ⟨S_, .f32⟩
  | 14 => ⟨S50000, .f32⟩
  | 15 => ⟨S50000, .f32⟩
  | 16 => ⟨S50000x1, .f32⟩
  | 17 => ⟨S50000x128, .f32⟩
  | 18 => ⟨S50000x128, .f32⟩
  | 19 => ⟨S50000x128, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S1x128x128, .f32⟩
  | 33 => ⟨S128x128, .f32⟩
  | 34 => ⟨S600000x128, .f32⟩
  | 35 => ⟨S600000x1, .i1⟩
  | 36 => ⟨S_, .f32⟩
  | 37 => ⟨S_, .f32⟩
  | 38 => ⟨S600000x128, .i1⟩
  | 39 => ⟨S600000x128, .f32⟩
  | 40 => ⟨S600000x128, .f32⟩
  | 41 => ⟨S_, .f32⟩
  | 42 => ⟨S50000x128, .f32⟩
  | 43 => ⟨S600000x1, .i32⟩
  | 44 => ⟨S50000x128, .f32⟩
  | 45 => ⟨S600000, .f32⟩
  | 46 => ⟨S_, .f32⟩
  | 47 => ⟨S50000, .f32⟩
  | 48 => ⟨S600000x1, .i32⟩
  | 49 => ⟨S50000, .f32⟩
  | 50 => ⟨S_, .f32⟩
  | 51 => ⟨S50000, .f32⟩
  | 52 => ⟨S50000, .f32⟩
  | 53 => ⟨S50000x1, .f32⟩
  | 54 => ⟨S50000x128, .f32⟩
  | 55 => ⟨S50000x128, .f32⟩
  | 56 => ⟨S50000x128, .f32⟩
  | 57 => ⟨S50000x3, .f32⟩
  | 58 => ⟨S1x3, .f32⟩
  | 59 => ⟨S50000x3, .f32⟩
  | 60 => ⟨S50000x3, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_7 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_14 : Ref sig .tc := ⟨.hbm, 111, rfl⟩
abbrev main_v79 : Ref sig .tc := ⟨.hbm, 112, rfl⟩
abbrev main_v80 : Ref sig .tc := ⟨.hbm, 113, rfl⟩
abbrev main_c_15 : Ref sig .tc := ⟨.hbm, 114, rfl⟩
abbrev main_v81 : Ref sig .tc := ⟨.hbm, 115, rfl⟩
abbrev main_v82 : Ref sig .tc := ⟨.hbm, 116, rfl⟩
abbrev main_c_16 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_17 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v92 : Ref sig .tc := ⟨.hbm, 131, rfl⟩
abbrev main_cst_18 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_19 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_20 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_c_21 : Ref sig .tc := ⟨.hbm, 148, rfl⟩
abbrev main_v106 : Ref sig .tc := ⟨.hbm, 149, rfl⟩
abbrev main_v107 : Ref sig .tc := ⟨.hbm, 150, rfl⟩
abbrev main_c_22 : Ref sig .tc := ⟨.hbm, 151, rfl⟩
abbrev main_v108 : Ref sig .tc := ⟨.hbm, 152, rfl⟩
abbrev main_v109 : Ref sig .tc := ⟨.hbm, 153, rfl⟩
abbrev main_c_23 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_24 : Ref sig .tc := ⟨.hbm, 164, rfl⟩
abbrev main_call4_v0 : Ref sig .tc := ⟨.hbm, 165, rfl⟩
abbrev main_call4_v1 : Ref sig .tc := ⟨.hbm, 166, rfl⟩
abbrev main_call4_v2 : Ref sig .tc := ⟨.hbm, 167, rfl⟩
abbrev main_v119 : Ref sig .tc := ⟨.hbm, 168, rfl⟩
abbrev main_cst_25 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_26 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_27 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  slices_S2x128x128_S1x128x128_0_0_0 : S2x128x128.Slices ![0, 0, 0] S1x128x128
  shapeCasts_S1x128x128_S128x128 : S1x128x128.ShapeCasts S128x128
  bcast_S600000x1_S600000x128_0_1 : S600000x1.BroadcastsInDim S600000x128 (![0, 1] : Fin 2 → Fin S600000x128.rank)
  bcast_S_S600000x128 : S_.BroadcastsInDim S600000x128 (![] : Fin 0 → Fin S600000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x128x128_S1x128x128_1_0_0 : S2x128x128.Slices ![1, 0, 0] S1x128x128
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  dot_S50000x768_S768x128_S50000x128_1_0_0_1_n_n_wf : DotDims.WF S50000x768 S768x128 S50000x128 [1] [0] [0] [1] [] []
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x3_S50000x3_1_0_0_1_n_n_wf : DotDims.WF S50000x128 S128x3 S50000x3 [1] [0] [0] [1] [] []

variable [Facts₀]

def dot_S50000x768_S768x128_S50000x128_1_0_0_1_n_n : DotDims S50000x768 S768x128 S50000x128 where
  lhsContracting := [1]
  rhsContracting := [0]
  lhsNonContracting := [0]
  rhsNonContracting := [1]
  lhsBatch := []
  rhsBatch := []
  wf := dot_S50000x768_S768x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.KRaw.lean ====
/-
  The host side of the idealized kernel program, stretch by stretch, as pure functions of the arrays each stretch reads:
  the edge list's two rows, an index word wrapped once when negative, the (node, relation) index pairs, the one-hot
  relation table, the reciprocal per-(node, relation) edge counts, each edge's scale, the three weight matrices laid side
  by side with the bias padded by zeros, and what follows a dense layer of width 384: the root columns plus, summed into
  each destination node, the gathered (source, relation) rows times the edge's scale.
-/
import proofs.«429306_j3298534884295_1_alg».proof.KernelIdeal

noncomputable section

namespace Cert.KernelIdeal.Raw

open Cert.KernelIdeal Idealize.ShloMosaic
open Cert.KernelIdeal.Facts₀ Cert.KernelIdeal.Facts

variable [Cert.KernelIdeal.Facts] {F : FTy → Type} [FloatOps F]

/-- Row 0 of the edge list: each edge's source word. -/
def srcK (ei : IVec S2x600000 32) : IVec S600000 32 :=
  shapeCast S600000 (extractStridedSlice S1x600000 ![0, 0] ei slices_S2x600000_S1x600000_0_0) shapeCasts_S1x600000_S600000
/-- Row 1 of the edge list: each edge's destination word. -/
def dstK (ei : IVec S2x600000 32) : IVec S600000 32 :=
  shapeCast S600000 (extractStridedSlice S1x600000 ![1, 0] ei slices_S2x600000_S1x600000_1_0) shapeCasts_S1x600000_S600000

/-- An index word wrapped once: a negative word has the extent `n` added. -/
def wrapK (n : BitVec 32) (v : IVec S600000 32) : IVec S600000 32 :=
  select (cmpi .slt v (broadcastInDim S600000 ![] bcast_S_S600000 (constantI S_ 32 0#32)))
    (addi v (broadcastInDim S600000 ![] bcast_S_S600000 (constantI S_ 32 n))) v

/-- A vector of words as a column. -/
def colK (v : IVec S600000 32) : IVec S600000x1 32 := broadcastInDim S600000x1 ![0] bcast_S600000_S600000x1_0 v

/-- Two vectors of words side by side: row e is the pair (a e, b e). -/
def pairK (a b : IVec S600000 32) : IVec S600000x2 32 :=
  concatenate S600000x2 1 [⟨S600000x1, colK a⟩, ⟨S600000x1, colK b⟩] concatenates_S600000x1_S600000x1_S600000x2_d1

/-- The one-hot relation table: entry (e, t) is 1 when edge e's relation word is t, else 0. -/
def onehotK (et : IVec S600000 32) : FVec F S600000x2 .f32 :=
  uitofp .f32 (cmpi .eq (broadcastInDim S600000x2 ![0, 1] bcast_S600000x1_S600000x2_0_1 (colK et))
    (broadcastInDim S600000x2 ![0, 1] bcast_S1x2_S600000x2_0_1 (iotaInDim S1x2 32 1)))

/-- Entry (n, t): one over the larger of 1 and the number of edges of relation t into node n. -/
def invCntK (dst et : IVec S600000 32) : FVec F S50000x2 .f32 :=
  Host.divf (broadcastInDim S50000x2 ![] bcast_S_S50000x2 (constant S_ .f32 0x3F800000#32))
    (maximumf
      (Host.scatterAdd scatter_S50000x2_S600000x1_S600000x2_1_0_0_1
        (broadcastInDim S50000x2 ![] bcast_S_S50000x2 (constant S_ .f32 0x00000000#32)) (colK dst) (onehotK et))
      (broadcastInDim S50000x2 ![] bcast_S_S50000x2 (constant S_ .f32 0x3F800000#32)))

/-- Each edge's scale: the reciprocal count at its (destination, relation) pair. -/
def scaleK (dst et : IVec S600000 32) : FVec F S600000 .f32 :=
  Host.gather gather_S50000x2_S600000x2_S600000_n_01_n_n_01_1_11 (invCntK dst et) (pairK (wrapK 50000#32 dst) (wrapK 2#32 et))

/-- The root matrix and the two relation matrices side by side: [128, 384]. -/
def wcombK (wrel : FVec F S2x128x128 .f32) (wroot : FVec F S128x128 .f32) : FVec F S128x384 .f32 :=
  concatenate S128x384 1 [⟨S128x128, wroot⟩, ⟨S128x256,
    concatenate S128x256 1 [⟨S128x128, shapeCast S128x128 (extractStridedSlice S1x128x128 ![0, 0, 0] wrel slices_S2x128x128_S1x128x128_0_0_0) shapeCasts_S1x128x128_S128x128⟩,
      ⟨S128x128, shapeCast S128x128 (extractStridedSlice S1x128x128 ![1, 0, 0] wrel slices_S2x128x128_S1x128x128_1_0_0) shapeCasts_S1x128x128_S128x128⟩]
      concatenates_S128x128_S128x128_S128x256_d1⟩] concatenates_S128x128_S128x256_S128x384_d1

/-- The bias followed by 256 zeros: [384]. -/
def bcombVecK (bconv : FVec F S128 .f32) : FVec F S384 .f32 :=
  concatenate S384 0 [⟨S128, bconv⟩, ⟨S256, broadcastInDim S256 ![] bcast_S_S256 (constant S_ .f32 0x00000000#32)⟩] concatenates_S128_S256_S384_d0

/-- The same as one row: [1, 384]. -/
def bcombK (bconv : FVec F S128 .f32) : FVec F S1x384 .f32 := shapeCast S1x384 (bcombVecK bconv) shapeCasts_S384_S1x384

/-- After a dense layer `o` of width 384: the root columns plus, summed into each destination, the gathered
    (source, relation) rows of the relation columns times the edge's scale. -/
def convTailK (o : FVec F S50000x384 .f32) (src dst et : IVec S600000 32) (sc : FVec F S600000 .f32) : FVec F S50000x128 .f32 :=
  addf (extractStridedSlice S50000x128 ![0, 0] o slices_S50000x384_S50000x128_0_0)
    (Host.scatterAdd scatter_S50000x128_S600000x1_S600000x128_1_0_0_1
      (broadcastInDim S50000x128 ![] bcast_S_S50000x128 (constant S_ .f32 0x00000000#32)) (colK dst)
      (mulf
        (Host.gather gather_S50000x2x128_S600000x2_S600000x128_1_01_n_n_01_1_11128
          (shapeCast S50000x2x128 (extractStridedSlice S50000x256 ![0, 128] o slices_S50000x384_S50000x256_0_128) shapeCasts_S50000x256_S50000x2x128)
          (pairK (wrapK 50000#32 src) (wrapK 2#32 et)))
        (broadcastInDim S600000x128 ![0, 1] bcast_S600000x1_S600000x128_0_1 (broadcastInDim S600000x1 ![0] bcast_S600000_S600000x1_0 sc))))

end Cert.KernelIdeal.Raw

end
-- ==== Proof.KChain.lean ====
/-
  What the idealized kernel program's buffers hold at each boundary between its host stretches and its four regions, as
  the raw host functions of the launch contents: the fold of the segments read one stretch at a time. A buffer no
  operation of a stretch writes, and no window of a region stages, is carried across unchanged.
-/
import proofs.«429306_j3298534884295_1_alg».proof.Proof.Gen.KernelIdeal.Frame
import proofs.«429306_j3298534884295_1_alg».proof.Proof.KRaw
import Idealize.ShloMosaic.PureOps.Ideal

set_option maxRecDepth 16384

noncomputable section

namespace Cert.KernelIdeal.Chain

open Cert.KernelIdeal Cert.KernelIdeal.Gen Cert.KernelIdeal.Raw
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg)

/-- No operation of the named stretch writes the buffer in the goal. -/
macro "not_written" ops:ident : tactic => `(tactic|
  exact List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Stretch 0: the edge list's two rows, the first bias as a row -/

theorem W1_v1 (c : Dev nD) : W1 m ρ c (Proc.devRef .tc main_v1) = srcK (m ((c : Thread nD τ).loc main_arg1)) := by
  show StableHlo.after hostOps0 (W0 m ρ c) (Proc.devRef .tc main_v1) = _
  after_results; rfl
theorem W1_v3 (c : Dev nD) : W1 m ρ c (Proc.devRef .tc main_v3) = dstK (m ((c : Thread nD τ).loc main_arg1)) := by
  show StableHlo.after hostOps0 (W0 m ρ c) (Proc.devRef .tc main_v3) = _
  after_results; rfl
theorem W1_v4 (c : Dev nD) : W1 m ρ c (Proc.devRef .tc main_v4) = shapeCast S1x128 (m ((c : Thread nD τ).loc main_arg4)) Facts₀.shapeCasts_S128_S1x128 := by
  show StableHlo.after hostOps0 (W0 m ρ c) (Proc.devRef .tc main_v4) = _
  after_results; rfl
theorem W1_keep_arg0 (c : Dev nD) : W1 m ρ c (Proc.devRef .tc main_arg0) = m ((c : Thread nD τ).loc main_arg0) :=
  StableHlo.after_of_forall_not_mem (b := (Proc.devRef .tc main_arg0)) hostOps0 (W0 m ρ c) (by not_written hostOps0)
theorem W1_keep_arg2 (c : Dev nD) : W1 m ρ c (Proc.devRef .tc main_arg2) = m ((c : Thread nD τ).loc main_arg2) :=
  StableHlo.after_of_forall_not_mem (b := (Proc.devRef .tc main_arg2)) hostOps0 (W0 m ρ c) (by not_written hostOps0)
theorem W1_keep_arg3 (c : Dev nD) : W1 m ρ c (Proc.devRef .tc main_arg3) = m ((c : Thread nD τ).loc main_arg3) :=
  StableHlo.after_of_forall_not_mem (b := (Proc.devRef .tc main_arg3)) hostOps0 (W0 m ρ c) (by not_written hostOps0)
theorem W1_keep_arg5 (c : Dev nD) : W1 m ρ c (Proc.devRef .tc main_arg5) = m ((c : Thread nD τ).loc main_arg5) :=
  StableHlo.after_of_forall_not_mem (b := (Proc.devRef .tc main_arg5)) hostOps0 (W0 m ρ c) (by not_written hostOps0)
theorem W1_keep_arg6 (c : Dev nD) : W1 m ρ c (Proc.devRef .tc main_arg6) = m ((c : Thread nD τ).loc main_arg6) :=
  StableHlo.after_of_forall_not_mem (b := (Proc.devRef .tc main_arg6)) hostOps0 (W0 m ρ c) (by not_written hostOps0)
theorem W1_keep_arg7 (c : Dev nD) : W1 m ρ c (Proc.devRef .tc main_arg7) = m ((c : Thread nD τ).loc main_arg7) :=
  StableHlo.after_of_forall_not_mem (b := (Proc.devRef .tc main_arg7)) hostOps0 (W0 m ρ c) (by not_written hostOps0)
theorem W1_keep_arg8 (c : Dev nD) : W1 m ρ c (Proc.devRef .tc main_arg8) = m ((c : Thread nD τ).loc main_arg8) :=
  StableHlo.after_of_forall_not_mem (b := (Proc.devRef .tc main_arg8)) hostOps0 (W0 m ρ c) (by not_written hostOps0)
theorem W1_keep_arg9 (c : Dev nD) : W1 m ρ c (Proc.devRef .tc main_arg9) = m ((c : Thread nD τ).loc main_arg9) :=
  StableHlo.after_of_forall_not_mem (b := (Proc.devRef .tc main_arg9)) hostOps0 (W0 m ρ c) (by not_written hostOps0)

/-! ## Across region 0 -/

theorem W2_arg2 (c : Dev nD) : W2 m ρ c (Proc.devRef .tc main_arg2) = m ((c : Thread nD τ).loc main_arg2) :=
  (W2_of_ne m ρ c main_arg2 (by decide)).trans (W1_keep_arg2 m ρ c)
theorem W2_arg5 (c : Dev nD) : W2 m ρ c (Proc.devRef .tc main_arg5) = m ((c : Thread nD τ).loc main_arg5) :=
  (W2_of_ne m ρ c main_arg5 (by decide)).trans (W1_keep_arg5 m ρ c)
theorem W2_arg6 (c : Dev nD) : W2 m ρ c (Proc.devRef .tc main_arg6) = m ((c : Thread nD τ).loc main_arg6) :=
  (W2_of_ne m ρ c main_arg6 (by decide)).trans (W1_keep_arg6 m ρ c)
theorem W2_arg7 (c : Dev nD) : W2 m ρ c (Proc.devRef .tc main_arg7) = m ((c : Thread nD τ).loc main_arg7) :=
  (W2_of_ne m ρ c main_arg7 (by decide)).trans (W1_keep_arg7 m ρ c)
theorem W2_arg8 (c : Dev nD) : W2 m ρ c (Proc.devRef .tc main_arg8) = m ((c : Thread nD τ).loc main_arg8) :=
  (W2_of_ne m ρ c main_arg8 (by decide)).trans (W1_keep_arg8 m ρ c)
theorem W2_arg9 (c : Dev nD) : W2 m ρ c (Proc.devRef .tc main_arg9) = m ((c : Thread nD τ).loc main_arg9) :=
  (W2_of_ne m ρ c main_arg9 (by decide)).trans (W1_keep_arg9 m ρ c)
theorem W2_v1 (c : Dev nD) : W2 m ρ c (Proc.devRef .tc main_v1) = srcK (m ((c : Thread nD τ).loc main_arg1)) := (W2_of_ne m ρ c main_v1 (by decide)).trans (W1_v1 m ρ c)
theorem W2_v3 (c : Dev nD) : W2 m ρ c (Proc.devRef .tc main_v3) = dstK (m ((c : Thread nD τ).loc main_arg1)) := (W2_of_ne m ρ c main_v3 (by decide)).trans (W1_v3 m ρ c)

/-! ## Stretches 1 and 1_1: each edge's scale, the weights side by side, the padded bias -/

set_option maxHeartbeats 40000000 in
theorem W4_v27 (c : Dev nD) : W4 m ρ c (Proc.devRef .tc main_v27) = scaleK (F := Ideal) (dstK (m ((c : Thread nD τ).loc main_arg1))) (m ((c : Thread nD τ).loc main_arg2)) := by
  show StableHlo.after hostOps1_1 (StableHlo.after hostOps1 (W2 m ρ c)) (Proc.devRef .tc main_v27) = _
  after_results
  rw [W2_v3 m ρ c, W2_arg2 m ρ c]; rfl
set_option maxHeartbeats 40000000 in
theorem W4_v33 (c : Dev nD) : W4 m ρ c (Proc.devRef .tc main_v33) = wcombK (F := Ideal) (m ((c : Thread nD τ).loc main_arg5)) (m ((c : Thread nD τ).loc main_arg6)) := by
  show StableHlo.after hostOps1_1 (StableHlo.after hostOps1 (W2 m ρ c)) (Proc.devRef .tc main_v33) = _
  after_results
  rw [W2_arg5 m ρ c, W2_arg6 m ρ c]; rfl
set_option maxHeartbeats 40000000 in
theorem W4_v35 (c : Dev nD) : W4 m ρ c (Proc.devRef .tc main_v35) = bcombVecK (F := Ideal) (m ((c : Thread nD τ).loc main_arg7)) := by
  show StableHlo.after hostOps1_1 (StableHlo.after hostOps1 (W2 m ρ c)) (Proc.devRef .tc main_v35) = _
  after_results
  rw [W2_arg7 m ρ c]; rfl
set_option maxHeartbeats 40000000 in
theorem W4_v36 (c : Dev nD) : W4 m ρ c (Proc.devRef .tc main_v36) = bcombK (F := Ideal) (m ((c : Thread nD τ).loc main_arg7)) := by
  show StableHlo.after hostOps1_1 (StableHlo.after hostOps1 (W2 m ρ c)) (Proc.devRef .tc main_v36) = _
  after_results
  rw [W2_arg7 m ρ c]; rfl
theorem W4_keep_v5 (c : Dev nD) : W4 m ρ c (Proc.devRef .tc main_v5) = W2 m ρ c (Proc.devRef .tc main_v5) :=
  (StableHlo.after_of_forall_not_mem (b := (Proc.devRef .tc main_v5)) hostOps1_1 (W3 m ρ c) (by not_written hostOps1_1)).trans
    (StableHlo.after_of_forall_not_mem (b := (Proc.devRef .tc main_v5)) hostOps1 (W2 m ρ c) (by not_written hostOps1))
theorem W4_keep_v1 (c : Dev nD) : W4 m ρ c (Proc.devRef .tc main_v1) = W2 m ρ c (Proc.devRef .tc main_v1) :=
  (StableHlo.after_of_forall_not_mem (b := (Proc.devRef .tc main_v1)) hostOps1_1 (W3 m ρ c) (by not_written hostOps1_1)).trans
    (StableHlo.after_of_forall_not_mem (b := (Proc.devRef .tc main_v1)) hostOps1 (W2 m ρ c) (by not_written hostOps1))
theorem W4_keep_v3 (c : Dev nD) : W4 m ρ c (Proc.devRef .tc main_v3) = W2 m ρ c (Proc.devRef .tc main_v3) :=
  (StableHlo.after_of_forall_not_mem (b := (Proc.devRef .tc main_v3)) hostOps1_1 (W3 m ρ c) (by not_written hostOps1_1)).trans
    (StableHlo.after_of_forall_not_mem (b := (Proc.devRef .tc main_v3)) hostOps1 (W2 m ρ c) (by not_written hostOps1))
theorem W4_keep_arg2 (c : Dev nD) : W4 m ρ c (Proc.devRef .tc main_arg2) = W2 m ρ c (Proc.devRef .tc main_arg2) :=
  (StableHlo.after_of_forall_not_mem (b := (Proc.devRef .tc main_arg2)) hostOps1_1 (W3 m ρ c) (by not_written hostOps1_1)).trans
    (StableHlo.after_of_forall_not_mem (b := (Proc.devRef .tc main_arg2)) hostOps1 (W2 m ρ c) (by not_written hostOps1))
theorem W4_keep_arg8 (c : Dev nD) : W4 m ρ c (Proc.devRef .tc main_arg8) = W2 m ρ c (Proc.devRef .tc main_arg8) :=
  (StableHlo.after_of_forall_not_mem (b := (Proc.devRef .tc main_arg8)) hostOps1_1 (W3 m ρ c) (by not_written hostOps1_1)).trans
    (StableHlo.after_of_forall_not_mem (b := (Proc.devRef .tc main_arg8)) hostOps1 (W2 m ρ c) (by not_written hostOps1))
theorem W4_keep_arg9 (c : Dev nD) : W4 m ρ c (Proc.devRef .tc main_arg9) = W2 m ρ c (Proc.devRef .tc main_arg9) :=
  (StableHlo.after_of_forall_not_mem (b := (Proc.devRef .tc main_arg9)) hostOps1_1 (W3 m ρ c) (by not_written hostOps1_1)).trans
    (StableHlo.after_of_forall_not_mem (b := (Proc.devRef .tc main_arg9)) hostOps1 (W2 m ρ c) (by not_written hostOps1))

/-! ## Across region 1 (it stages v5, v33, v36 and writes v37) -/

theorem W5_v1 (c : Dev nD) : W5 m ρ c (Proc.devRef .tc main_v1) = srcK (m ((c : Thread nD τ).loc main_arg1)) :=
  (W5_of_ne m ρ c main_v1 (by decide)).trans ((W4_keep_v1 m ρ c).trans (W2_v1 m ρ c))
theorem W5_v3 (c : Dev nD) : W5 m ρ c (Proc.devRef .tc main_v3) = dstK (m ((c : Thread nD τ).loc main_arg1)) :=
  (W5_of_ne m ρ c main_v3 (by decide)).trans ((W4_keep_v3 m ρ c).trans (W2_v3 m ρ c))
theorem W5_arg2 (c : Dev nD) : W5 m ρ c (Proc.devRef .tc main_arg2) = m ((c : Thread nD τ).loc main_arg2) :=
  (W5_of_ne m ρ c main_arg2 (by decide)).trans ((W4_keep_arg2 m ρ c).trans (W2_arg2 m ρ c))
theorem W5_arg8 (c : Dev nD) : W5 m ρ c (Proc.devRef .tc main_arg8) = m ((c : Thread nD τ).loc main_arg8) :=
  (W5_of_ne m ρ c main_arg8 (by decide)).trans ((W4_keep_arg8 m ρ c).trans (W2_arg8 m ρ c))
theorem W5_arg9 (c : Dev nD) : W5 m ρ c (Proc.devRef .tc main_arg9) = m ((c : Thread nD τ).loc main_arg9) :=
  (W5_of_ne m ρ c main_arg9 (by decide)).trans ((W4_keep_arg9 m ρ c).trans (W2_arg9 m ρ c))
theorem W5_v27 (c : Dev nD) : W5 m ρ c (Proc.devRef .tc main_v27) = scaleK (F := Ideal) (dstK (m ((c : Thread nD τ).loc main_arg1))) (m ((c : Thread nD τ).loc main_arg2)) :=
  (W5_of_ne m ρ c main_v27 (by decide)).trans (W4_v27 m ρ c)
theorem W5_v35 (c : Dev nD) : W5 m ρ c (Proc.devRef .tc main_v35) = bcombVecK (F := Ideal) (m ((c : Thread nD τ).loc main_arg7)) :=
  (W5_of_ne m ρ c main_v35 (by decide)).trans (W4_v35 m ρ c)
/-- The weights are an input window of region 1: the pipeline leaves an input array as it found it. -/
theorem W5_v33 (c : Dev nD) : W5 m ρ c (Proc.devRef .tc main_v33) = wcombK (F := Ideal) (m ((c : Thread nD τ).loc main_arg5)) (m ((c : Thread nD τ).loc main_arg6)) :=
  ((W5_arr m ρ c 1).trans (((dat1 (V4 m ρ) c).arrAt_in 1 rfl _).trans (A_eq1 (V4 m ρ) c 1))).trans (W4_v33 m ρ c)

/-! ## Stretch 2: what follows the first dense layer of width 384 -/

set_option maxHeartbeats 40000000 in
theorem W6_v61 (c : Dev nD) : W6 m ρ c (Proc.devRef .tc main_v61)
    = convTailK (F := Ideal) (W5 m ρ c (Proc.devRef .tc main_v37)) (srcK (m ((c : Thread nD τ).loc main_arg1))) (dstK (m ((c : Thread nD τ).loc main_arg1))) (m ((c : Thread nD τ).loc main_arg2))
        (scaleK (dstK (m ((c : Thread nD τ).loc main_arg1))) (m ((c : Thread nD τ).loc main_arg2))) := by
  show StableHlo.after hostOps2 (W5 m ρ c) (Proc.devRef .tc main_v61) = _
  after_results
  rw [W5_v1 m ρ c, W5_v3 m ρ c, W5_arg2 m ρ c, W5_v27 m ρ c]; rfl
theorem W6_v62 (c : Dev nD) : W6 m ρ c (Proc.devRef .tc main_v62) = bcombK (F := Ideal) (m ((c : Thread nD τ).loc main_arg7)) := by
  show StableHlo.after hostOps2 (W5 m ρ c) (Proc.devRef .tc main_v62) = _
  after_results
  rw [W5_v35 m ρ c]; rfl
theorem W6_keep_v33 (c : Dev nD) : W6 m ρ c (Proc.devRef .tc main_v33) = W5 m ρ c (Proc.devRef .tc main_v33) :=
  StableHlo.after_of_forall_not_mem (b := (Proc.devRef .tc main_v33)) hostOps2 (W5 m ρ c) (by not_written hostOps2)
theorem W6_keep_v1 (c : Dev nD) : W6 m ρ c (Proc.devRef .tc main_v1) = W5 m ρ c (Proc.devRef .tc main_v1) :=
  StableHlo.after_of_forall_not_mem (b := (Proc.devRef .tc main_v1)) hostOps2 (W5 m ρ c) (by not_written hostOps2)
theorem W6_keep_v3 (c : Dev nD) : W6 m ρ c (Proc.devRef .tc main_v3) = W5 m ρ c (Proc.devRef .tc main_v3) :=
  StableHlo.after_of_forall_not_mem (b := (Proc.devRef .tc main_v3)) hostOps2 (W5 m ρ c) (by not_written hostOps2)
theorem W6_keep_arg2 (c : Dev nD) : W6 m ρ c (Proc.devRef .tc main_arg2) = W5 m ρ c (Proc.devRef .tc main_arg2) :=
  StableHlo.after_of_forall_not_mem (b := (Proc.devRef .tc main_arg2)) hostOps2 (W5 m ρ c) (by not_written hostOps2)
theorem W6_keep_v27 (c : Dev nD) : W6 m ρ c (Proc.devRef .tc main_v27) = W5 m ρ c (Proc.devRef .tc main_v27) :=
  StableHlo.after_of_forall_not_mem (b := (Proc.devRef .tc main_v27)) hostOps2 (W5 m ρ c) (by not_written hostOps2)
theorem W6_keep_arg8 (c : Dev nD) : W6 m ρ c (Proc.devRef .tc main_arg8) = W5 m ρ c (Proc.devRef .tc main_arg8) :=
  StableHlo.after_of_forall_not_mem (b := (Proc.devRef .tc main_arg8)) hostOps2 (W5 m ρ c) (by not_written hostOps2)
theorem W6_keep_arg9 (c : Dev nD) : W6 m ρ c (Proc.devRef .tc main_arg9) = W5 m ρ c (Proc.devRef .tc main_arg9) :=
  StableHlo.after_of_forall_not_mem (b := (Proc.devRef .tc main_arg9)) hostOps2 (W5 m ρ c) (by not_written hostOps2)

/-! ## Across region 2 (it stages v61, v33, v62 and writes v63) -/

theorem W7_v1 (c : Dev nD) : W7 m ρ c (Proc.devRef .tc main_v1) = srcK (m ((c : Thread nD τ).loc main_arg1)) :=
  (W7_of_ne m ρ c main_v1 (by decide)).trans ((W6_keep_v1 m ρ c).trans (W5_v1 m ρ c))
theorem W7_v3 (c : Dev nD) : W7 m ρ c (Proc.devRef .tc main_v3) = dstK (m ((c : Thread nD τ).loc main_arg1)) :=
  (W7_of_ne m ρ c main_v3 (by decide)).trans ((W6_keep_v3 m ρ c).trans (W5_v3 m ρ c))
theorem W7_arg2 (c : Dev nD) : W7 m ρ c (Proc.devRef .tc main_arg2) = m ((c : Thread nD τ).loc main_arg2) :=
  (W7_of_ne m ρ c main_arg2 (by decide)).trans ((W6_keep_arg2 m ρ c).trans (W5_arg2 m ρ c))
theorem W7_arg8 (c : Dev nD) : W7 m ρ c (Proc.devRef .tc main_arg8) = m ((c : Thread nD τ).loc main_arg8) :=
  (W7_of_ne m ρ c main_arg8 (by decide)).trans ((W6_keep_arg8 m ρ c).trans (W5_arg8 m ρ c))
theorem W7_arg9 (c : Dev nD) : W7 m ρ c (Proc.devRef .tc main_arg9) = m ((c : Thread nD τ).loc main_arg9) :=
  (W7_of_ne m ρ c main_arg9 (by decide)).trans ((W6_keep_arg9 m ρ c).trans (W5_arg9 m ρ c))
theorem W7_v27 (c : Dev nD) : W7 m ρ c (Proc.devRef .tc main_v27) = scaleK (F := Ideal) (dstK (m ((c : Thread nD τ).loc main_arg1))) (m ((c : Thread nD τ).loc main_arg2)) :=
  (W7_of_ne m ρ c main_v27 (by decide)).trans ((W6_keep_v27 m ρ c).trans (W5_v27 m ρ c))
theorem W6_v33 (c : Dev nD) : W6 m ρ c (Proc.devRef .tc main_v33) = wcombK (F := Ideal) (m ((c : Thread nD τ).loc main_arg5)) (m ((c : Thread nD τ).loc main_arg6)) :=
  (W6_keep_v33 m ρ c).trans (W5_v33 m ρ c)

/-! ## Stretch 3: what follows the second dense layer of width 384, and the last bias as a row -/

set_option maxHeartbeats 40000000 in
theorem W8_v87 (c : Dev nD) : W8 m ρ c (Proc.devRef .tc main_v87)
    = convTailK (F := Ideal) (W7 m ρ c (Proc.devRef .tc main_v63)) (srcK (m ((c : Thread nD τ).loc main_arg1))) (dstK (m ((c : Thread nD τ).loc main_arg1))) (m ((c : Thread nD τ).loc main_arg2))
        (scaleK (dstK (m ((c : Thread nD τ).loc main_arg1))) (m ((c : Thread nD τ).loc main_arg2))) := by
  show StableHlo.after hostOps3 (W7 m ρ c) (Proc.devRef .tc main_v87) = _
  after_results
  rw [W7_v1 m ρ c, W7_v3 m ρ c, W7_arg2 m ρ c, W7_v27 m ρ c]; rfl
theorem W8_v88 (c : Dev nD) : W8 m ρ c (Proc.devRef .tc main_v88) = shapeCast S1x3 (m ((c : Thread nD τ).loc main_arg9)) Facts₀.shapeCasts_S3_S1x3 := by
  show StableHlo.after hostOps3 (W7 m ρ c) (Proc.devRef .tc main_v88) = _
  after_results
  rw [W7_arg9 m ρ c]; rfl
theorem W8_arg8 (c : Dev nD) : W8 m ρ c (Proc.devRef .tc main_arg8) = m ((c : Thread nD τ).loc main_arg8) :=
  (StableHlo.after_of_forall_not_mem (b := (Proc.devRef .tc main_arg8)) hostOps3 (W7 m ρ c) (by not_written hostOps3)).trans (W7_arg8 m ρ c)

end Cert.KernelIdeal.Chain

end
-- ==== Proof.Spec.lean ====
/-
  The vocabulary the two programs are compared in, element by element, on the extended reals.

  A dense layer is `x · w + b`: entry (p, q) is the sum over k of x[p, k] · w[k, q], plus b[q]. The first layer is followed by a
  leaky rectifier: v where v ≥ 0, else slope · v, the slope kept as the binary word both programs carry.
-/
import Idealize.ShloMosaic.PureOps.Ideal
import Idealize.ShloMosaic.PureOps.Ideal.Laws
import Idealize.ShloMosaic.Lib.ValueIdx

noncomputable section

open scoped BigOperators

namespace Cert.RGCN

open Idealize.ShloMosaic Idealize.ShloMosaic.ValueIdx

/-- Entry (p, q) of `x · w + b`, the bias given as a one-row matrix: the sum over k of x[p, k] · w[k, q], plus b[0, q]. -/
def linAt {M K N : Nat} (x : FVec Ideal ⟨2, ![M, K]⟩ .f32) (w : FVec Ideal ⟨2, ![K, N]⟩ .f32) (b : FVec Ideal ⟨2, ![1, N]⟩ .f32)
    (p : Fin M) (q : Fin N) : EReal :=
  (∑ k : Fin K, x (ix2 p k) * w (ix2 k q)) + b (ix2 (0 : Fin 1) q)

/-- `x · w + b` as an array. -/
def lin {M K N : Nat} (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => linAt x w b (i 0) (i 1)

theorem lin_ix2 {M K N : Nat} (x : FVec Ideal ⟨2, ![M, K]⟩ .f32) (w : FVec Ideal ⟨2, ![K, N]⟩ .f32) (b : FVec Ideal ⟨2, ![1, N]⟩ .f32)
    (p : Fin M) (q : Fin N) : lin x w b (ix2 p q) = linAt x w b p q := rfl

/-- The leaky rectifier on one extended real: v where v ≥ 0, else the slope word's value times v. -/
def leakyE (v : EReal) : EReal :=
  Scalar.select (FloatOps.cmpf (F := Ideal) (φ := .f32) .oge v (Ideal.ofBits .f32 0x00000000#32)) v (Ideal.ofBits .f32 0x3C23D70A#32 * v)

/-- The leaky rectifier on an array, entry by entry. -/
def leaky {s : Shape} (v : FVec Ideal s .f32) : FVec Ideal s .f32 := fun i => leakyE (v i)

theorem leaky_apply {s : Shape} (v : FVec Ideal s .f32) (i : s.Idx) : leaky v i = leakyE (v i) := rfl

end Cert.RGCN

end
-- ==== Proof.KFn.lean ====
/-
  The idealized kernel program as ONE function of its ten argument arrays: the first dense layer with the rectifier;
  twice, a dense layer of width 384 over the weights laid side by side followed by the gather, scale and sum into
  destinations; the last dense layer.
-/
import proofs.«429306_j3298534884295_1_alg».proof.Proof.KRaw
import proofs.«429306_j3298534884295_1_alg».proof.Proof.Spec

noncomputable section

namespace Cert.KernelIdeal.Raw

open Cert.KernelIdeal Cert.RGCN Idealize.ShloMosaic
open Cert.KernelIdeal.Facts₀ Cert.KernelIdeal.Facts

variable [Cert.KernelIdeal.Facts]

/-- One graph layer on the kernel side, from the layer's input `x`. -/
def convK (x : FVec Ideal S50000x128 .f32) (ei : IVec S2x600000 32) (et : IVec S600000 32) (wrel : FVec Ideal S2x128x128 .f32)
    (wroot : FVec Ideal S128x128 .f32) (bconv : FVec Ideal S128 .f32) : FVec Ideal S50000x128 .f32 :=
  convTailK (F := Ideal) (lin x (wcombK wrel wroot) (bcombK bconv)) (srcK ei) (dstK ei) et (scaleK (dstK ei) et)

/-- The whole program. -/
def kernelFn (x0 : FVec Ideal S50000x768 .f32) (x1 : IVec S2x600000 32) (x2 : IVec S600000 32) (x3 : FVec Ideal S768x128 .f32)
    (x4 : FVec Ideal S128 .f32) (x5 : FVec Ideal S2x128x128 .f32) (x6 : FVec Ideal S128x128 .f32) (x7 : FVec Ideal S128 .f32)
    (x8 : FVec Ideal S128x3 .f32) (x9 : FVec Ideal S3 .f32) : FVec Ideal S50000x3 .f32 :=
  lin (convK (convK (leaky (lin x0 x3 (shapeCast S1x128 x4 shapeCasts_S128_S1x128))) x1 x2 x5 x6 x7) x1 x2 x5 x6 x7) x8
    (shapeCast S1x3 x9 shapeCasts_S3_S1x3)

end Cert.KernelIdeal.Raw

end
-- ==== Proof.KRegion0.lean ====
/-
  The value of the first kernel region, read off its proof data: after the pipeline has run over its 25 grid points the
  region's output array holds the leaky rectifier of the dense layer x · w + b of its three input arrays, whatever the
  buffer contents V the region is entered at.

  Two steps. At an entry: what the body stores at (p, q) of its block is the rectifier of the sum over k of
  x[p, k] · w[k, q], plus b[0, q], of the three blocks it loaded (the narrowing of the product's operands is the identity on
  the extended reals, and the product's zero accumulator adds nothing). From blocks to the array: point t's block of the
  first input and of the output is rows 2000 t … 2000 t + 1999, the weight and the bias are whole at every point, so what
  point t writes back is block t of ONE function of the input arrays; the 25 row blocks cover the 50000 rows.
-/
import proofs.«429306_j3298534884295_1_alg».proof.Proof.Gen.KernelIdeal.Frame
import proofs.«429306_j3298534884295_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.ValueIdx
open Idealize.ShloMosaic.TcCoe Idealize.SL.Sem
open Idealize.ShloMosaic.Pipeline (Dat)

/-! ## The product's operand indices, axis by axis -/

/-- The left operand's row coordinate is the output's row coordinate. -/
theorem lhs_row_is_output_row (i : S2000x128.Idx) (q : dot_S2000x768_S768x128_S2000x128_1_0_0_1_n_n.contr.Idx) :
    (dot_S2000x768_S768x128_S2000x128_1_0_0_1_n_n.lhsIdx i q 0).val = (i 0).val := by
  unfold DotDims.lhsIdx
  rw [dif_neg (show ¬(0 : Fin S2000x768.rank) ∈ dot_S2000x768_S768x128_S2000x128_1_0_0_1_n_n.lhsBatch by decide), dif_pos (show (0 : Fin S2000x768.rank) ∈ dot_S2000x768_S768x128_S2000x128_1_0_0_1_n_n.lhsNonContracting by decide)]
  rfl
/-- The left operand's column coordinate is the contraction coordinate. -/
theorem lhs_col_is_contracted (i : S2000x128.Idx) (q : dot_S2000x768_S768x128_S2000x128_1_0_0_1_n_n.contr.Idx) :
    (dot_S2000x768_S768x128_S2000x128_1_0_0_1_n_n.lhsIdx i q 1).val = (q ⟨0, by decide⟩).val :=
  dot_S2000x768_S768x128_S2000x128_1_0_0_1_n_n.lhsIdx_val_of_single rfl i q
/-- The right operand's row coordinate is the contraction coordinate. -/
theorem rhs_row_is_contracted (i : S2000x128.Idx) (q : dot_S2000x768_S768x128_S2000x128_1_0_0_1_n_n.contr.Idx) :
    (dot_S2000x768_S768x128_S2000x128_1_0_0_1_n_n.rhsIdx i q 0).val = (q ⟨0, by decide⟩).val :=
  dot_S2000x768_S768x128_S2000x128_1_0_0_1_n_n.rhsIdx_val_of_single rfl i q
/-- The right operand's column coordinate is the output's column coordinate. -/
theorem rhs_col_is_output_col (i : S2000x128.Idx) (q : dot_S2000x768_S768x128_S2000x128_1_0_0_1_n_n.contr.Idx) :
    (dot_S2000x768_S768x128_S2000x128_1_0_0_1_n_n.rhsIdx i q 1).val = (i 1).val := by
  unfold DotDims.rhsIdx
  rw [dif_neg (show ¬(1 : Fin S768x128.rank) ∈ dot_S2000x768_S768x128_S2000x128_1_0_0_1_n_n.rhsBatch by decide), dif_pos (show (1 : Fin S768x128.rank) ∈ dot_S2000x768_S768x128_S2000x128_1_0_0_1_n_n.rhsNonContracting by decide)]
  rfl

/-- The block product into the zero accumulator, at entry (p, q): the sum over k of a[p, k] · b[k, q]. -/
theorem block_product_entry {φ₁ φ₂ : FTy} (a : FVec Ideal S2000x768 φ₁) (b : FVec Ideal S768x128 φ₂) (p : Fin 2000) (q : Fin 128) :
    matmul dot_S2000x768_S768x128_S2000x128_1_0_0_1_n_n none a b (constant (F := Ideal) S2000x128 .f32 0x00000000#32) (ix2 p q)
      = ∑ k : Fin 768, a (ix2 p k) * b (ix2 k q) := by
  show FloatOps.matmul _ _ _ _ _ _ = _
  rw [Ideal.matmul_constant_zero_apply, ← Equiv.sum_comp (contrEquiv1 dot_S2000x768_S768x128_S2000x128_1_0_0_1_n_n 768 rfl rfl).symm]
  refine Finset.sum_congr rfl fun k _ => ?_
  have hk := contrEquiv1_symm_val dot_S2000x768_S768x128_S2000x128_1_0_0_1_n_n 768 rfl rfl k
  have el : dot_S2000x768_S768x128_S2000x128_1_0_0_1_n_n.lhsIdx (ix2 p q) ((contrEquiv1 dot_S2000x768_S768x128_S2000x128_1_0_0_1_n_n 768 rfl rfl).symm k) = ix2 p k := funext fun a => Fin.ext (by
    match a with
    | ⟨0, _⟩ => exact lhs_row_is_output_row _ _
    | ⟨1, _⟩ => exact (lhs_col_is_contracted _ _).trans hk)
  have er : dot_S2000x768_S768x128_S2000x128_1_0_0_1_n_n.rhsIdx (ix2 p q) ((contrEquiv1 dot_S2000x768_S768x128_S2000x128_1_0_0_1_n_n 768 rfl rfl).symm k) = ix2 k q := funext fun a => Fin.ext (by
    match a with
    | ⟨0, _⟩ => exact (rhs_row_is_contracted _ _).trans hk
    | ⟨1, _⟩ => exact rhs_col_is_output_col _ _)
  rw [el, er]

/-! ## The body's payload at an entry -/

/-- Entry (p, q) of what the body stores: the leaky rectifier of the dense layer's entry, from the three loaded blocks. -/
theorem payload_entry (x0 : Vec Ideal S2000x768 .f32) (x1 : Vec Ideal S768x128 .f32) (x2 : Vec Ideal S1x128 .f32) (p : Fin 2000) (q : Fin 128) :
    k0_pay1 (F := Ideal) x0 x1 x2 (ix2 p q) = Cert.RGCN.leakyE (Cert.RGCN.linAt x0 x1 x2 p q) := by
  unfold k0_pay1
  rw [select_apply, cmpf_apply, mulf_apply, broadcast_apply, broadcast_apply, addf_apply, block_product_entry,
    broadcastTo_1b_ab_apply, shapeCast_self]
  rfl

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- What the output array ends holding: the leaky rectifier of the dense layer of the three input arrays as the region finds them. -/
abbrev denseLeaky (c : Dev nD) : S50000x128.Idx → EReal :=
  Cert.RGCN.leaky (Cert.RGCN.lin (V c main_arg0) (V c main_arg3) (V c main_v4))

theorem denseLeaky_entry (c : Dev nD) (P : Fin 50000) (Q : Fin 128) :
    denseLeaky V c (ix2 P Q) = Cert.RGCN.leakyE (Cert.RGCN.linAt (V c main_arg0) (V c main_arg3) (V c main_v4) P Q) := rfl

/-- The index maps over the 25 grid points: the row blocks of the first input and of the output move together with the
    point, in range; the weight and the bias are the whole array at every point; no window moves along its columns. -/
theorem row_block_of_point : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 24 ∧ win0_3.index t (1 : Fin 2) = 0 :=
  (by decide +kernel : ∀ t : Fin grid0.N, _)

/-- Every row block of the output is some point's. -/
theorem every_row_block_reached : ∀ q0 : Fin 25, ∃ t : Fin cfg0.N, win0_3.index t = ![q0.val, 0] :=
  (by decide +kernel : ∀ q0 : Fin 25, ∃ t : Fin grid0.N, win0_3.index t = ![q0.val, 0])

/-- Entry (p, k) of the first input's block at point t is entry (P, k) of the array, P the block's row offset plus p. -/
theorem input_block_entry (c : Dev nD) (t : Fin cfg0.N) (p : Fin 2000) (k : Fin 768) (P : Fin 50000)
    (hP : P.val = win0_0.index t (0 : Fin 2) * 2000 + p.val) (h1 : win0_0.index t (1 : Fin 2) = 0) :
    (iblk0 V c 0 t : S2000x768.Idx → EReal) (ix2 p k) = (V c main_arg0 : S50000x768.Idx → EReal) (ix2 P k) := by
  show V c main_arg0 (((cfg0.win 0).blk t).view.emb (ix2 p k)) = _
  refine congrArg _ (funext fun a => Fin.ext ?_)
  match a with
  | ⟨0, _⟩ => show win0_0.index t (0 : Fin 2) * 2000 + 1 * p.val = P.val; omega
  | ⟨1, _⟩ => show win0_0.index t (1 : Fin 2) * 768 + 1 * k.val = k.val; omega

/-- The weight's block at any point is the weight. -/
theorem weight_block_entry (c : Dev nD) (t : Fin cfg0.N) (k : Fin 768) (q : Fin 128)
    (h0 : win0_1.index t (0 : Fin 2) = 0) (h1 : win0_1.index t (1 : Fin 2) = 0) :
    (iblk0 V c 1 t : S768x128.Idx → EReal) (ix2 k q) = (V c main_arg3 : S768x128.Idx → EReal) (ix2 k q) := by
  show V c main_arg3 (((cfg0.win 1).blk t).view.emb (ix2 k q)) = _
  refine congrArg _ (funext fun a => Fin.ext ?_)
  match a with
  | ⟨0, _⟩ => show win0_1.index t (0 : Fin 2) * 768 + 1 * k.val = k.val; omega
  | ⟨1, _⟩ => show win0_1.index t (1 : Fin 2) * 128 + 1 * q.val = q.val; omega

/-- The bias row's block at any point is the bias row. -/
theorem bias_block_entry (c : Dev nD) (t : Fin cfg0.N) (z : Fin 1) (q : Fin 128)
    (h0 : win0_2.index t (0 : Fin 2) = 0) (h1 : win0_2.index t (1 : Fin 2) = 0) :
    (iblk0 V c 2 t : S1x128.Idx → EReal) (ix2 z q) = (V c main_v4 : S1x128.Idx → EReal) (ix2 z q) := by
  show V c main_v4 (((cfg0.win 2).blk t).view.emb (ix2 z q)) = _
  refine congrArg _ (funext fun a => Fin.ext ?_)
  match a with
  | ⟨0, _⟩ => show win0_2.index t (0 : Fin 2) * 1 + 1 * z.val = z.val; omega
  | ⟨1, _⟩ => show win0_2.index t (1 : Fin 2) * 128 + 1 * q.val = q.val; omega

/-- Entry j of what point t's body stores is the array function at the block's entry j. -/
theorem block_entry (c : Dev nD) (t : Fin cfg0.N) (j : S2000x128.Idx) :
    k0_pay1 (F := Ideal) (iblk0 V c 0 t) (iblk0 V c 1 t) (iblk0 V c 2 t) j = denseLeaky V c (((cfg0.win 3).blk t).view.emb j) := by
  obtain ⟨p, q, rfl⟩ : ∃ (p : Fin 2000) (q : Fin 128), j = ix2 p q := ⟨j 0, j 1, eq_ix2 j⟩
  obtain ⟨e00, e01, e10, e11, e20, e21, e30, e31⟩ := row_block_of_point t
  have hp : p.val < 2000 := p.isLt
  have hi : ((cfg0.win 3).blk t).view.emb (ix2 p q)
      = ix2 (n0 := 50000) (n1 := 128) ⟨win0_3.index t (0 : Fin 2) * 2000 + p.val, by omega⟩ q :=
    funext fun a => Fin.ext (by
      match a with
      | ⟨0, _⟩ => show win0_3.index t (0 : Fin 2) * 2000 + 1 * p.val = win0_3.index t (0 : Fin 2) * 2000 + p.val; omega
      | ⟨1, _⟩ => show win0_3.index t (1 : Fin 2) * 128 + 1 * q.val = q.val; omega)
  rw [hi, denseLeaky_entry, payload_entry]
  refine congrArg Cert.RGCN.leakyE ?_
  unfold Cert.RGCN.linAt
  rw [bias_block_entry V c t 0 q e20 e21]
  refine congrArg (· + _) (Finset.sum_congr rfl fun k _ => ?_)
  rw [input_block_entry V c t p k ⟨win0_3.index t (0 : Fin 2) * 2000 + p.val, by omega⟩ (by show win0_3.index t (0 : Fin 2) * 2000 + p.val = _; rw [e00]) e01,
    weight_block_entry V c t k q e10 e11]

/-- WHAT POINT t WRITES BACK is block t of the array function. -/
theorem written_back_eq (c : Dev nD) (t : Fin cfg0.N) :
    (dat0 V c).flushed 3 t = ((cfg0.win 3).blk t).view.read (Elt Ideal) (denseLeaky V c) := by
  show (cfg0.win 3).cut (grid0.coords t) ((dat0 V c).after 3 t) = _
  rw [after0_3]
  unfold out0_3
  rw [View.canon_unit_zero zero_offsets]
  simp only [View.ld_unit_zero (S := S2000x768) zero_offsets, View.ld_unit_zero (S := S768x128) zero_offsets, View.ld_unit_zero (S := S1x128) zero_offsets]
  funext j
  exact block_entry V c t j

/-- An index of the array is in point t's block iff each coordinate is in the block's range on its axis. -/
theorem mem_row_block_iff (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v5).slice (win0_3.rect t)).set ↔ _
  rw [View.set_slice_whole, Rect.mem_set_unit]
  exact Iff.rfl

/-- The 25 row blocks row_blocks_cover the array: row r is in the block of the point r / 2000. -/
theorem row_blocks_cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := every_row_block_reached ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_row_block_iff]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE ARRAY after the 25 points: the leaky rectifier of the dense layer of the input arrays as the region finds them. -/
theorem region0_value (c : Dev nD) :
    (dat0 (F := Ideal) V c).arrAt 3 cfg0.N = Cert.RGCN.leaky (Cert.RGCN.lin (V c main_arg0) (V c main_arg3) (V c main_v4)) :=
  (dat0 V c).arrAt_eq_of_cover 3 (denseLeaky V c) (fun t _ => written_back_eq V c t) row_blocks_cover

end Cert.KernelIdeal.Region0

end
-- ==== Proof.KRegion1.lean ====
/-
  The value of the region of kernel call 1 (the program's kernel calls are numbered from 0): a dense layer, computed 2000 rows at a time.

  The region reads three arrays as it finds them — X : [50000, 128], W : [128, 384] and the one-row B : [1, 384] — and writes one,
  [50000, 384]. Its grid has 25 points. At point t the body sees rows 2000·t … 2000·t + 1999 of X, all of W and all of B, and leaves in
  the output's block the product of its two operand blocks plus the bias row repeated down the rows; the format changes and the casts
  to the same shape in between are the identity on the extended reals, and the product's accumulator is the zero word. So entry (p, q) of
  the block is the sum over k of X[2000·t + p, k] · W[k, q], plus B[0, q]: entry (2000·t + p, q) of X · W + B. The 25 blocks tile the
  output's rows, so once every point has written its block back the array is X · W + B.
-/
import proofs.«429306_j3298534884295_1_alg».proof.Proof.Gen.KernelIdeal.Frame
import proofs.«429306_j3298534884295_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)
open Cert.RGCN (lin linAt lin_ix2)

/-! ## The contraction's operand indices, axis by axis

At output index i and contraction index q the left operand is read at (i 0, q) and the right operand at (q, i 1). -/

theorem lhs_axis0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem lhs_axis1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem rhs_axis0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem rhs_axis1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-! ## The body's result at an index -/

/-- The block product into the zero accumulator, at (p, q): the sum over the 128 contracted positions of x[p, k] · w[k, q]. -/
theorem matmul_at {φ₁ φ₂ : FTy} (x : FVec Ideal S2000x128 φ₁) (w : FVec Ideal S128x384 φ₂) (p : Fin 2000) (q : Fin 384) :
    matmul (F := Ideal) dot_S2000x128_S128x384_S2000x384_1_0_0_1_n_n none x w (constant (F := Ideal) S2000x384 .f32 0x00000000#32) (ix2 p q)
      = ∑ k : Fin 128, x (ix2 p k) * w (ix2 k q) := by
  simp only [matmul]
  rw [Ideal.matmul_constant_zero_apply, ← Equiv.sum_comp (ValueIdx.contrEquiv1 dot_S2000x128_S128x384_S2000x384_1_0_0_1_n_n 128 rfl rfl).symm]
  refine Finset.sum_congr rfl fun k _ => ?_
  have hk := ValueIdx.contrEquiv1_symm_val dot_S2000x128_S128x384_S2000x384_1_0_0_1_n_n 128 rfl rfl k
  have el : dot_S2000x128_S128x384_S2000x384_1_0_0_1_n_n.lhsIdx (ix2 p q) ((ValueIdx.contrEquiv1 dot_S2000x128_S128x384_S2000x384_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x384_S2000x384_1_0_0_1_n_n.rhsIdx (ix2 p q) ((ValueIdx.contrEquiv1 dot_S2000x128_S128x384_S2000x384_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's result at (p, q), of any three loaded blocks: the sum over k of x0[p, k] · x1[k, q], plus x2[0, q]. The casts to the
    same shape and the narrowing format changes read through; the bias row, repeated down the rows, is read at row 0. -/
theorem pay_at (x0 : Vec Ideal S2000x128 .f32) (x1 : Vec Ideal S128x384 .f32) (x2 : Vec Ideal S1x384 .f32) (p : Fin 2000) (q : Fin 384) :
    k1_pay1 (F := Ideal) x0 x1 x2 (ix2 p q) = (∑ k : Fin 128, x0 (ix2 p k) * x1 (ix2 k q)) + x2 (ix2 (0 : Fin 1) q) := by
  unfold k1_pay1
  simp only [shapeCast_self]
  rw [addf_apply, matmul_at]
  rw [broadcastTo_apply x2 broadcasts_S1x384_S2000x384 (ix2 p q) (ix2 (0 : Fin 1) q) (fun a => by
    match a with
    | ⟨0, _⟩ => rfl
    | ⟨1, _⟩ => rfl)]
  rfl

/-- One entry: if the blocks read the arrays X, W, B so that row p of the first is row r of X and the other two are W and B
    themselves, then the body's result at (p, q) is entry (r, q) of X · W + B. -/
theorem point_eq (X : FVec Ideal S50000x128 .f32) (W : FVec Ideal S128x384 .f32) (B : FVec Ideal S1x384 .f32)
    (x0 : Vec Ideal S2000x128 .f32) (x1 : Vec Ideal S128x384 .f32) (x2 : Vec Ideal S1x384 .f32)
    (p : Fin 2000) (q : Fin 384) (r : Fin 50000)
    (h0 : ∀ k : Fin 128, x0 (ix2 p k) = X (ix2 r k)) (h1 : ∀ k : Fin 128, x1 (ix2 k q) = W (ix2 k q))
    (h2 : x2 (ix2 (0 : Fin 1) q) = B (ix2 (0 : Fin 1) q)) :
    k1_pay1 (F := Ideal) x0 x1 x2 (ix2 p q) = lin X W B (ix2 r q) := by
  rw [pay_at, lin_ix2]
  unfold linAt
  rw [h2]
  exact congrArg (· + B (ix2 (0 : Fin 1) q)) (Finset.sum_congr rfl fun k _ => by rw [h0 k, h1 k])

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the 25 grid points: the two row-blocked windows sit at block (t, 0), the two whole-array windows at block (0, 0). -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block is row 2000·t + p of the array. -/
def row (t : Fin cfg1.N) (p : Fin 2000) : Fin 50000 :=
  ⟨2000 * t.val + p.val, by have := t.isLt; have hN : cfg1.N = 25 := N_1; omega⟩

/-- Point t's block of the row-blocked input, at (p, k): the array at (2000·t + p, k). A block's coordinate is the block index times
    the block's extent plus the coordinate inside the block. -/
theorem blk0_at (c : Dev nD) (t : Fin cfg1.N) (p : Fin 2000) (k : Fin 128) :
    (iblk1 V c 0 t : Vec Ideal S2000x128 .f32) (ix2 p k) = (V c main_v5 : FVec Ideal S50000x128 .f32) (ix2 (row t p) k) := by
  obtain ⟨e0, e1, -⟩ := index_maps t
  show V c main_v5 (((cfg1.win 0).blk t).view.emb (ix2 p k)) = V c main_v5 (ix2 (row t p) k)
  refine congrArg (V c main_v5) (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * k.val = k.val; omega

/-- The weights' window holds the whole array at every point. -/
theorem blk1_at (c : Dev nD) (t : Fin cfg1.N) (k : Fin 128) (q : Fin 384) :
    (iblk1 V c 1 t : Vec Ideal S128x384 .f32) (ix2 k q) = (V c main_v33 : FVec Ideal S128x384 .f32) (ix2 k q) := by
  obtain ⟨-, -, e2, e3, -⟩ := index_maps t
  show V c main_v33 (((cfg1.win 1).blk t).view.emb (ix2 k q)) = V c main_v33 (ix2 k q)
  refine congrArg (V c main_v33) (funext fun a => Fin.ext ?_)
  match a with
  | ⟨0, _⟩ => show win1_1.index t (0 : Fin 2) * 128 + 1 * k.val = k.val; omega
  | ⟨1, _⟩ => show win1_1.index t (1 : Fin 2) * 384 + 1 * q.val = q.val; omega

/-- The bias row's window holds the whole row at every point. -/
theorem blk2_at (c : Dev nD) (t : Fin cfg1.N) (q : Fin 384) :
    (iblk1 V c 2 t : Vec Ideal S1x384 .f32) (ix2 (0 : Fin 1) q) = (V c main_v36 : FVec Ideal S1x384 .f32) (ix2 (0 : Fin 1) q) := by
  obtain ⟨-, -, -, -, e4, e5, -⟩ := index_maps t
  show V c main_v36 (((cfg1.win 2).blk t).view.emb (ix2 (0 : Fin 1) q)) = V c main_v36 (ix2 (0 : Fin 1) q)
  refine congrArg (V c main_v36) (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 384 + 1 * q.val = q.val; omega

/-- Where point t's output block sits: (p, q) of the block is (2000·t + p, q) of the array. -/
theorem out_at (t : Fin cfg1.N) (p : Fin 2000) (q : Fin 384) :
    ((cfg1.win 3).blk t).view.emb (ix2 p q) = (ix2 (row t p) q : S50000x384.Idx) := by
  obtain ⟨-, -, -, -, -, -, e6, e7⟩ := index_maps t
  funext a; apply Fin.ext
  match a with
  | ⟨0, _⟩ => show win1_3.index t (0 : Fin 2) * 2000 + 1 * p.val = 2000 * t.val + p.val; omega
  | ⟨1, _⟩ => show win1_3.index t (1 : Fin 2) * 384 + 1 * q.val = q.val; omega

/-- What point t writes back is block t of X · W + B, of the three arrays as the region finds them. -/
theorem flushed_eq (c : Dev nD) (t : Fin cfg1.N) :
    (dat1 (F := Ideal) V c).flushed 3 t
      = ((cfg1.win 3).blk t).view.read (Elt Ideal) (lin (V c main_v5 : FVec Ideal S50000x128 .f32) (V c main_v33 : FVec Ideal S128x384 .f32) (V c main_v36 : FVec Ideal S1x384 .f32)) := by
  show (cfg1.win 3).cut (grid1.coords t) ((dat1 V c).after 3 t) = _
  rw [after1_3]
  unfold out1_3
  rw [View.canon_unit_zero zero_offsets]
  simp only [View.ld_unit_zero (S := S2000x128) zero_offsets, View.ld_unit_zero (S := S128x384) zero_offsets, View.ld_unit_zero (S := S1x384) zero_offsets]
  funext j
  obtain ⟨p, q, rfl⟩ : ∃ (p : Fin 2000) (q : Fin 384), j = ix2 p q := ⟨j 0, j 1, eq_ix2 j⟩
  show k1_pay1 (F := Ideal) (iblk1 V c 0 t) (iblk1 V c 1 t) (iblk1 V c 2 t) (ix2 p q)
      = lin (V c main_v5 : FVec Ideal S50000x128 .f32) (V c main_v33 : FVec Ideal S128x384 .f32) (V c main_v36 : FVec Ideal S1x384 .f32) (((cfg1.win 3).blk t).view.emb (ix2 p q))
  rw [out_at]
  exact point_eq _ _ _ _ _ _ p q (row t p) (fun k => blk0_at V c t p k) (fun k => blk1_at V c t k q) (blk2_at V c t q)

/-- An index of the result array is in point t's block iff each coordinate is in the block's range on its axis. -/
theorem mem_blk (t : Fin cfg1.N) (i : S50000x384.Idx) :
    i ∈ ((cfg1.win 3).blk t).view.set ↔ ∀ a : Fin 2, win1_3.index t a * S2000x384.size a ≤ (i a).val ∧ (i a).val < win1_3.index t a * S2000x384.size a + S2000x384.size a := by
  show i ∈ ((View.whole main_v37).slice (win1_3.rect t)).set ↔ _
  rw [View.set_slice_whole, Rect.mem_set_unit]
  exact Iff.rfl

/-- The 25 row blocks tile the result array: row r lies in the block of point r / 2000, and every point writes its block back. -/
theorem covered (i : S50000x384.Idx) : ∃ t : Fin cfg1.N, (cfg1.win 3).flush t = true ∧ i ∈ ((cfg1.win 3).blk t).view.set := by
  have hi0 : (i 0).val < 50000 := (i 0).isLt
  have hi1 : (i 1).val < 384 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, -, -, e6, e7⟩ := index_maps t
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 384 ≤ (i 1).val ∧ (i 1).val < win1_3.index t (1 : Fin 2) * 384 + 384; omega

/-- After the pipeline has run over all 25 points the result array holds X · W + B of the region's three input arrays. -/
theorem region1_value (c : Dev nD) :
    (dat1 (F := Ideal) V c).arrAt 3 cfg1.N = Cert.RGCN.lin (V c main_v5) (V c main_v33) (V c main_v36) :=
  (dat1 V c).arrAt_eq_of_cover 3 _ (fun t _ => flushed_eq V c t) covered

end Cert.KernelIdeal.Region1

end
-- ==== Proof.KRegion2.lean ====
/-
  The value of the region of kernel call 2 (the program's kernel calls are numbered from 0): the same dense layer as call 1's, on
  this call's own input arrays.

  The region reads three arrays as it finds them — X : [50000, 128], the weights W : [128, 384] and the one-row B : [1, 384] — and
  writes one, [50000, 384]. Its grid has 25 points. At point t the body sees rows 2000·t … 2000·t + 1999 of X, all of W and all of B,
  and leaves in the output's block the product of its two operand blocks plus the bias row repeated down the rows; the format changes
  and the casts to the same shape in between are the identity on the extended reals, and the product's accumulator is the zero word. So
  entry (p, q) of the block is the sum over k of X[2000·t + p, k] · W[k, q], plus B[0, q]: entry (2000·t + p, q) of X · W + B. The 25
  blocks tile the output's rows, so once every point has written its block back the array is X · W + B.
-/
import proofs.«429306_j3298534884295_1_alg».proof.Proof.Gen.KernelIdeal.Frame
import proofs.«429306_j3298534884295_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)
open Cert.RGCN (lin linAt lin_ix2)

/-! ## The contraction's operand indices, axis by axis

At output index i and contraction index q the left operand is read at (i 0, q) and the right operand at (q, i 1). -/

theorem lhs_axis0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem lhs_axis1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem rhs_axis0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem rhs_axis1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-! ## The body's result at an index -/

/-- The block product into the zero accumulator, at (p, q): the sum over the 128 contracted positions of x[p, k] · w[k, q]. -/
theorem matmul_at {φ₁ φ₂ : FTy} (x : FVec Ideal S2000x128 φ₁) (w : FVec Ideal S128x384 φ₂) (p : Fin 2000) (q : Fin 384) :
    matmul (F := Ideal) dot_S2000x128_S128x384_S2000x384_1_0_0_1_n_n none x w (constant (F := Ideal) S2000x384 .f32 0x00000000#32) (ix2 p q)
      = ∑ k : Fin 128, x (ix2 p k) * w (ix2 k q) := by
  simp only [matmul]
  rw [Ideal.matmul_constant_zero_apply, ← Equiv.sum_comp (ValueIdx.contrEquiv1 dot_S2000x128_S128x384_S2000x384_1_0_0_1_n_n 128 rfl rfl).symm]
  refine Finset.sum_congr rfl fun k _ => ?_
  have hk := ValueIdx.contrEquiv1_symm_val dot_S2000x128_S128x384_S2000x384_1_0_0_1_n_n 128 rfl rfl k
  have el : dot_S2000x128_S128x384_S2000x384_1_0_0_1_n_n.lhsIdx (ix2 p q) ((ValueIdx.contrEquiv1 dot_S2000x128_S128x384_S2000x384_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x384_S2000x384_1_0_0_1_n_n.rhsIdx (ix2 p q) ((ValueIdx.contrEquiv1 dot_S2000x128_S128x384_S2000x384_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's result at (p, q), of any three loaded blocks: the sum over k of x0[p, k] · x1[k, q], plus x2[0, q]. The casts to the
    same shape and the narrowing format changes read through; the bias row, repeated down the rows, is read at row 0. -/
theorem pay_at (x0 : Vec Ideal S2000x128 .f32) (x1 : Vec Ideal S128x384 .f32) (x2 : Vec Ideal S1x384 .f32) (p : Fin 2000) (q : Fin 384) :
    k2_pay1 (F := Ideal) x0 x1 x2 (ix2 p q) = (∑ k : Fin 128, x0 (ix2 p k) * x1 (ix2 k q)) + x2 (ix2 (0 : Fin 1) q) := by
  unfold k2_pay1
  simp only [shapeCast_self]
  rw [addf_apply, matmul_at]
  rw [broadcastTo_apply x2 broadcasts_S1x384_S2000x384 (ix2 p q) (ix2 (0 : Fin 1) q) (fun a => by
    match a with
    | ⟨0, _⟩ => rfl
    | ⟨1, _⟩ => rfl)]
  rfl

/-- One entry: if the blocks read the arrays X, W, B so that row p of the first is row r of X and the other two are W and B
    themselves, then the body's result at (p, q) is entry (r, q) of X · W + B. -/
theorem point_eq (X : FVec Ideal S50000x128 .f32) (W : FVec Ideal S128x384 .f32) (B : FVec Ideal S1x384 .f32)
    (x0 : Vec Ideal S2000x128 .f32) (x1 : Vec Ideal S128x384 .f32) (x2 : Vec Ideal S1x384 .f32)
    (p : Fin 2000) (q : Fin 384) (r : Fin 50000)
    (h0 : ∀ k : Fin 128, x0 (ix2 p k) = X (ix2 r k)) (h1 : ∀ k : Fin 128, x1 (ix2 k q) = W (ix2 k q))
    (h2 : x2 (ix2 (0 : Fin 1) q) = B (ix2 (0 : Fin 1) q)) :
    k2_pay1 (F := Ideal) x0 x1 x2 (ix2 p q) = lin X W B (ix2 r q) := by
  rw [pay_at, lin_ix2]
  unfold linAt
  rw [h2]
  exact congrArg (· + B (ix2 (0 : Fin 1) q)) (Finset.sum_congr rfl fun k _ => by rw [h0 k, h1 k])

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the 25 grid points: the two row-blocked windows sit at block (t, 0), the two whole-array windows at block (0, 0). -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of point t's block is row 2000·t + p of the array. -/
def row (t : Fin cfg2.N) (p : Fin 2000) : Fin 50000 :=
  ⟨2000 * t.val + p.val, by have := t.isLt; have hN : cfg2.N = 25 := N_2; omega⟩

/-- Point t's block of the row-blocked input, at (p, k): the array at (2000·t + p, k). A block's coordinate is the block index times
    the block's extent plus the coordinate inside the block. -/
theorem blk0_at (c : Dev nD) (t : Fin cfg2.N) (p : Fin 2000) (k : Fin 128) :
    (iblk2 V c 0 t : Vec Ideal S2000x128 .f32) (ix2 p k) = (V c main_v61 : FVec Ideal S50000x128 .f32) (ix2 (row t p) k) := by
  obtain ⟨e0, e1, -⟩ := index_maps t
  show V c main_v61 (((cfg2.win 0).blk t).view.emb (ix2 p k)) = V c main_v61 (ix2 (row t p) k)
  refine congrArg (V c main_v61) (funext fun a => Fin.ext ?_)
  match a with
  | ⟨0, _⟩ => show win2_0.index t (0 : Fin 2) * 2000 + 1 * p.val = 2000 * t.val + p.val; omega
  | ⟨1, _⟩ => show win2_0.index t (1 : Fin 2) * 128 + 1 * k.val = k.val; omega

/-- The weights' window holds the whole array at every point. -/
theorem blk1_at (c : Dev nD) (t : Fin cfg2.N) (k : Fin 128) (q : Fin 384) :
    (iblk2 V c 1 t : Vec Ideal S128x384 .f32) (ix2 k q) = (V c main_v33 : FVec Ideal S128x384 .f32) (ix2 k q) := by
  obtain ⟨-, -, e2, e3, -⟩ := index_maps t
  show V c main_v33 (((cfg2.win 1).blk t).view.emb (ix2 k q)) = V c main_v33 (ix2 k q)
  refine congrArg (V c main_v33) (funext fun a => Fin.ext ?_)
  match a with
  | ⟨0, _⟩ => show win2_1.index t (0 : Fin 2) * 128 + 1 * k.val = k.val; omega
  | ⟨1, _⟩ => show win2_1.index t (1 : Fin 2) * 384 + 1 * q.val = q.val; omega

/-- The bias row's window holds the whole row at every point. -/
theorem blk2_at (c : Dev nD) (t : Fin cfg2.N) (q : Fin 384) :
    (iblk2 V c 2 t : Vec Ideal S1x384 .f32) (ix2 (0 : Fin 1) q) = (V c main_v62 : FVec Ideal S1x384 .f32) (ix2 (0 : Fin 1) q) := by
  obtain ⟨-, -, -, -, e4, e5, -⟩ := index_maps t
  show V c main_v62 (((cfg2.win 2).blk t).view.emb (ix2 (0 : Fin 1) q)) = V c main_v62 (ix2 (0 : Fin 1) q)
  refine congrArg (V c main_v62) (funext fun a => Fin.ext ?_)
  match a with
  | ⟨0, _⟩ => show win2_2.index t (0 : Fin 2) * 1 + 1 * (0 : Fin 1).val = (0 : Fin 1).val; omega
  | ⟨1, _⟩ => show win2_2.index t (1 : Fin 2) * 384 + 1 * q.val = q.val; omega

/-- Where point t's output block sits: (p, q) of the block is (2000·t + p, q) of the array. -/
theorem out_at (t : Fin cfg2.N) (p : Fin 2000) (q : Fin 384) :
    ((cfg2.win 3).blk t).view.emb (ix2 p q) = (ix2 (row t p) q : S50000x384.Idx) := by
  obtain ⟨-, -, -, -, -, -, e6, e7⟩ := index_maps t
  funext a; apply Fin.ext
  match a with
  | ⟨0, _⟩ => show win2_3.index t (0 : Fin 2) * 2000 + 1 * p.val = 2000 * t.val + p.val; omega
  | ⟨1, _⟩ => show win2_3.index t (1 : Fin 2) * 384 + 1 * q.val = q.val; omega

/-- What point t writes back is block t of X · W + B, of the three arrays as the region finds them. -/
theorem flushed_eq (c : Dev nD) (t : Fin cfg2.N) :
    (dat2 (F := Ideal) V c).flushed 3 t
      = ((cfg2.win 3).blk t).view.read (Elt Ideal) (lin (V c main_v61 : FVec Ideal S50000x128 .f32) (V c main_v33 : FVec Ideal S128x384 .f32) (V c main_v62 : FVec Ideal S1x384 .f32)) := by
  show (cfg2.win 3).cut (grid2.coords t) ((dat2 V c).after 3 t) = _
  rw [after2_3]
  unfold out2_3
  rw [View.canon_unit_zero zero_offsets]
  simp only [View.ld_unit_zero (S := S2000x128) zero_offsets, View.ld_unit_zero (S := S128x384) zero_offsets, View.ld_unit_zero (S := S1x384) zero_offsets]
  funext j
  obtain ⟨p, q, rfl⟩ : ∃ (p : Fin 2000) (q : Fin 384), j = ix2 p q := ⟨j 0, j 1, eq_ix2 j⟩
  show k2_pay1 (F := Ideal) (iblk2 V c 0 t) (iblk2 V c 1 t) (iblk2 V c 2 t) (ix2 p q)
      = lin (V c main_v61 : FVec Ideal S50000x128 .f32) (V c main_v33 : FVec Ideal S128x384 .f32) (V c main_v62 : FVec Ideal S1x384 .f32) (((cfg2.win 3).blk t).view.emb (ix2 p q))
  rw [out_at]
  exact point_eq _ _ _ _ _ _ p q (row t p) (fun k => blk0_at V c t p k) (fun k => blk1_at V c t k q) (blk2_at V c t q)

/-- An index of the result array is in point t's block iff each coordinate is in the block's range on its axis. -/
theorem mem_blk (t : Fin cfg2.N) (i : S50000x384.Idx) :
    i ∈ ((cfg2.win 3).blk t).view.set ↔ ∀ a : Fin 2, win2_3.index t a * S2000x384.size a ≤ (i a).val ∧ (i a).val < win2_3.index t a * S2000x384.size a + S2000x384.size a := by
  show i ∈ ((View.whole main_v63).slice (win2_3.rect t)).set ↔ _
  rw [View.set_slice_whole, Rect.mem_set_unit]
  exact Iff.rfl

/-- The 25 row blocks tile the result array: row r lies in the block of point r / 2000, and every point writes its block back. -/
theorem covered (i : S50000x384.Idx) : ∃ t : Fin cfg2.N, (cfg2.win 3).flush t = true ∧ i ∈ ((cfg2.win 3).blk t).view.set := by
  have hi0 : (i 0).val < 50000 := (i 0).isLt
  have hi1 : (i 1).val < 384 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, -, -, e6, e7⟩ := index_maps t
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 384 ≤ (i 1).val ∧ (i 1).val < win2_3.index t (1 : Fin 2) * 384 + 384; omega

/-- After the pipeline has run over all 25 points the result array holds X · W + B of the region's three input arrays. -/
theorem region2_value (c : Dev nD) :
    (dat2 (F := Ideal) V c).arrAt 3 cfg2.N = Cert.RGCN.lin (V c main_v61) (V c main_v33) (V c main_v62) :=
  (dat2 V c).arrAt_eq_of_cover 3 _ (fun t _ => flushed_eq V c t) covered

end Cert.KernelIdeal.Region2

end
-- ==== Proof.KRegion3.lean ====
/-
  The value of the fourth pipelined region of the kernel program: a dense layer.

  The region's body loads a [2000, 128] block of its left operand, the whole [128, 3] weight matrix and the whole [1, 3] bias
  row, and stores the product plus the bias row broadcast down the rows. Part one reads that stored value at an index: entry
  (p, q) is the sum over k of x[p, k] · w[k, q], plus b[0, q]. Part two goes from blocks to the array: the 25 grid points'
  output blocks are the 25 row blocks of the dense layer of the whole arrays, and they tile the [50000, 3] result, so after
  the last point the result array holds that dense layer.
-/
import proofs.«429306_j3298534884295_1_alg».proof.Proof.Gen.KernelIdeal.Frame
import proofs.«429306_j3298534884295_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

/-! ## The product's operand indices, axis by axis

The product contracts axis 1 of its left operand with axis 0 of its right one: at result index i and contraction
index q the left operand is read at (i 0, q) and the right one at (q, i 1). -/

theorem lhs_row (i : S2000x3.Idx) (q : dot_S2000x128_S128x3_S2000x3_1_0_0_1_n_n.contr.Idx) :
    (dot_S2000x128_S128x3_S2000x3_1_0_0_1_n_n.lhsIdx i q 0).val = (i 0).val := by
  unfold DotDims.lhsIdx
  rw [dif_neg (show ¬(0 : Fin S2000x128.rank) ∈ dot_S2000x128_S128x3_S2000x3_1_0_0_1_n_n.lhsBatch by decide), dif_pos (show (0 : Fin S2000x128.rank) ∈ dot_S2000x128_S128x3_S2000x3_1_0_0_1_n_n.lhsNonContracting by decide)]
  rfl
theorem lhs_col (i : S2000x3.Idx) (q : dot_S2000x128_S128x3_S2000x3_1_0_0_1_n_n.contr.Idx) :
    (dot_S2000x128_S128x3_S2000x3_1_0_0_1_n_n.lhsIdx i q 1).val = (q ⟨0, by decide⟩).val :=
  dot_S2000x128_S128x3_S2000x3_1_0_0_1_n_n.lhsIdx_val_of_single rfl i q
theorem rhs_row (i : S2000x3.Idx) (q : dot_S2000x128_S128x3_S2000x3_1_0_0_1_n_n.contr.Idx) :
    (dot_S2000x128_S128x3_S2000x3_1_0_0_1_n_n.rhsIdx i q 0).val = (q ⟨0, by decide⟩).val :=
  dot_S2000x128_S128x3_S2000x3_1_0_0_1_n_n.rhsIdx_val_of_single rfl i q
theorem rhs_col (i : S2000x3.Idx) (q : dot_S2000x128_S128x3_S2000x3_1_0_0_1_n_n.contr.Idx) :
    (dot_S2000x128_S128x3_S2000x3_1_0_0_1_n_n.rhsIdx i q 1).val = (i 1).val := by
  unfold DotDims.rhsIdx
  rw [dif_neg (show ¬(1 : Fin S128x3.rank) ∈ dot_S2000x128_S128x3_S2000x3_1_0_0_1_n_n.rhsBatch by decide), dif_pos (show (1 : Fin S128x3.rank) ∈ dot_S2000x128_S128x3_S2000x3_1_0_0_1_n_n.rhsNonContracting by decide)]
  rfl

/-- The product into the zero accumulator, read at (p, q): the sum over k of x[p, k] · w[k, q]. -/
theorem matmul_at {φ₁ φ₂ : FTy} (x : FVec Ideal S2000x128 φ₁) (w : FVec Ideal S128x3 φ₂) (p : Fin 2000) (q : Fin 3) :
    matmul dot_S2000x128_S128x3_S2000x3_1_0_0_1_n_n none x w (constant (F := Ideal) S2000x3 .f32 0x00000000#32) (ix2 p q)
      = ∑ k : Fin 128, x (ix2 p k) * w (ix2 k q) := by
  show FloatOps.matmul dot_S2000x128_S128x3_S2000x3_1_0_0_1_n_n none x w (constant S2000x3 .f32 0x00000000#32) (ix2 p q) = _
  rw [Ideal.matmul_constant_zero_apply, ← Equiv.sum_comp (ValueIdx.contrEquiv1 dot_S2000x128_S128x3_S2000x3_1_0_0_1_n_n 128 rfl rfl).symm]
  refine Finset.sum_congr rfl fun k _ => ?_
  have hk := ValueIdx.contrEquiv1_symm_val dot_S2000x128_S128x3_S2000x3_1_0_0_1_n_n 128 rfl rfl k
  have el : dot_S2000x128_S128x3_S2000x3_1_0_0_1_n_n.lhsIdx (ix2 p q) ((ValueIdx.contrEquiv1 dot_S2000x128_S128x3_S2000x3_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x3_S2000x3_1_0_0_1_n_n.rhsIdx (ix2 p q) ((ValueIdx.contrEquiv1 dot_S2000x128_S128x3_S2000x3_1_0_0_1_n_n 128 rfl rfl).symm k) = ix2 k q := funext fun a => Fin.ext (by
    match a with
    | ⟨0, _⟩ => exact (rhs_row _ _).trans hk
    | ⟨1, _⟩ => exact rhs_col _ _)
  rw [el, er]

/-- The one-row bias broadcast down the rows, read at (p, q), is the row's entry q. -/
theorem bias_at (b : FVec Ideal S1x3 .f32) (p : Fin 2000) (q : Fin 3) :
    broadcastTo S2000x3 b broadcasts_S1x3_S2000x3 (ix2 p q) = b (ix2 (0 : Fin 1) q) := by
  refine broadcastTo_apply b broadcasts_S1x3_S2000x3 (ix2 p q) (ix2 (0 : Fin 1) q) fun a => ?_
  match a with
  | ⟨0, _⟩ => rfl
  | ⟨1, _⟩ => rfl

/-- THE BODY'S PAYLOAD IS THE DENSE LAYER of the three blocks it loads: the format changes are the identity on extended
    reals, the casts to the same shape read through, and the zero accumulator drops out of the product. -/
theorem pay_eq_lin (x : FVec Ideal S2000x128 .f32) (w : FVec Ideal S128x3 .f32) (b : FVec Ideal S1x3 .f32) :
    k3_pay1 (F := Ideal) x w b = Cert.RGCN.lin x w b := by
  funext j
  obtain ⟨p, q, rfl⟩ : ∃ (p : Fin 2000) (q : Fin 3), j = ix2 p q := ⟨j 0, j 1, eq_ix2 j⟩
  rw [Cert.RGCN.lin_ix2]
  unfold k3_pay1 Cert.RGCN.linAt
  rw [addf_apply, shapeCast_self, shapeCast_self, bias_at, matmul_at]
  rfl

/-! ## From blocks to the array

The grid has 25 points. At point t the output window holds rows 2000·t … 2000·t + 1999 of the result and the first input
window the same rows of the left operand; the weight matrix and the bias row are whole at every point. -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps, decided over the grid: the left operand's row block is the output's, every other block index is 0,
    and the output's row block stays below 25. -/
theorem block_indices : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) ≤ 24 ∧ win3_3.index t (1 : Fin 2) = 0 :=
  (by decide +kernel : ∀ t : Fin grid3.N, _)

/-- Every row block of the output is some point's. -/
theorem row_block_onto : ∀ r : Fin 25, ∃ t : Fin cfg3.N, win3_3.index t = ![r.val, 0] :=
  (by decide +kernel : ∀ r : Fin 25, ∃ t : Fin grid3.N, win3_3.index t = ![r.val, 0])

/-- WHAT POINT t WRITES BACK is block t of the dense layer of the three arrays as the region finds them. -/
theorem flushed_eq (c : Dev nD) (t : Fin cfg3.N) :
    (dat3 (F := Ideal) V c).flushed 3 t
      = ((cfg3.win 3).blk t).view.read (Elt Ideal) (Cert.RGCN.lin (M := 50000) (K := 128) (N := 3) (V c main_v87) (V c main_arg8) (V c main_v88)) := by
  show (cfg3.win 3).cut (grid3.coords t) ((dat3 V c).after 3 t) = _
  rw [after3_3]
  unfold out3_3
  rw [View.canon_unit_zero zero_offsets]
  simp only [View.ld_unit_zero (S := S2000x128) zero_offsets, View.ld_unit_zero (S := S128x3) zero_offsets, View.ld_unit_zero (S := S1x3) zero_offsets]
  rw [pay_eq_lin]
  obtain ⟨e0, e1, e2, e3, e4, e5, e6, e7⟩ := block_indices t
  funext j
  show Cert.RGCN.lin (M := 2000) (K := 128) (N := 3) (iblk3 V c 0 t) (iblk3 V c 1 t) (iblk3 V c 2 t) j
    = Cert.RGCN.lin (M := 50000) (K := 128) (N := 3) (V c main_v87) (V c main_arg8) (V c main_v88) (((cfg3.win 3).blk t).view.emb j)
  obtain ⟨p, q, rfl⟩ : ∃ (p : Fin 2000) (q : Fin 3), j = ix2 p q := ⟨j 0, j 1, eq_ix2 j⟩
  have hp : win3_3.index t (0 : Fin 2) * 2000 + p.val < 50000 := by have := p.isLt; omega
  have hout : ((cfg3.win 3).blk t).view.emb (ix2 p q) = ix2 (⟨win3_3.index t (0 : Fin 2) * 2000 + p.val, hp⟩ : Fin 50000) q := by
    funext a; apply Fin.ext
    match a with
    | ⟨0, _⟩ => show win3_3.index t (0 : Fin 2) * 2000 + 1 * p.val = win3_3.index t (0 : Fin 2) * 2000 + p.val; omega
    | ⟨1, _⟩ => show win3_3.index t (1 : Fin 2) * 3 + 1 * q.val = q.val; omega
  have hx : ∀ k : Fin 128, iblk3 V c 0 t (ix2 p k) = V c main_v87 (ix2 (⟨win3_3.index t (0 : Fin 2) * 2000 + p.val, hp⟩ : Fin 50000) k) := fun k => by
    show V c main_v87 (((cfg3.win 0).blk t).view.emb (ix2 p k)) = _
    refine congrArg (V c main_v87) (funext fun a => Fin.ext ?_)
    match a with
    | ⟨0, _⟩ => show win3_0.index t (0 : Fin 2) * 2000 + 1 * p.val = win3_3.index t (0 : Fin 2) * 2000 + p.val; omega
    | ⟨1, _⟩ => show win3_0.index t (1 : Fin 2) * 128 + 1 * k.val = k.val; omega
  have hw : ∀ k : Fin 128, iblk3 V c 1 t (ix2 k q) = V c main_arg8 (ix2 k q) := fun k => by
    show V c main_arg8 (((cfg3.win 1).blk t).view.emb (ix2 k q)) = _
    refine congrArg (V c main_arg8) (funext fun a => Fin.ext ?_)
    match a with
    | ⟨0, _⟩ => show win3_1.index t (0 : Fin 2) * 128 + 1 * k.val = k.val; omega
    | ⟨1, _⟩ => show win3_1.index t (1 : Fin 2) * 3 + 1 * q.val = q.val; omega
  have hb : iblk3 V c 2 t (ix2 (0 : Fin 1) q) = V c main_v88 (ix2 (0 : Fin 1) q) := by
    show V c main_v88 (((cfg3.win 2).blk t).view.emb (ix2 (0 : Fin 1) q)) = _
    refine congrArg (V c main_v88) (funext fun a => Fin.ext ?_)
    match a with
    | ⟨0, _⟩ => show win3_2.index t (0 : Fin 2) * 1 + 1 * 0 = 0; omega
    | ⟨1, _⟩ => show win3_2.index t (1 : Fin 2) * 3 + 1 * q.val = q.val; omega
  rw [hout, Cert.RGCN.lin_ix2, Cert.RGCN.lin_ix2]
  unfold Cert.RGCN.linAt
  rw [hb]
  exact congrArg (· + V c main_v88 (ix2 (0 : Fin 1) q)) (Finset.sum_congr rfl fun k _ => by rw [hx k, hw k])

/-- An index of the result array is in point t's block iff each coordinate is in the block's range on its axis. -/
theorem mem_blk (t : Fin cfg3.N) (i : S50000x3.Idx) :
    i ∈ ((cfg3.win 3).blk t).view.set ↔ ∀ a : Fin 2, win3_3.index t a * S2000x3.size a ≤ (i a).val ∧ (i a).val < win3_3.index t a * S2000x3.size a + S2000x3.size a := by
  show i ∈ ((View.whole main_v89).slice (win3_3.rect t)).set ↔ _
  rw [View.set_slice_whole, Rect.mem_set_unit]
  exact Iff.rfl

/-- The blocks tile the result array: row r is in the block of the point whose row block is r / 2000. -/
theorem covered (i : S50000x3.Idx) : ∃ t : Fin cfg3.N, (cfg3.win 3).flush t = true ∧ i ∈ ((cfg3.win 3).blk t).view.set := by
  have hi0 : (i 0).val < 50000 := (i 0).isLt
  have hi1 : (i 1).val < 3 := (i 1).isLt
  obtain ⟨t, ht⟩ := row_block_onto ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 3 ≤ (i 1).val ∧ (i 1).val < win3_3.index t (1 : Fin 2) * 3 + 3; omega

/-- THE RESULT ARRAY after the 25 points: the dense layer of the three input arrays as the region finds them. -/
theorem region3_value (c : Dev nD) :
    (dat3 (F := Ideal) V c).arrAt 3 cfg3.N = Cert.RGCN.lin (V c main_v87) (V c main_arg8) (V c main_v88) :=
  (dat3 V c).arrAt_eq_of_cover 3 _ (fun t _ => flushed_eq V c t) covered

end Cert.KernelIdeal.Region3

end
-- ==== Proof.KValue.lean ====
/-
  The idealized kernel program's result buffer, at the end of the run, holds the program's function of the launch contents
  of its ten arguments: each region's output array is the dense layer of the arrays it stages (the four region values), and
  between regions the host stretches apply the raw host functions (the chain).
-/
import proofs.«429306_j3298534884295_1_alg».proof.Proof.KChain
import proofs.«429306_j3298534884295_1_alg».proof.Proof.KFn
import proofs.«429306_j3298534884295_1_alg».proof.Proof.KRegion0
import proofs.«429306_j3298534884295_1_alg».proof.Proof.KRegion1
import proofs.«429306_j3298534884295_1_alg».proof.Proof.KRegion2
import proofs.«429306_j3298534884295_1_alg».proof.Proof.KRegion3

set_option maxRecDepth 16384

noncomputable section

namespace Cert.KernelIdeal.Chain

open Cert.KernelIdeal Cert.KernelIdeal.Gen Cert.KernelIdeal.Raw Cert.RGCN
open Idealize.ShloMosaic Idealize.ShloMosaic.TcCoe Idealize.ShloMosaic.StableHlo
open Idealize.SL.Sem

variable (m : (ℓ : Loc nD τ sig) → Buf (Elt Ideal) ℓ) (ρ : Dev nD → PrngReg)

/-- After region 0: the first dense layer with the rectifier. -/
theorem W2_v5 (c : Dev nD) : W2 m ρ c (Proc.devRef .tc main_v5)
    = leaky (lin (m ((c : Thread nD τ).loc main_arg0)) (m ((c : Thread nD τ).loc main_arg3))
        (shapeCast S1x128 (m ((c : Thread nD τ).loc main_arg4)) Facts₀.shapeCasts_S128_S1x128)) := by
  refine ((W2_arr m ρ c 3).trans (Cert.KernelIdeal.Region0.region0_value (V1 m ρ) c)).trans ?_
  show leaky (lin (W1 m ρ c (Proc.devRef .tc main_arg0)) (W1 m ρ c (Proc.devRef .tc main_arg3)) (W1 m ρ c (Proc.devRef .tc main_v4))) = _
  rw [W1_keep_arg0 m ρ c, W1_keep_arg3 m ρ c, W1_v4 m ρ c]

/-- After region 1: the dense layer of width 384 of region 0's result. -/
theorem W5_v37 (c : Dev nD) : W5 m ρ c (Proc.devRef .tc main_v37)
    = lin (W2 m ρ c (Proc.devRef .tc main_v5))
        (wcombK (F := Ideal) (m ((c : Thread nD τ).loc main_arg5)) (m ((c : Thread nD τ).loc main_arg6)))
        (bcombK (F := Ideal) (m ((c : Thread nD τ).loc main_arg7))) := by
  refine ((W5_arr m ρ c 3).trans (Cert.KernelIdeal.Region1.region1_value (V4 m ρ) c)).trans ?_
  show lin (W4 m ρ c (Proc.devRef .tc main_v5)) (W4 m ρ c (Proc.devRef .tc main_v33)) (W4 m ρ c (Proc.devRef .tc main_v36)) = _
  rw [W4_keep_v5 m ρ c, W4_v33 m ρ c, W4_v36 m ρ c]

/-- After region 2: the dense layer of width 384 of the first graph layer's result. -/
theorem W7_v63 (c : Dev nD) : W7 m ρ c (Proc.devRef .tc main_v63)
    = lin (W6 m ρ c (Proc.devRef .tc main_v61))
        (wcombK (F := Ideal) (m ((c : Thread nD τ).loc main_arg5)) (m ((c : Thread nD τ).loc main_arg6)))
        (bcombK (F := Ideal) (m ((c : Thread nD τ).loc main_arg7))) := by
  refine ((W7_arr m ρ c 3).trans (Cert.KernelIdeal.Region2.region2_value (V6 m ρ) c)).trans ?_
  show lin (W6 m ρ c (Proc.devRef .tc main_v61)) (W6 m ρ c (Proc.devRef .tc main_v33)) (W6 m ρ c (Proc.devRef .tc main_v62)) = _
  rw [W6_v33 m ρ c, W6_v62 m ρ c]

/-- After region 3: the last dense layer of the second graph layer's result. -/
theorem W9_v89 (c : Dev nD) : W9 m ρ c (Proc.devRef .tc main_v89)
    = lin (W8 m ρ c (Proc.devRef .tc main_v87)) (m ((c : Thread nD τ).loc main_arg8))
        (shapeCast S1x3 (m ((c : Thread nD τ).loc main_arg9)) Facts₀.shapeCasts_S3_S1x3) := by
  refine ((W9_arr m ρ c 3).trans (Cert.KernelIdeal.Region3.region3_value (V8 m ρ) c)).trans ?_
  show lin (W8 m ρ c (Proc.devRef .tc main_v87)) (W8 m ρ c (Proc.devRef .tc main_arg8)) (W8 m ρ c (Proc.devRef .tc main_v88)) = _
  rw [W8_arg8 m ρ c, W8_v88 m ρ c]

/-- The result buffer at the end of the run is the program's function of the arguments' launch contents. -/
theorem kernel_value (c : Dev nD) : W9 m ρ c (Proc.devRef .tc main_v89)
    = kernelFn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  rw [W9_v89 m ρ c, W8_v87 m ρ c, W7_v63 m ρ c, W6_v61 m ρ c, W5_v37 m ρ c, W2_v5 m ρ c]
  rfl

end Cert.KernelIdeal.Chain

end
-- ==== Proof.RRaw.lean ====
/-
  The reference program's layers as pure functions of the arrays they read, composed exactly as its host operations are:
  the first dense layer with the leaky rectifier; one graph layer — the root term plus, for each of the two relations, the
  sum into each destination node of the masked messages x[source] · w_rel[t], divided by the larger of 1 and that relation's
  edge count at the node —; and the last dense layer.
-/
import proofs.«429306_j3298534884295_1_alg».proof.ReferenceIdeal

noncomputable section

namespace Cert.ReferenceIdeal.Raw

open Cert.ReferenceIdeal Idealize.ShloMosaic
open Cert.ReferenceIdeal.Facts₀ Cert.ReferenceIdeal.Facts

variable [Cert.ReferenceIdeal.Facts] {F : FTy → Type} [FloatOps F]

/-- Row 0 of the edge list: each edge's source word. -/
def srcR (ei : IVec S2x600000 32) : IVec S600000 32 :=
  shapeCast S600000 (extractStridedSlice S1x600000 ![0, 0] ei slices_S2x600000_S1x600000_0_0) shapeCasts_S1x600000_S600000
/-- Row 1 of the edge list: each edge's destination word. -/
def dstR (ei : IVec S2x600000 32) : IVec S600000 32 :=
  shapeCast S600000 (extractStridedSlice S1x600000 ![1, 0] ei slices_S2x600000_S1x600000_1_0) shapeCasts_S1x600000_S600000

/-- An index word wrapped once: a negative word has the extent `n` added. -/
def wrapR (n : BitVec 32) (v : IVec S600000 32) : IVec S600000 32 :=
  select (cmpi .slt v (broadcastInDim S600000 ![] bcast_S_S600000 (constantI S_ 32 0#32)))
    (addi v (broadcastInDim S600000 ![] bcast_S_S600000 (constantI S_ 32 n))) v

/-- A vector of words as a column. -/
def colR (v : IVec S600000 32) : IVec S600000x1 32 := broadcastInDim S600000x1 ![0] bcast_S600000_S600000x1_0 v

/-- The mask of relation `t`: bit e is set when edge e's relation word is t. -/
def maskR (t : BitVec 32) (et : IVec S600000 32) : IVec S600000 1 :=
  cmpi .eq et (broadcastInDim S600000 ![] bcast_S_S600000 (constantI S_ 32 t))

/-- Relation 0's weight matrix. -/
def wrel0R (wrel : FVec F S2x128x128 .f32) : FVec F S128x128 .f32 :=
  shapeCast S128x128 (extractStridedSlice S1x128x128 ![0, 0, 0] wrel slices_S2x128x128_S1x128x128_0_0_0) shapeCasts_S1x128x128_S128x128
/-- Relation 1's weight matrix. -/
def wrel1R (wrel : FVec F S2x128x128 .f32) : FVec F S128x128 .f32 :=
  shapeCast S128x128 (extractStridedSlice S1x128x128 ![1, 0, 0] wrel slices_S2x128x128_S1x128x128_1_0_0) shapeCasts_S1x128x128_S128x128

/-- `x · w + b` on the host: the dot, plus the bias laid along the rows. -/
def stage1R (x0 : FVec F S50000x768 .f32) (x3 : FVec F S768x128 .f32) (x4 : FVec F S128 .f32) : FVec F S50000x128 .f32 :=
  addf (Host.dotGeneral dot_S50000x768_S768x128_S50000x128_1_0_0_1_n_n none x0 x3)
    (broadcastInDim S50000x128 ![0, 1] bcast_S1x128_S50000x128_0_1 (broadcastInDim S1x128 ![1] bcast_S128_S1x128_1 x4))

/-- The leaky rectifier as the host spells it. -/
def leakyR (v : FVec F S50000x128 .f32) : FVec F S50000x128 .f32 :=
  select (cmpf .oge v (broadcastInDim S50000x128 ![] bcast_S_S50000x128 (constant S_ .f32 0x00000000#32))) v
    (mulf (broadcastInDim S50000x128 ![] bcast_S_S50000x128 (constant S_ .f32 0x3C23D70A#32)) v)

/-- One relation's mean aggregation: the masked messages `x[source] · w` summed into their destinations, over the larger of
    1 and the count of masked edges into the node. -/
def aggR (x : FVec F S50000x128 .f32) (src dst : IVec S600000 32) (mask : IVec S600000 1) (w : FVec F S128x128 .f32) :
    FVec F S50000x128 .f32 :=
  Host.divf
    (Host.scatterAdd scatter_S50000x128_S600000x1_S600000x128_1_0_0_1
      (broadcastInDim S50000x128 ![] bcast_S_S50000x128 (constant S_ .f32 0x00000000#32)) (colR dst)
      (select (broadcastInDim S600000x128 ![0, 1] bcast_S600000x1_S600000x128_0_1 (broadcastInDim S600000x1 ![0] bcast_S600000_S600000x1_0 mask))
        (Host.dotGeneral dot_S600000x128_S128x128_S600000x128_1_0_0_1_n_n none
          (Host.gather gather_S50000x128_S600000x1_S600000x128_1_0_n_n_0_1_1128 x (colR (wrapR 50000#32 src))) w)
        (broadcastInDim S600000x128 ![] bcast_S_S600000x128 (constant S_ .f32 0x00000000#32))))
    (broadcastInDim S50000x128 ![0, 1] bcast_S50000x1_S50000x128_0_1 (broadcastInDim S50000x1 ![0] bcast_S50000_S50000x1_0
      (maximumf
        (Host.scatterAdd scatter_S50000_S600000x1_S600000_n_0_0_1
          (broadcastInDim S50000 ![] bcast_S_S50000 (constant S_ .f32 0x00000000#32)) (colR dst) (uitofp .f32 mask))
        (broadcastInDim S50000 ![] bcast_S_S50000 (constant S_ .f32 0x3F800000#32)))))

/-- One graph layer: the root term, then relation 0's mean, then relation 1's. -/
def convR (x : FVec F S50000x128 .f32) (ei : IVec S2x600000 32) (et : IVec S600000 32) (wrel : FVec F S2x128x128 .f32)
    (wroot : FVec F S128x128 .f32) (bconv : FVec F S128 .f32) : FVec F S50000x128 .f32 :=
  addf (addf
    (addf (Host.dotGeneral dot_S50000x128_S128x128_S50000x128_1_0_0_1_n_n none x wroot)
      (broadcastInDim S50000x128 ![0, 1] bcast_S1x128_S50000x128_0_1 (broadcastInDim S1x128 ![1] bcast_S128_S1x128_1 bconv)))
    (aggR x (srcR ei) (dstR ei) (maskR 0#32 et) (wrel0R wrel)))
    (aggR x (srcR ei) (dstR ei) (maskR 1#32 et) (wrel1R wrel))

/-- The last dense layer. -/
def outR (x : FVec F S50000x128 .f32) (x8 : FVec F S128x3 .f32) (x9 : FVec F S3 .f32) : FVec F S50000x3 .f32 :=
  addf (Host.dotGeneral dot_S50000x128_S128x3_S50000x3_1_0_0_1_n_n none x x8)
    (broadcastInDim S50000x3 ![0, 1] bcast_S1x3_S50000x3_0_1 (broadcastInDim S1x3 ![1] bcast_S3_S1x3_1 x9))

end Cert.ReferenceIdeal.Raw

end
-- ==== Proof.RValue.lean ====
/-
  The reference's result term, as its run states it, is the composition of its layers: the first dense layer with the
  rectifier, the graph layer twice with the same weights, the last dense layer.
-/
import proofs.«429306_j3298534884295_1_alg».proof.Proof.Gen.ReferenceIdeal.Run
import proofs.«429306_j3298534884295_1_alg».proof.Proof.RRaw

set_option maxRecDepth 16384

noncomputable section

namespace Cert.ReferenceIdeal.RefValue

open Cert.ReferenceIdeal Cert.ReferenceIdeal.Gen Cert.ReferenceIdeal.Raw
open Idealize.ShloMosaic Idealize.ShloMosaic.TcCoe Idealize.SL.Sem Idealize.ShloMosaic.StableHlo

variable {F : FTy → Type} [FloatOps F]

/-- The layers composed, as a function of the ten argument arrays. -/
def refFn (x0 : FVec F S50000x768 .f32) (x1 : IVec S2x600000 32) (x2 : IVec S600000 32) (x3 : FVec F S768x128 .f32)
    (x4 : FVec F S128 .f32) (x5 : FVec F S2x128x128 .f32) (x6 : FVec F S128x128 .f32) (x7 : FVec F S128 .f32)
    (x8 : FVec F S128x3 .f32) (x9 : FVec F S3 .f32) : FVec F S50000x3 .f32 :=
  outR (convR (convR (leakyR (stage1R x0 x3 x4)) x1 x2 x5 x6 x7) x1 x2 x5 x6 x7) x8 x9

set_option maxHeartbeats 4000000 in
/-- The run's result term is that composition of the launch contents of the arguments. -/
theorem res_eq (m : (ℓ : Loc nD τ sig) → Buf (Elt F) ℓ) (c : Dev nD) :
    Cert.ReferenceIdeal.Value.res_main_v136 m c
      = refFn (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  unfold Cert.ReferenceIdeal.Value.res_main_v136; rfl

end Cert.ReferenceIdeal.RefValue

end
-- ==== Proof.PreFacts.lean ====
import proofs.«429306_j3298534884295_1_alg».proof.Pre_finite_inputs
import Idealize.ShloMosaic.Lib.ReduceAll
import Idealize.ShloMosaic.Lib.StableHlo.Predicate
import Idealize.ShloMosaic.Lib.ValueIdx

/-!
# The relation of every edge is 0 or 1

The precondition on the inputs is a conjunction whose last conjunct says, of the vector of edge
relations, that every entry `w` satisfies `0 ≤ w` and `w < 2` as signed 32-bit words, all entries
conjoined by one reduction by `and`.  A conjunction that is true has every conjunct true, a
reduction by `and` that is true met only true entries, and a signed 32-bit word in `[0, 2)` is the
word 0 or the word 1.
-/

namespace Cert.RGCN

open Cert.Pre_finite_inputs Idealize.ShloMosaic Idealize.ShloMosaic.ValueIdx

variable [Cert.Pre_finite_inputs.Facts]

/-- The shape of rank zero has exactly one index. -/
instance subsingleton_scalar_idx : Subsingleton S_.Idx := ⟨fun a b => funext fun d => d.elim0⟩

/-- A signed 32-bit word `w` with `0 ≤ w` and `w < 2` is 0 or 1: its integer value is 0 or 1, and a
    word is determined by its integer value. -/
theorem word_zero_or_one (w : BitVec 32) (h0 : IntOp.cmpi .sge w 0#32 = 1#1)
    (h2 : IntOp.cmpi .slt w 2#32 = 1#1) : w = 0#32 ∨ w = 1#32 := by
  unfold IntOp.cmpi at h0 h2
  rw [StableHlo.Predicate.ofBool_eq_one_iff] at h0 h2
  simp only [BitVec.slt, BitVec.sle, decide_eq_true_eq] at h0 h2
  have e0 : (0#32 : BitVec 32).toInt = 0 := by decide
  have e1 : (1#32 : BitVec 32).toInt = 1 := by decide
  have e2 : (2#32 : BitVec 32).toInt = 2 := by decide
  rw [e0] at h0
  rw [e2] at h2
  have hw : w.toInt = 0 ∨ w.toInt = 1 := by omega
  rcases hw with h | h
  · exact Or.inl (BitVec.eq_of_toInt_eq (h.trans e0.symm))
  · exact Or.inr (BitVec.eq_of_toInt_eq (h.trans e1.symm))

/-- Under the precondition every edge's relation word is 0 or 1: the precondition's last conjunct
    is the conjunction over all edges of `0 ≤ w ∧ w < 2`. -/
theorem etype_range {F : FTy → Type} [FloatOps F] (a0 : FVec F S50000x768 .f32) (a1 : IVec S2x600000 32) (a2 : IVec S600000 32) (a3 : FVec F S768x128 .f32) (a4 : FVec F S128 .f32)
    (a5 : FVec F S2x128x128 .f32) (a6 : FVec F S128x128 .f32) (a7 : FVec F S128 .f32) (a8 : FVec F S128x3 .f32) (a9 : FVec F S3 .f32)
    (hpre : Cert.Pre_finite_inputs.fn (F := F) a0 a1 a2 a3 a4 a5 a6 a7 a8 a9 = fun _ => 1#1) :
    ∀ e : Fin 600000, a2 (ix1 e) = 0#32 ∨ a2 (ix1 e) = 1#32 := by
  intro e
  have h := congrFun hpre ix0
  unfold Cert.Pre_finite_inputs.fn Cert.Pre_finite_inputs.fn_part1 Cert.Pre_finite_inputs.fn_part2 at h
  dsimp only at h
  -- the whole predicate is (the earlier conjuncts) ∧ (all edges in range)
  have hall := (IntOp.andi_eq_one.1 h).2
  -- the reduction by `and` is true, so its entry at edge `e` is true
  have he := Host.reduce_andi_all _ _ _ _ _ hall (ix1 e)
  obtain ⟨hge, hlt⟩ := IntOp.andi_eq_one.1 he
  exact word_zero_or_one _ hge hlt

end Cert.RGCN
-- ==== Proof.ConvSpec.lean ====
/-
  One graph layer read at one entry (n, h), in the vocabulary both programs are brought to.

  The edges into node n are those whose destination word, read signed, is n. An edge's relation is 0 or 1 by its relation
  word. The row an edge reads from is its source word wrapped once (a negative word has 50000 added) and clamped into
  [0, 49999], as a take does. The message of edge e under relation t is x[row e] · w_rel[t], read at column h. The root
  term is x[n] · w_root + b, read at column h.
-/
import proofs.«429306_j3298534884295_1_alg».proof.Proof.Spec

noncomputable section

open scoped BigOperators

namespace Cert.RGCN

open Idealize.ShloMosaic Idealize.ShloMosaic.ValueIdx

/-- An index word wrapped once: a negative word has the extent's word `n` added. -/
def wrapW (n w : BitVec 32) : BitVec 32 := Scalar.select (IntOp.cmpi .slt w 0#32) (IntOp.addi w n) w

/-- The row of a 50000-row array an index word reads: wrapped once, read signed, clamped into range. -/
def rowOf (w : BitVec 32) : Fin 50000 := ⟨min (wrapW 50000#32 w).toInt.toNat (50000 - 1), by omega⟩

/-- The edges into node `n`: those whose destination word (row 1 of the edge list), read signed, is `n`. -/
def inEdges (ei : IVec ⟨2, ![2, 600000]⟩ 32) (n : Fin 50000) : Finset (Fin 600000) :=
  Finset.univ.filter (fun e : Fin 600000 => (ei (ix2 (1 : Fin 2) e)).toInt = (n.val : ℤ))

/-- An edge's relation, 0 or 1, by its relation word. -/
def relOf (et : IVec ⟨1, ![600000]⟩ 32) (e : Fin 600000) : Fin 2 := if et (ix1 e) = 0#32 then 0 else 1

/-- The message of edge `e` under relation `t` at column `h`: x[row of e's source word] · w_rel[t]. -/
def msgAt (x : FVec Ideal ⟨2, ![50000, 128]⟩ .f32) (wrel : FVec Ideal ⟨3, ![2, 128, 128]⟩ .f32) (ei : IVec ⟨2, ![2, 600000]⟩ 32)
    (h : Fin 128) (t : Fin 2) (e : Fin 600000) : EReal :=
  ∑ k : Fin 128, x (ix2 (rowOf (ei (ix2 (0 : Fin 2) e))) k) * wrel (ix3 t k h)

/-- The root term at (n, h): x[n] · w_root + b. -/
def rootAt (x : FVec Ideal ⟨2, ![50000, 128]⟩ .f32) (wroot : FVec Ideal ⟨2, ![128, 128]⟩ .f32) (bconv : FVec Ideal ⟨1, ![128]⟩ .f32)
    (n : Fin 50000) (h : Fin 128) : EReal :=
  (∑ k : Fin 128, x (ix2 n k) * wroot (ix2 k h)) + bconv (ix1 h)

/-- The number of edges of relation `t` into `n`, as the programs accumulate it: zero plus one per such edge. -/
def cntAt (ei : IVec ⟨2, ![2, 600000]⟩ 32) (et : IVec ⟨1, ![600000]⟩ 32) (n : Fin 50000) (t : Fin 2) : EReal :=
  0 + ∑ e' ∈ inEdges ei n, (if relOf et e' = t then (1 : EReal) else 0)

/-- The layer at (n, h) as the kernel program computes it: the root term plus the sum over ALL edges into n of the
    message under the edge's own relation times the reciprocal of that relation's count. -/
def convKAt (x : FVec Ideal ⟨2, ![50000, 128]⟩ .f32) (ei : IVec ⟨2, ![2, 600000]⟩ 32) (et : IVec ⟨1, ![600000]⟩ 32)
    (wrel : FVec Ideal ⟨3, ![2, 128, 128]⟩ .f32) (wroot : FVec Ideal ⟨2, ![128, 128]⟩ .f32) (bconv : FVec Ideal ⟨1, ![128]⟩ .f32)
    (n : Fin 50000) (h : Fin 128) : EReal :=
  rootAt x wroot bconv n h
    + (0 + ∑ e ∈ inEdges ei n, (msgAt x wrel ei h (relOf et e) e + 0)
        * Ideal.div 1 (max (0 + ∑ e' ∈ inEdges ei n, (if relOf et e' = relOf et e then (1 : EReal) else 0)) 1))

/-- The layer at (n, h) as the reference computes it: the root term, plus relation 0's masked sum over its count, plus
    relation 1's. -/
def convRAt (x : FVec Ideal ⟨2, ![50000, 128]⟩ .f32) (ei : IVec ⟨2, ![2, 600000]⟩ 32) (et : IVec ⟨1, ![600000]⟩ 32)
    (wrel : FVec Ideal ⟨3, ![2, 128, 128]⟩ .f32) (wroot : FVec Ideal ⟨2, ![128, 128]⟩ .f32) (bconv : FVec Ideal ⟨1, ![128]⟩ .f32)
    (n : Fin 50000) (h : Fin 128) : EReal :=
  (rootAt x wroot bconv n h
    + Ideal.div (0 + ∑ e ∈ inEdges ei n, (if relOf et e = 0 then msgAt x wrel ei h 0 e else 0))
        (max (0 + ∑ e' ∈ inEdges ei n, (if relOf et e' = 0 then (1 : EReal) else 0)) 1))
    + Ideal.div (0 + ∑ e ∈ inEdges ei n, (if relOf et e = 1 then msgAt x wrel ei h 1 e else 0))
        (max (0 + ∑ e' ∈ inEdges ei n, (if relOf et e' = 1 then (1 : EReal) else 0)) 1)

end Cert.RGCN

end
-- ==== Proof.LibGatherAt.lean ====
/-
  A StableHLO gather read at one result index, for three shapes of dimension numbers that have no
  batching axes and the index vector on the start indices' last axis:

  * rows of a matrix chosen by one column of indices (`gather_rows_apply`);
  * rows of a rank-3 array chosen by a pair of indices (`gather_pair_rows_apply`);
  * single entries of a matrix chosen by a pair of indices (`gather_pair_scalar_apply`).

  In each the dimension-number record is a variable and its printed fields are hypotheses, so the
  lemmas hold at every size: on an operand axis named by the start index map the coordinate read is
  the start index's component, taken as a signed integer and clamped so that the slice fits; on an
  axis that is not collapsed it is the result's offset coordinate.
-/
import Idealize.ShloMosaic.PureOps.ShapeOps
import Idealize.ShloMosaic.PureOps.Dims
import Idealize.ShloMosaic.Lib.ValueIdx

namespace Cert.LibIndexing

open Idealize.ShloMosaic Idealize.ShloMosaic.ValueIdx

variable {α : Type} {N R H E w : Nat}

/-- An entry of a one-element list is that element, whatever the position is written as. -/
private theorem getElem_of_eq_singleton {β : Type} {l : List β} {b : β} (hl : l = [b]) (i : Nat)
    (hi : i < l.length) : l[i] = b := by
  subst hl
  have hi0 : i = 0 := by simpa using hi
  subst hi0
  rfl

/-- A multi-index read on two equal axes gives the same number. -/
private theorem idx_val_congr {s : Shape} (j : s.Idx) {a b : Fin s.rank} (hab : a = b) :
    (j a).val = (j b).val := by
  subst hab; rfl

/-- The start-indices position a result index reads, for a two-axis table of start indices whose
    second axis is the index vector's: the row is the result's batch coordinate, the column the
    component's number. -/
private theorem siIdx_eq {s t : Shape} {K : Nat} (d : GatherDims s ⟨2, ![E, K]⟩ t)
    (hivd : d.indexVectorDim = 1) (j : t.Idx) (c : Fin d.startIndexMap.length) (e : Fin E) (k : Fin K)
    (he : ∀ (i : Nat) (hi : i < d.batchDims.length), (j d.batchDims[i]).val = e.val)
    (hk : c.val = k.val) : d.siIdx j c = ix2 e k := by
  funext b
  match b with
  | ⟨0, _⟩ =>
    unfold GatherDims.siIdx
    rw [dif_neg (by rw [hivd]; simp)]
    unfold GatherDims.siCoord
    apply Fin.ext
    simp only [Fin.val_cast]
    exact he _ _
  | ⟨1, _⟩ =>
    unfold GatherDims.siIdx
    rw [dif_pos (by rw [hivd])]
    apply Fin.ext
    exact hk

/-- The two axes of a rank-2 shape. -/
private theorem fin2_cases (a : Fin 2) : a = 0 ∨ a = 1 := by
  rcases a with ⟨v, hv⟩
  rcases v with _ | _ | v
  · exact Or.inl rfl
  · exact Or.inr rfl
  · omega

/-- The three axes of a rank-3 shape. -/
private theorem fin3_cases (a : Fin 3) : a = 0 ∨ a = 1 ∨ a = 2 := by
  rcases a with ⟨v, hv⟩
  rcases v with _ | _ | _ | v
  · exact Or.inl rfl
  · exact Or.inr (Or.inl rfl)
  · exact Or.inr (Or.inr rfl)
  · omega

/-- ONE COLLAPSED, START-INDEXED AXIS. With no batching axes and a two-axis table of start indices
    (index vector on axis 1), the operand coordinate read on an axis `a` that is collapsed and is
    component `k` of the start index map is the table's entry (e, k), read as a signed integer and
    clamped into [0, size − 1]: there is no batching and no offset coordinate there, and the slice
    size is 1. -/
private theorem operandIdx_collapsed {s t : Shape} {K : Nat} (d : GatherDims s ⟨2, ![E, K]⟩ t)
    (hivd : d.indexVectorDim = 1) (hob : d.operandBatchingDims = []) (j : t.Idx)
    (idx : IVec ⟨2, ![E, K]⟩ w) (e : Fin E)
    (he : ∀ (i : Nat) (hi : i < d.batchDims.length), (j d.batchDims[i]).val = e.val)
    (a : Fin s.rank) (k : Fin K) (hc : a ∈ d.collapsedSliceDims) (hm : a ∈ d.startIndexMap)
    (hk : d.startIndexMap.idxOf a = k.val) (hs : d.sliceSizes a = 1) :
    (d.operandIdx j idx a).val = min (idx (ix2 e k)).toInt.toNat (s.size a - 1) := by
  have hb : a ∉ d.operandBatchingDims := by rw [hob]; exact List.not_mem_nil
  have hnk : a ∉ d.sKept := fun hmem => ((d.mem_sKept a).1 hmem).1 hc
  have hsi : d.siIdx j ⟨d.startIndexMap.idxOf a, List.idxOf_lt_length_iff.2 hm⟩ = ix2 e k :=
    siIdx_eq d hivd _ _ e k he hk
  show d.start j idx a + d.batchCoord j a + d.offCoord j a = _
  rw [GatherDims.batchCoord_eq_zero _ _ _ hb, GatherDims.offCoord_eq_zero _ _ _ hnk, Nat.add_zero]
  unfold GatherDims.start
  rw [dif_pos hm, hsi, hs]

/-- THE OFFSET AXIS. With no batching axes and one offset axis `o` of the result, the operand
    coordinate read on an axis `a` that is kept (neither collapsed nor batching) and is not named
    by the start index map is the result's coordinate on `o`: the slice starts at 0 there. -/
private theorem operandIdx_offset {s si t : Shape} (d : GatherDims s si t) (hob : d.operandBatchingDims = [])
    (j : t.Idx) (idx : IVec si w) (a : Fin s.rank) (o : Fin t.rank) (hoff : d.offsetDims = [o])
    (hk : a ∈ d.sKept) (hm : a ∉ d.startIndexMap) : (d.operandIdx j idx a).val = (j o).val := by
  have hb : a ∉ d.operandBatchingDims := by rw [hob]; exact List.not_mem_nil
  show d.start j idx a + d.batchCoord j a + d.offCoord j a = _
  rw [GatherDims.batchCoord_eq_zero _ _ _ hb, Nat.add_zero]
  unfold GatherDims.start GatherDims.offCoord
  rw [dif_neg hm, dif_pos hk, Nat.zero_add]
  exact idx_val_congr j (getElem_of_eq_singleton hoff _ _)

/-- ROWS OF A MATRIX BY ONE INDEX COLUMN. The gather whose start indices are an [E × 1] column,
    whose operand axis 0 is collapsed and start-indexed and whose operand axis 1 is the result's
    offset axis reads, at result position (e, h), the matrix at row `idx[e, 0]` — read as a signed
    integer and clamped into [0, N − 1] — and column `h`. -/
theorem gather_rows_apply (d : GatherDims ⟨2, ![N, H]⟩ ⟨2, ![E, 1]⟩ ⟨2, ![E, H]⟩)
    (hoff : d.offsetDims = [1]) (hcoll : d.collapsedSliceDims = [0]) (hob : d.operandBatchingDims = [])
    (hsim : d.startIndexMap = [0]) (hivd : d.indexVectorDim = 1) (hsl : d.sliceSizes = ![1, H])
    (x : (⟨2, ![N, H]⟩ : Shape).Idx → α) (idx : IVec ⟨2, ![E, 1]⟩ w) (e : Fin E) (h : Fin H) (hN : 0 < N) :
    Host.gather d x idx (ix2 e h) = x (ix2 ⟨min (idx (ix2 e (0 : Fin 1))).toInt.toNat (N - 1), by omega⟩ h) := by
  unfold Host.gather
  congr 1
  -- the result's one batch axis is axis 0: the axes of [E × H] outside the offset axes [1]
  have hbd : d.batchDims = [0] := by
    show Shape.kept _ d.offsetDims = [0]
    rw [hoff]; rfl
  have he : ∀ (i : Nat) (hi : i < d.batchDims.length), ((ix2 e h : (⟨2, ![E, H]⟩ : Shape).Idx) d.batchDims[i]).val = e.val :=
    fun i hi => idx_val_congr (ix2 e h) (getElem_of_eq_singleton hbd i hi)
  funext a
  apply Fin.ext
  rcases fin2_cases a with rfl | rfl
  · -- the row axis: collapsed, component 0 of the start index
    exact operandIdx_collapsed d hivd hob _ idx e he 0 (0 : Fin 1) (by rw [hcoll]; simp) (by rw [hsim]; simp)
      (by rw [hsim]; rfl) (by rw [hsl]; rfl)
  · -- the column axis: kept and not start-indexed, read at the result's offset coordinate
    exact operandIdx_offset d hob _ idx 1 1 hoff (by rw [GatherDims.mem_sKept, hcoll, hob]; simp) (by rw [hsim]; simp)

/-- ROWS OF A RANK-3 ARRAY BY A PAIR OF INDICES. The gather whose start indices are an [E × 2]
    table, whose operand axes 0 and 1 are collapsed and named, in that order, by the start index
    map, and whose operand axis 2 is the result's offset axis reads, at result position (e, h), the
    array at (`idx[e, 0]`, `idx[e, 1]`, h), each index read as a signed integer and clamped into its
    axis: [0, N − 1] and [0, R − 1]. -/
theorem gather_pair_rows_apply (d : GatherDims ⟨3, ![N, R, H]⟩ ⟨2, ![E, 2]⟩ ⟨2, ![E, H]⟩)
    (hoff : d.offsetDims = [1]) (hcoll : d.collapsedSliceDims = [0, 1]) (hob : d.operandBatchingDims = [])
    (hsim : d.startIndexMap = [0, 1]) (hivd : d.indexVectorDim = 1) (hsl : d.sliceSizes = ![1, 1, H])
    (x : (⟨3, ![N, R, H]⟩ : Shape).Idx → α) (idx : IVec ⟨2, ![E, 2]⟩ w) (e : Fin E) (h : Fin H) (hN : 0 < N) (hR : 0 < R) :
    Host.gather d x idx (ix2 e h)
      = x (ix3 ⟨min (idx (ix2 e (0 : Fin 2))).toInt.toNat (N - 1), by omega⟩ ⟨min (idx (ix2 e (1 : Fin 2))).toInt.toNat (R - 1), by omega⟩ h) := by
  unfold Host.gather
  congr 1
  -- the result's one batch axis is axis 0: the axes of [E × H] outside the offset axes [1]
  have hbd : d.batchDims = [0] := by
    show Shape.kept _ d.offsetDims = [0]
    rw [hoff]; rfl
  have he : ∀ (i : Nat) (hi : i < d.batchDims.length), ((ix2 e h : (⟨2, ![E, H]⟩ : Shape).Idx) d.batchDims[i]).val = e.val :=
    fun i hi => idx_val_congr (ix2 e h) (getElem_of_eq_singleton hbd i hi)
  funext a
  apply Fin.ext
  rcases fin3_cases a with rfl | rfl | rfl
  · -- the first axis: collapsed, component 0 of the start index
    exact operandIdx_collapsed d hivd hob _ idx e he 0 (0 : Fin 2) (by rw [hcoll]; simp) (by rw [hsim]; simp)
      (by rw [hsim]; rfl) (by rw [hsl]; rfl)
  · -- the second axis: collapsed, component 1 of the start index
    exact operandIdx_collapsed d hivd hob _ idx e he 1 (1 : Fin 2) (by rw [hcoll]; simp) (by rw [hsim]; simp)
      (by rw [hsim]; rfl) (by rw [hsl]; rfl)
  · -- the last axis: kept and not start-indexed, read at the result's offset coordinate
    exact operandIdx_offset d hob _ idx 2 1 hoff (by rw [GatherDims.mem_sKept, hcoll, hob]; simp) (by rw [hsim]; simp)

/-- ONE ENTRY OF A MATRIX BY A PAIR OF INDICES. The gather whose start indices are an [E × 2]
    table, whose two operand axes are both collapsed and named, in order, by the start index map,
    and whose result has no offset axis reads, at result position e, the matrix at
    (`idx[e, 0]`, `idx[e, 1]`), each index read as a signed integer and clamped into its axis:
    [0, N − 1] and [0, R − 1]. -/
theorem gather_pair_scalar_apply (d : GatherDims ⟨2, ![N, R]⟩ ⟨2, ![E, 2]⟩ ⟨1, ![E]⟩)
    (hoff : d.offsetDims = []) (hcoll : d.collapsedSliceDims = [0, 1]) (hob : d.operandBatchingDims = [])
    (hsim : d.startIndexMap = [0, 1]) (hivd : d.indexVectorDim = 1) (hsl : d.sliceSizes = ![1, 1])
    (x : (⟨2, ![N, R]⟩ : Shape).Idx → α) (idx : IVec ⟨2, ![E, 2]⟩ w) (e : Fin E) (hN : 0 < N) (hR : 0 < R) :
    Host.gather d x idx (ix1 e)
      = x (ix2 ⟨min (idx (ix2 e (0 : Fin 2))).toInt.toNat (N - 1), by omega⟩ ⟨min (idx (ix2 e (1 : Fin 2))).toInt.toNat (R - 1), by omega⟩) := by
  unfold Host.gather
  congr 1
  -- the result's one axis is its batch axis: there are no offset axes
  have hbd : d.batchDims = [0] := by
    show Shape.kept _ d.offsetDims = [0]
    rw [hoff]; rfl
  have he : ∀ (i : Nat) (hi : i < d.batchDims.length), ((ix1 e : (⟨1, ![E]⟩ : Shape).Idx) d.batchDims[i]).val = e.val :=
    fun i hi => idx_val_congr (ix1 e) (getElem_of_eq_singleton hbd i hi)
  funext a
  apply Fin.ext
  rcases fin2_cases a with rfl | rfl
  · -- the first axis: collapsed, component 0 of the start index
    exact operandIdx_collapsed d hivd hob _ idx e he 0 (0 : Fin 2) (by rw [hcoll]; simp) (by rw [hsim]; simp)
      (by rw [hsim]; rfl) (by rw [hsl]; rfl)
  · -- the second axis: collapsed, component 1 of the start index
    exact operandIdx_collapsed d hivd hob _ idx e he 1 (1 : Fin 2) (by rw [hcoll]; simp) (by rw [hsim]; simp)
      (by rw [hsim]; rfl) (by rw [hsl]; rfl)

end Cert.LibIndexing
-- ==== Proof.LibScatterAddAt.lean ====
/-
  The host's accumulating float scatter (jnp's `.at[idx].add` / `segment_sum`) READ AT AN INDEX, at the ideal instance
  (extended reals), for the two shapes a row-indexed accumulation prints as:

    rows    operand [N, H], index column [E, 1], updates [E, H]  — update row e goes to operand row idx e;
    vector  operand [N],    index column [E, 1], updates [E]     — update e goes to operand entry idx e.

  The dimension numbers are a variable record whose printed fields are hypotheses (each holds by `rfl` at a printed
  record). In both shapes the start of update j's window is the index word of row (j 0), read signed and not clamped, on
  operand axis 0, and 0 on the other axis; the window coordinate is 0 on axis 0 (an inserted axis) and j's own
  coordinate on the other. So update j lands on operand index i exactly when the index word of its row IS i's row number
  and (for rows) the two column numbers agree; an index word that is not a row number lands nowhere and is dropped.
  The sum over the updates that land on i is then a sum over the rows e whose index word is i's row number.
  Nothing here depends on the sizes N, H, E: they stay variables.
-/
import Idealize.ShloMosaic.PureOps.Ideal
import Idealize.ShloMosaic.PureOps.Contract
import Idealize.ShloMosaic.PureOps.Dims
import Idealize.ShloMosaic.Lib.ValueIdx

noncomputable section

open Idealize.ShloMosaic Idealize.ShloMosaic.ValueIdx
open scoped BigOperators

namespace Cert.LibIndexing

/-- The only entry of a one-element list, at whatever position a bound proof allows. -/
private theorem getElem_of_eq_singleton {α : Type} {l : List α} {a : α} (hl : l = [a]) (k : Nat) (hk : k < l.length) :
    l[k] = a := by
  subst hl
  simp

/-- Of the two axes of a rank-2 array, the ones other than axis 1: axis 0. -/
private theorem fin2_filter_notMem_one : (List.finRange 2).filter (· ∉ [(1 : Fin 2)]) = [0] := by decide
/-- Of the two axes of a rank-2 array, the ones other than axis 0: axis 1. -/
private theorem fin2_filter_notMem_zero : (List.finRange 2).filter (· ∉ [(0 : Fin 2)]) = [1] := by decide
/-- The same list, the condition on the axis NUMBER. -/
private theorem fin2_filter_val_ne_one : (List.finRange 2).filter (fun a : Fin 2 => a.val ≠ 1) = [0] := by decide
private theorem fin2_one_notMem_zero : (1 : Fin 2) ∉ [(0 : Fin 2)] := by decide
private theorem fin2_zero_notMem_one : (0 : Fin 2) ∉ [(1 : Fin 2)] := by decide

/-! ## Rows: operand [N, H], index column [E, 1], updates [E, H] -/

section Rows

variable {N H E w : Nat} (d : ScatterDims ⟨2, ![N, H]⟩ ⟨2, ![E, 1]⟩ ⟨2, ![E, H]⟩)

/-- The updates' scatter axes: axis 0 alone (axis 1 is the window axis). -/
private theorem rows_uScatter (huw : d.updateWindowDims = [1]) : d.uScatter = [0] := by
  show (List.finRange 2).filter (· ∉ d.updateWindowDims) = [0]
  rw [huw]; exact fin2_filter_notMem_one

/-- The operand's kept axes: axis 1 alone (axis 0 is inserted). -/
private theorem rows_sKept (hiw : d.insertedWindowDims = [0]) : d.sKept = [1] := by
  show (List.finRange 2).filter (· ∉ d.insertedWindowDims) = [1]
  rw [hiw]; exact fin2_filter_notMem_zero

/-- The scatter indices' axes but the index vector's: axis 0 alone. -/
private theorem rows_siKept (hivd : d.indexVectorDim = 1) : d.siKept = [0] := by
  show (List.finRange 2).filter (·.val ≠ d.indexVectorDim) = [0]
  rw [hivd]; exact fin2_filter_val_ne_one

/-- On operand axis 0 the window starts at the index word of the update's row, read signed. -/
private theorem rows_start0 (huw : d.updateWindowDims = [1]) (hsd : d.scatterDimsToOperandDims = [0]) (hivd : d.indexVectorDim = 1)
    (j : (⟨2, ![E, H]⟩ : Shape).Idx) (idx : IVec ⟨2, ![E, 1]⟩ w) :
    d.start j idx 0 = (idx (ix2 (j 0) (0 : Fin 1))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have e : ∀ X : Fin 2, X = 0 → (j X).val = (j 0).val := fun X hX => by subst hX; rfl
    exact e _ (getElem_of_eq_singleton (rows_uScatter d huw) _ _)
  | ⟨1, _⟩ =>
    unfold ScatterDims.siIdx
    rw [dif_pos (by rw [hivd])]
    apply Fin.ext
    show List.idxOf (0 : Fin 2) d.scatterDimsToOperandDims = 0
    rw [hsd]; simp

/-- On operand axis 1 the window starts at 0: the map does not name that axis. -/
private theorem rows_start1 (hsd : d.scatterDimsToOperandDims = [0])
    (j : (⟨2, ![E, H]⟩ : Shape).Idx) (idx : IVec ⟨2, ![E, 1]⟩ w) : d.start j idx 1 = 0 := by
  have hm : (1 : Fin 2) ∉ d.scatterDimsToOperandDims := by rw [hsd]; exact fin2_one_notMem_zero
  unfold ScatterDims.start
  rw [dif_neg hm]

/-- The window coordinate on operand axis 0 is 0: an inserted axis. -/
private theorem rows_window0 (hiw : d.insertedWindowDims = [0]) (j : (⟨2, ![E, H]⟩ : Shape).Idx) : d.window j 0 = 0 := by
  have hm : (0 : Fin 2) ∉ d.sKept := by rw [rows_sKept d hiw]; exact fin2_zero_notMem_one
  unfold ScatterDims.window
  rw [dif_neg hm]

/-- The window coordinate on operand axis 1 is the update's column. -/
private theorem rows_window1 (huw : d.updateWindowDims = [1]) (hiw : d.insertedWindowDims = [0])
    (j : (⟨2, ![E, H]⟩ : Shape).Idx) : d.window j 1 = (j 1).val := by
  have hm : (1 : Fin 2) ∈ d.sKept := by rw [rows_sKept d hiw]; exact List.mem_singleton.mpr rfl
  unfold ScatterDims.window
  rw [dif_pos hm]
  have e : ∀ X : Fin 2, X = 1 → (j X).val = (j 1).val := fun X hX => by subst hX; rfl
  exact e _ (getElem_of_eq_singleton huw _ _)

/-- Update j lands on operand index i exactly when the index word of j's row, read signed, is i's row number and the
    two columns agree. (An index word that is no row number lands nowhere.) -/
private theorem rows_resultIdx_eq_some (huw : d.updateWindowDims = [1]) (hiw : d.insertedWindowDims = [0])
    (hsd : d.scatterDimsToOperandDims = [0]) (hivd : d.indexVectorDim = 1)
    (j : (⟨2, ![E, H]⟩ : Shape).Idx) (idx : IVec ⟨2, ![E, 1]⟩ w) (i : (⟨2, ![N, H]⟩ : Shape).Idx) :
    d.resultIdx? j idx = some i ↔ (idx (ix2 (j 0) (0 : Fin 1))).toInt = ((i 0).val : ℤ) ∧ (j 1).val = (i 1).val := by
  have hs0 := rows_start0 d huw hsd hivd j idx
  have hs1 := rows_start1 d hsd j idx
  have hw0 := rows_window0 d hiw j
  have hw1 := rows_window1 d huw hiw j
  have hi0 : (i 0).val < N := idx2_lt0 i
  have hi1 : (i 1).val < H := idx2_lt1 i
  have hj1 : (j 1).val < H := idx2_lt1 j
  unfold ScatterDims.resultIdx?
  split
  · next hin =>
    rw [Option.some.injEq, funext_iff, Fin.forall_fin_two]
    simp only [Fin.ext_iff]
    have h0 := hin 0
    rw [hs0, hw0, hs1, hw1]
    omega
  · next hout =>
    constructor
    · intro hc; exact absurd hc (by simp)
    · rintro ⟨h0, h1⟩
      exfalso
      apply hout
      rw [Fin.forall_fin_two, hs0, hw0, hs1, hw1]
      refine ⟨⟨by omega, ?_⟩, ⟨by omega, ?_⟩⟩
      · show _ < (N : ℤ); omega
      · show _ < (H : ℤ); omega

/-- ROWS. The accumulating scatter of update rows `u` [E, H] into the operand `x` [N, H] by the index column `idx` [E, 1]
    (update axis 1 the window axis, operand axis 0 inserted and start-indexed, the index vector on axis 1), read at
    row n, column h: the operand's element plus the sum, over the update rows e whose index word READ SIGNED is the row
    number n, of their element in column h. A word that is no row number (negative, or N and above) adds nothing. -/
theorem scatterAdd_rows_apply {φ : FTy} (huw : d.updateWindowDims = [1]) (hiw : d.insertedWindowDims = [0])
    (hsd : d.scatterDimsToOperandDims = [0]) (hivd : d.indexVectorDim = 1)
    (x : FVec Ideal ⟨2, ![N, H]⟩ φ) (idx : IVec ⟨2, ![E, 1]⟩ w) (u : FVec Ideal ⟨2, ![E, H]⟩ φ) (n : Fin N) (h : Fin H) :
    Host.scatterAdd d x idx u (ix2 n h)
      = x (ix2 n h) + ∑ e ∈ Finset.univ.filter (fun e : Fin E => (idx (ix2 e (0 : Fin 1))).toInt = (n.val : ℤ)), u (ix2 e h) := by
  show x (ix2 n h) + ∑ j ∈ Finset.univ.filter (fun j => d.resultIdx? j idx = some (ix2 n h)), u j = _
  congr 1
  have hiff := fun j => rows_resultIdx_eq_some d huw hiw hsd hivd j idx (ix2 n h)
  have hback : ∀ j : (⟨2, ![E, H]⟩ : Shape).Idx, d.resultIdx? j idx = some (ix2 n h) → ix2 (j 0) h = j := by
    intro j hj
    have h1 : j 1 = h := Fin.ext ((hiff j).1 hj).2
    rw [← h1]; exact (eq_ix2 j).symm
  refine Finset.sum_bij' (fun j _ => j 0) (fun e _ => ix2 e h) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix2 e h)).2 ⟨(Finset.mem_filter.1 he).2, rfl⟩⟩
  · intro j hj
    exact hback j (Finset.mem_filter.1 hj).2
  · intro e _
    rfl
  · intro j hj
    exact congrArg u (hback j (Finset.mem_filter.1 hj).2).symm

end Rows

/-! ## Vector: operand [N], index column [E, 1], updates [E] -/

/-- The one axis of a rank-1 array is outside the empty list of axes. -/
private theorem fin1_filter_notMem_nil : (List.finRange 1).filter (· ∉ ([] : List (Fin 1))) = [0] := by decide
/-- No axis of a rank-1 array is left once axis 0 is taken out. -/
private theorem fin1_filter_notMem_zero : (List.finRange 1).filter (· ∉ [(0 : Fin 1)]) = [] := by decide

section Vector

variable {N E w : Nat} (d : ScatterDims ⟨1, ![N]⟩ ⟨2, ![E, 1]⟩ ⟨1, ![E]⟩)

/-- The updates' scatter axes: their one axis (there is no window axis). -/
private theorem vec_uScatter (huw : d.updateWindowDims = []) : d.uScatter = [0] := by
  show (List.finRange 1).filter (· ∉ d.updateWindowDims) = [0]
  rw [huw]; exact fin1_filter_notMem_nil

/-- The operand keeps no axis: its one axis is inserted. -/
private theorem vec_sKept (hiw : d.insertedWindowDims = [0]) : d.sKept = [] := by
  show (List.finRange 1).filter (· ∉ d.insertedWindowDims) = []
  rw [hiw]; exact fin1_filter_notMem_zero

/-- On the operand's axis the window starts at the index word of the update's position, read signed. -/
private theorem vec_start0 (huw : d.updateWindowDims = []) (hsd : d.scatterDimsToOperandDims = [0]) (hivd : d.indexVectorDim = 1)
    (j : (⟨1, ![E]⟩ : Shape).Idx) (idx : IVec ⟨2, ![E, 1]⟩ w) :
    d.start j idx 0 = (idx (ix2 (j 0) (0 : Fin 1))).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have e : ∀ X : Fin 1, X = 0 → (j X).val = (j 0).val := fun X hX => by subst hX; rfl
    exact e _ (getElem_of_eq_singleton (vec_uScatter d huw) _ _)
  | ⟨1, _⟩ =>
    unfold ScatterDims.siIdx
    rw [dif_pos (by rw [hivd])]
    apply Fin.ext
    show List.idxOf (0 : Fin 1) d.scatterDimsToOperandDims = 0
    rw [hsd]; simp

/-- The window coordinate on the operand's axis is 0: an inserted axis. -/
private theorem vec_window0 (hiw : d.insertedWindowDims = [0]) (j : (⟨1, ![E]⟩ : Shape).Idx) : d.window j 0 = 0 := by
  have hm : (0 : Fin 1) ∉ d.sKept := by rw [vec_sKept d hiw]; exact List.not_mem_nil
  unfold ScatterDims.window
  rw [dif_neg hm]

/-- Update j lands on operand index i exactly when the index word of j's position, read signed, is i's position.
    (An index word that is no position of the operand lands nowhere.) -/
private theorem vec_resultIdx_eq_some (huw : d.updateWindowDims = []) (hiw : d.insertedWindowDims = [0])
    (hsd : d.scatterDimsToOperandDims = [0]) (hivd : d.indexVectorDim = 1)
    (j : (⟨1, ![E]⟩ : Shape).Idx) (idx : IVec ⟨2, ![E, 1]⟩ w) (i : (⟨1, ![N]⟩ : Shape).Idx) :
    d.resultIdx? j idx = some i ↔ (idx (ix2 (j 0) (0 : Fin 1))).toInt = ((i 0).val : ℤ) := by
  have hs0 := vec_start0 d huw hsd hivd j idx
  have hw0 := vec_window0 d hiw j
  have hi0 : (i 0).val < N := (i 0).isLt
  unfold ScatterDims.resultIdx?
  split
  · next hin =>
    rw [Option.some.injEq, funext_iff, Fin.forall_fin_one]
    simp only [Fin.ext_iff]
    have h0 := hin 0
    rw [hs0, hw0] at h0 ⊢
    omega
  · next hout =>
    constructor
    · intro hc; exact absurd hc (by simp)
    · intro h0
      exfalso
      apply hout
      rw [Fin.forall_fin_one, hs0, hw0]
      refine ⟨by omega, ?_⟩
      show _ < (N : ℤ); omega

/-- VECTOR. The accumulating scatter of the updates `u` [E] into the operand `x` [N] by the index column `idx` [E, 1] (no
    window axis, the operand's axis inserted and start-indexed, the index vector on axis 1), read at position n: the
    operand's element plus the sum of the updates e whose index word READ SIGNED is the position n. A word that is no
    position of the operand (negative, or N and above) adds nothing. -/
theorem scatterAdd_vec_apply {φ : FTy} (huw : d.updateWindowDims = []) (hiw : d.insertedWindowDims = [0])
    (hsd : d.scatterDimsToOperandDims = [0]) (hivd : d.indexVectorDim = 1)
    (x : FVec Ideal ⟨1, ![N]⟩ φ) (idx : IVec ⟨2, ![E, 1]⟩ w) (u : FVec Ideal ⟨1, ![E]⟩ φ) (n : Fin N) :
    Host.scatterAdd d x idx u (ix1 n)
      = x (ix1 n) + ∑ e ∈ Finset.univ.filter (fun e : Fin E => (idx (ix2 e (0 : Fin 1))).toInt = (n.val : ℤ)), u (ix1 e) := by
  show x (ix1 n) + ∑ j ∈ Finset.univ.filter (fun j => d.resultIdx? j idx = some (ix1 n)), u j = _
  congr 1
  have hiff := fun j => vec_resultIdx_eq_some d huw hiw hsd hivd j idx (ix1 n)
  refine Finset.sum_bij' (fun j _ => j 0) (fun e _ => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg u (eq_ix1 j)

end Vector

end Cert.LibIndexing
-- ==== Proof.ConvKernelAt.lean ====
/-
  The idealized kernel program's graph layer read at one entry (n, h), on the extended reals.

  After a dense layer of width 384 whose weights are the root matrix and the two relation matrices side by side and
  whose bias is the layer's bias followed by 256 zeros, the program adds to the root columns, for every edge e, the row
  (source of e, relation of e) of the relation columns times e's scale, summed into e's destination node. Read at
  (n, h) this is

      x[n] · w_root[:, h] + b[h]  +  (0 + Σ over the edges e into n of (x[row e] · w_rel[rel e][:, h] + 0) · 1 / max(count, 1))

  where count = 0 + the number of edges into n of e's relation. The steps, each a statement about one entry:
  the edge list's rows, the once-wrapped index words and the (node, relation) pair table at an edge; the combined
  weights and the padded bias column by column; the dense layer's root columns and its relation columns laid as
  [50000, 2, 128]; the rows the two gathers read (a source word's row; a relation word 0 or 1 read as its relation; for an
  edge into n the destination word's row is n itself); the one-hot relation table, the reciprocal counts and the scale;
  and last the accumulating scatter over the destination column, whose updates landing on row n are the edges into n.
-/
import proofs.«429306_j3298534884295_1_alg».proof.Proof.KRaw
import proofs.«429306_j3298534884295_1_alg».proof.Proof.ConvSpec
import proofs.«429306_j3298534884295_1_alg».proof.Proof.LibGatherAt
import proofs.«429306_j3298534884295_1_alg».proof.Proof.LibScatterAddAt
import Idealize.ShloMosaic.Lib.Pipeline.Value
import Idealize.ShloMosaic.Lib.IdealHost
import Idealize.ShloMosaic.Lib.StableHlo.Predicate

noncomputable section

open scoped BigOperators

namespace Cert.RGCN

open Cert.KernelIdeal Cert.KernelIdeal.Raw Cert.RGCN Idealize.ShloMosaic Idealize.ShloMosaic.ValueIdx
open Cert.KernelIdeal.Facts₀ Cert.KernelIdeal.Facts

namespace KernelAt

/-! ## Words: an index word wrapped once, read signed and clamped -/

/-- A word that reads, signed, as a row number below 50000 is not negative, so it is not wrapped, and the row it
    reads is that number. -/
theorem rowOf_of_toInt (w : BitVec 32) (n : Fin 50000) (hw : w.toInt = (n.val : ℤ)) : rowOf w = n := by
  have hf : w.slt 0#32 = false := by
    rw [BitVec.slt, decide_eq_false_iff_not, hw]
    simp
  have hs : IntOp.cmpi .slt w 0#32 = 0#1 := by
    unfold IntOp.cmpi
    show BitVec.ofBool (w.slt 0#32) = 0#1
    rw [hf]; rfl
  apply Fin.ext
  show min (wrapW 50000#32 w).toInt.toNat (50000 - 1) = n.val
  unfold wrapW
  rw [hs, select_zero, hw, Int.toNat_natCast]
  have := n.isLt
  omega

/-- A relation word that is 0 or 1 is not wrapped, and clamped into [0, 1] it is the relation it names. -/
theorem relRow_of_word (w : BitVec 32) (hw : w = 0#32 ∨ w = 1#32) :
    min (wrapW 2#32 w).toInt.toNat (2 - 1) = ((if w = 0#32 then 0 else 1 : Fin 2)).val := by
  rcases hw with rfl | rfl
  · decide
  · decide

/-- The two relations. -/
private theorem fin2_cases (t : Fin 2) : t = 0 ∨ t = 1 := by
  rcases t with ⟨v, hv⟩
  rcases v with _ | _ | v
  · exact Or.inl rfl
  · exact Or.inr rfl
  · omega

/-- One bit of the one-hot table as an extended real: a relation word 0 or 1 compared with relation t. -/
theorem onehot_word (w : BitVec 32) (hw : w = 0#32 ∨ w = 1#32) (t : Fin 2) :
    (((IntOp.cmpi .eq w (BitVec.ofNat 32 t.val)).toNat : ℝ) : EReal)
      = if (if w = 0#32 then (0 : Fin 2) else 1) = t then (1 : EReal) else 0 := by
  rcases hw with rfl | rfl <;> rcases fin2_cases t with rfl | rfl
  · have hc : IntOp.cmpi .eq (0#32) (BitVec.ofNat 32 (0 : Fin 2).val) = 1#1 := by decide
    rw [hc]; simp
  · have hc : IntOp.cmpi .eq (0#32) (BitVec.ofNat 32 (1 : Fin 2).val) = 0#1 := by decide
    rw [hc]; simp
  · have hc : IntOp.cmpi .eq (1#32) (BitVec.ofNat 32 (0 : Fin 2).val) = 0#1 := by decide
    rw [hc]; simp
  · have hc : IntOp.cmpi .eq (1#32) (BitVec.ofNat 32 (1 : Fin 2).val) = 1#1 := by decide
    rw [hc]; simp

end KernelAt

variable [Cert.KernelIdeal.Facts]

namespace KernelAt

/-! ## The index arrays at one edge -/

/-- Edge e's source word is entry (0, e) of the edge list. -/
theorem srcK_apply (ei : IVec S2x600000 32) (e : Fin 600000) : srcK ei (ix1 e) = ei (ix2 (0 : Fin 2) e) := by
  unfold srcK
  refine (shapeCast_apply _ shapeCasts_S1x600000_S600000 (ix1 e) (ix2 (0 : Fin 1) e) ?_).trans ?_
  · rewrite [Shape.rowMajor_val_two, Shape.rowMajor_val_one]
    show 0 * 600000 + e.val = e.val
    omega
  · exact extractStridedSlice_apply ![0, 0] ei slices_S2x600000_S1x600000_0_0 (ix2 (0 : Fin 1) e) (ix2 (0 : Fin 2) e)
      (fun a => match a with
        | ⟨0, _⟩ => by show (0 : Nat) = 0 + 0; rfl
        | ⟨1, _⟩ => by show e.val = 0 + e.val; omega)

/-- Edge e's destination word is entry (1, e) of the edge list. -/
theorem dstK_apply (ei : IVec S2x600000 32) (e : Fin 600000) : dstK ei (ix1 e) = ei (ix2 (1 : Fin 2) e) := by
  unfold dstK
  refine (shapeCast_apply _ shapeCasts_S1x600000_S600000 (ix1 e) (ix2 (0 : Fin 1) e) ?_).trans ?_
  · rewrite [Shape.rowMajor_val_two, Shape.rowMajor_val_one]
    show 0 * 600000 + e.val = e.val
    omega
  · exact extractStridedSlice_apply ![1, 0] ei slices_S2x600000_S1x600000_1_0 (ix2 (0 : Fin 1) e) (ix2 (1 : Fin 2) e)
      (fun a => match a with
        | ⟨0, _⟩ => by show (1 : Nat) = 1 + 0; rfl
        | ⟨1, _⟩ => by show e.val = 0 + e.val; omega)

/-- The wrapped vector at edge e is the wrapped word. -/
theorem wrapK_apply (n : BitVec 32) (v : IVec S600000 32) (e : Fin 600000) : wrapK n v (ix1 e) = wrapW n (v (ix1 e)) := by
  show Scalar.select (IntOp.cmpi .slt (v (ix1 e)) (broadcastInDim S600000 ![] bcast_S_S600000 (constantI S_ 32 0#32) (ix1 e)))
      (IntOp.addi (v (ix1 e)) (broadcastInDim S600000 ![] bcast_S_S600000 (constantI S_ 32 n) (ix1 e))) (v (ix1 e)) = _
  rw [broadcastInDim_scalar_apply, broadcastInDim_scalar_apply]
  rfl

/-- A vector laid as a column reads the vector. -/
theorem colK_apply (v : IVec S600000 32) (e : Fin 600000) : colK v (ix2 e (0 : Fin 1)) = v (ix1 e) := by
  unfold colK
  exact broadcastInDim_apply _ bcast_S600000_S600000x1_0 v (ix2 e (0 : Fin 1)) (ix1 e) (fun a => match a with
    | ⟨0, _⟩ => by show e.val = if (600000 : Nat) = 1 then 0 else e.val; rw [if_neg (by decide)])

/-- Column 0 of the pair table is the first vector. -/
theorem pairK_apply0 (a b : IVec S600000 32) (e : Fin 600000) : pairK a b (ix2 e (0 : Fin 2)) = a (ix1 e) := by
  unfold pairK
  refine (concatenate_pair_apply_left (1 : Fin 2) (colK a) (colK b) concatenates_S600000x1_S600000x1_S600000x2_d1
    (ix2 e (0 : Fin 2)) rfl (ix2 e (0 : Fin 1)) (fun c => match c with
      | ⟨0, _⟩ => rfl
      | ⟨1, _⟩ => rfl)).trans ?_
  exact colK_apply a e

/-- Column 1 of the pair table is the second vector. -/
theorem pairK_apply1 (a b : IVec S600000 32) (e : Fin 600000) : pairK a b (ix2 e (1 : Fin 2)) = b (ix1 e) := by
  unfold pairK
  refine (concatenate_pair_apply_right (1 : Fin 2) (colK a) (colK b) concatenates_S600000x1_S600000x1_S600000x2_d1
    (ix2 e (1 : Fin 2)) rfl rfl (ix2 e (0 : Fin 1)) (fun c => match c with
      | ⟨0, _⟩ => fun _ => rfl
      | ⟨1, _⟩ => fun hc => absurd rfl hc) rfl).trans ?_
  exact colK_apply b e

/-! ## The weights side by side and the padded bias, column by column -/

/-- Relation t's matrix, cut out of the stack of relation matrices and laid flat, at (k, h). -/
theorem relMat_apply (wrel : FVec Ideal S2x128x128 .f32) (t : Fin 2) (o : Nat) (ho : o = t.val)
    (hs : S2x128x128.Slices ![o, 0, 0] S1x128x128) (k h : Fin 128) :
    shapeCast S128x128 (extractStridedSlice S1x128x128 ![o, 0, 0] wrel hs) shapeCasts_S1x128x128_S128x128 (ix2 k h)
      = wrel (ix3 t k h) := by
  refine (shapeCast_apply _ shapeCasts_S1x128x128_S128x128 (ix2 k h) (ix3 (0 : Fin 1) k h) ?_).trans ?_
  · rewrite [Shape.rowMajor_val_three, Shape.rowMajor_val_two]
    show (0 * 128 + k.val) * 128 + h.val = k.val * 128 + h.val
    omega
  · exact extractStridedSlice_apply ![o, 0, 0] wrel hs (ix3 (0 : Fin 1) k h) (ix3 t k h) (fun a => match a with
      | ⟨0, _⟩ => by show t.val = o + 0; omega
      | ⟨1, _⟩ => by show k.val = 0 + k.val; omega
      | ⟨2, _⟩ => by show h.val = 0 + h.val; omega)

/-- The first 128 columns of the combined weights are the root matrix's. -/
theorem wcombK_root (wrel : FVec Ideal S2x128x128 .f32) (wroot : FVec Ideal S128x128 .f32) (k h : Fin 128) (c : Fin 384)
    (hc : c.val = h.val) : wcombK wrel wroot (ix2 k c) = wroot (ix2 k h) := by
  unfold wcombK
  exact concatenate_pair_apply_left (1 : Fin 2) wroot _ concatenates_S128x128_S128x256_S128x384_d1 (ix2 k c) rfl (ix2 k h)
    (fun b => match b with
      | ⟨0, _⟩ => rfl
      | ⟨1, _⟩ => hc.symm)

/-- Column 128 + 128 t + h of the combined weights is column h of relation t's matrix. -/
theorem wcombK_rel (wrel : FVec Ideal S2x128x128 .f32) (wroot : FVec Ideal S128x128 .f32) (t : Fin 2) (k h : Fin 128) (c : Fin 384)
    (hc : c.val = 128 + 128 * t.val + h.val) : wcombK wrel wroot (ix2 k c) = wrel (ix3 t k h) := by
  have ht := t.isLt
  have hh := h.isLt
  unfold wcombK
  refine (concatenate_pair_apply_right (t := S128x384) (s₁ := S128x128) (s₂ := S128x256) (1 : Fin 2) wroot _ concatenates_S128x128_S128x256_S128x384_d1 (ix2 k c) rfl rfl
    (ix2 k (⟨128 * t.val + h.val, by omega⟩ : Fin 256)) (fun b => match b with
      | ⟨0, _⟩ => fun _ => rfl
      | ⟨1, _⟩ => fun hb => absurd rfl hb) (by show 128 * t.val + h.val + 128 = c.val; omega)).trans ?_
  rcases fin2_cases t with rfl | rfl
  · refine (concatenate_pair_apply_left (t := S128x256) (s₁ := S128x128) (s₂ := S128x128) (1 : Fin 2) _ _ concatenates_S128x128_S128x128_S128x256_d1 _ rfl (ix2 k h)
      (fun b => match b with
        | ⟨0, _⟩ => rfl
        | ⟨1, _⟩ => by show h.val = 128 * (0 : Fin 2).val + h.val; simp)).trans ?_
    exact relMat_apply wrel 0 0 rfl slices_S2x128x128_S1x128x128_0_0_0 k h
  · refine (concatenate_pair_apply_right (t := S128x256) (s₁ := S128x128) (s₂ := S128x128) (1 : Fin 2) _ _ concatenates_S128x128_S128x128_S128x256_d1 _ rfl rfl (ix2 k h)
      (fun b => match b with
        | ⟨0, _⟩ => fun _ => rfl
        | ⟨1, _⟩ => fun hb => absurd rfl hb) (by show h.val + 128 = 128 * (1 : Fin 2).val + h.val; simp; omega)).trans ?_
    exact relMat_apply wrel 1 1 rfl slices_S2x128x128_S1x128x128_1_0_0 k h

/-- The first 128 entries of the padded bias row are the bias. -/
theorem bcombK_root (bconv : FVec Ideal S128 .f32) (h : Fin 128) (c : Fin 384) (hc : c.val = h.val) :
    bcombK bconv (ix2 (0 : Fin 1) c) = bconv (ix1 h) := by
  unfold bcombK
  refine (shapeCast_apply _ shapeCasts_S384_S1x384 (ix2 (0 : Fin 1) c) (ix1 c) ?_).trans ?_
  · rewrite [Shape.rowMajor_val_one, Shape.rowMajor_val_two]
    show c.val = 0 * 384 + c.val
    omega
  · unfold bcombVecK
    exact concatenate_pair_apply_left (0 : Fin 1) bconv _ concatenates_S128_S256_S384_d0 (ix1 c) rfl (ix1 h)
      (fun b => match b with
        | ⟨0, _⟩ => hc.symm)

/-- From entry 128 on, the padded bias row is zero. -/
theorem bcombK_pad (bconv : FVec Ideal S128 .f32) (c : Fin 384) (hc : 128 ≤ c.val) :
    bcombK bconv (ix2 (0 : Fin 1) c) = 0 := by
  have hlt := c.isLt
  unfold bcombK
  refine (shapeCast_apply _ shapeCasts_S384_S1x384 (ix2 (0 : Fin 1) c) (ix1 c) ?_).trans ?_
  · rewrite [Shape.rowMajor_val_one, Shape.rowMajor_val_two]
    show c.val = 0 * 384 + c.val
    omega
  · unfold bcombVecK
    refine (concatenate_pair_apply_right (t := S384) (s₁ := S128) (s₂ := S256) (0 : Fin 1) bconv _ concatenates_S128_S256_S384_d0 (ix1 c) rfl rfl
      (ix1 (⟨c.val - 128, by omega⟩ : Fin 256)) (fun b => match b with
        | ⟨0, _⟩ => fun hb => absurd rfl hb) (by show c.val - 128 + 128 = c.val; omega)).trans ?_
    rw [broadcastInDim_scalar_apply, constant_apply]
    exact Ideal.ofBits_zero_f32

/-! ## The dense layer of width 384 read in its root columns and in its relation columns -/

section Dense
variable (x : FVec Ideal S50000x128 .f32) (wrel : FVec Ideal S2x128x128 .f32) (wroot : FVec Ideal S128x128 .f32)
  (bconv : FVec Ideal S128 .f32)

/-- Columns 0 to 127 of the dense layer at (n, h): the root term, x[n] · w_root + b at column h. -/
theorem rootCols_apply (n : Fin 50000) (h : Fin 128) :
    extractStridedSlice S50000x128 ![0, 0] (lin x (wcombK wrel wroot) (bcombK bconv)) slices_S50000x384_S50000x128_0_0 (ix2 n h)
      = rootAt x wroot bconv n h := by
  have hh := h.isLt
  refine (extractStridedSlice_apply ![0, 0] _ slices_S50000x384_S50000x128_0_0 (ix2 n h)
    (ix2 n (⟨h.val, by omega⟩ : Fin 384)) (fun a => match a with
      | ⟨0, _⟩ => by show n.val = 0 + n.val; omega
      | ⟨1, _⟩ => by show h.val = 0 + h.val; omega)).trans ?_
  rw [lin_ix2]
  unfold linAt rootAt
  rw [bcombK_root bconv h _ rfl]
  congr 1
  exact Finset.sum_congr rfl fun k _ => by rw [wcombK_root wrel wroot k h _ rfl]

/-- Columns 128 to 383 of the dense layer, laid as [50000, 2, 128], at (s, t, h): x[s] · w_rel[t] at column h, plus the
    zero the padded bias holds there. -/
theorem relCols_apply (s : Fin 50000) (t : Fin 2) (h : Fin 128) :
    shapeCast S50000x2x128 (extractStridedSlice S50000x256 ![0, 128] (lin x (wcombK wrel wroot) (bcombK bconv))
        slices_S50000x384_S50000x256_0_128) shapeCasts_S50000x256_S50000x2x128 (ix3 s t h)
      = (∑ k : Fin 128, x (ix2 s k) * wrel (ix3 t k h)) + 0 := by
  have ht := t.isLt
  have hh := h.isLt
  refine (shapeCast_apply _ shapeCasts_S50000x256_S50000x2x128 (ix3 s t h)
    (ix2 s (⟨128 * t.val + h.val, by omega⟩ : Fin 256)) ?_).trans ?_
  · rewrite [Shape.rowMajor_val_two, Shape.rowMajor_val_three]
    show s.val * 256 + (128 * t.val + h.val) = (s.val * 2 + t.val) * 128 + h.val
    omega
  refine (extractStridedSlice_apply ![0, 128] _ slices_S50000x384_S50000x256_0_128 _
    (ix2 s (⟨128 + 128 * t.val + h.val, by omega⟩ : Fin 384)) (fun a => match a with
      | ⟨0, _⟩ => by show s.val = 0 + s.val; omega
      | ⟨1, _⟩ => by show 128 + 128 * t.val + h.val = 128 + (128 * t.val + h.val); omega)).trans ?_
  rw [lin_ix2]
  unfold linAt
  rw [bcombK_pad bconv _ (by show 128 ≤ 128 + 128 * t.val + h.val; omega)]
  congr 1
  exact Finset.sum_congr rfl fun k _ => by rw [wcombK_rel wrel wroot t k h _ rfl]

end Dense

/-! ## The rows the two gathers read, the one-hot table, the reciprocal counts, the scale -/

section Edges
variable (ei : IVec S2x600000 32) (et : IVec S600000 32)

/-- The node row the message gather reads at edge e: the row of e's source word. -/
theorem srcRow_eq (e : Fin 600000) (hp : min (pairK (wrapK 50000#32 (srcK ei)) (wrapK 2#32 et) (ix2 e (0 : Fin 2))).toInt.toNat (50000 - 1) < 50000) :
    (⟨min (pairK (wrapK 50000#32 (srcK ei)) (wrapK 2#32 et) (ix2 e (0 : Fin 2))).toInt.toNat (50000 - 1), hp⟩ : Fin 50000)
      = rowOf (ei (ix2 (0 : Fin 2) e)) := by
  apply Fin.ext
  show min (pairK (wrapK 50000#32 (srcK ei)) (wrapK 2#32 et) (ix2 e (0 : Fin 2))).toInt.toNat (50000 - 1)
    = min (wrapW 50000#32 (ei (ix2 (0 : Fin 2) e))).toInt.toNat (50000 - 1)
  rw [pairK_apply0, wrapK_apply, srcK_apply]

/-- The relation row either gather reads at edge e: e's relation. -/
theorem relRow_eq (a : IVec S600000 32) (e : Fin 600000) (he : et (ix1 e) = 0#32 ∨ et (ix1 e) = 1#32)
    (hp : min (pairK a (wrapK 2#32 et) (ix2 e (1 : Fin 2))).toInt.toNat (2 - 1) < 2) :
    (⟨min (pairK a (wrapK 2#32 et) (ix2 e (1 : Fin 2))).toInt.toNat (2 - 1), hp⟩ : Fin 2) = relOf et e := by
  apply Fin.ext
  show min (pairK a (wrapK 2#32 et) (ix2 e (1 : Fin 2))).toInt.toNat (2 - 1) = ((if et (ix1 e) = 0#32 then 0 else 1 : Fin 2)).val
  rw [pairK_apply1, wrapK_apply]
  exact relRow_of_word _ he

/-- The node row the scale gather reads at an edge into n: n itself, since the destination word reads n signed. -/
theorem dstRow_eq (e : Fin 600000) (n : Fin 50000) (hn : (ei (ix2 (1 : Fin 2) e)).toInt = (n.val : ℤ))
    (hp : min (pairK (wrapK 50000#32 (dstK ei)) (wrapK 2#32 et) (ix2 e (0 : Fin 2))).toInt.toNat (50000 - 1) < 50000) :
    (⟨min (pairK (wrapK 50000#32 (dstK ei)) (wrapK 2#32 et) (ix2 e (0 : Fin 2))).toInt.toNat (50000 - 1), hp⟩ : Fin 50000) = n := by
  rw [← rowOf_of_toInt _ n hn]
  apply Fin.ext
  show min (pairK (wrapK 50000#32 (dstK ei)) (wrapK 2#32 et) (ix2 e (0 : Fin 2))).toInt.toNat (50000 - 1)
    = min (wrapW 50000#32 (ei (ix2 (1 : Fin 2) e))).toInt.toNat (50000 - 1)
  rw [pairK_apply0, wrapK_apply, dstK_apply]

/-- The updates whose destination column word, read signed, is n are the edges into n. -/
theorem filter_dst_eq (n : Fin 50000) :
    Finset.univ.filter (fun e : Fin 600000 => (colK (dstK ei) (ix2 e (0 : Fin 1))).toInt = (n.val : ℤ)) = inEdges ei n := by
  unfold inEdges
  exact Finset.filter_congr fun e _ => by rw [colK_apply, dstK_apply]

/-- Entry (e, t) of the one-hot table: 1 when edge e's relation is t, else 0. -/
theorem onehotK_apply (e : Fin 600000) (t : Fin 2) (he : et (ix1 e) = 0#32 ∨ et (ix1 e) = 1#32) :
    onehotK (F := Ideal) et (ix2 e t) = if relOf et e = t then (1 : EReal) else 0 := by
  have h1 : broadcastInDim S600000x2 ![0, 1] bcast_S600000x1_S600000x2_0_1 (colK et) (ix2 e t) = et (ix1 e) :=
    (broadcastInDim_apply _ bcast_S600000x1_S600000x2_0_1 (colK et) (ix2 e t) (ix2 e (0 : Fin 1)) (fun a => match a with
      | ⟨0, _⟩ => by show e.val = if (600000 : Nat) = 1 then 0 else e.val; rw [if_neg (by decide)]
      | ⟨1, _⟩ => by show (0 : Nat) = if (1 : Nat) = 1 then 0 else t.val; rw [if_pos rfl])).trans (colK_apply et e)
  have h2 : broadcastInDim S600000x2 ![0, 1] bcast_S1x2_S600000x2_0_1 (iotaInDim S1x2 32 1) (ix2 e t) = BitVec.ofNat 32 t.val :=
    broadcastInDim_apply _ bcast_S1x2_S600000x2_0_1 (iotaInDim S1x2 32 1) (ix2 e t) (ix2 (0 : Fin 1) t) (fun a => match a with
      | ⟨0, _⟩ => by show (0 : Nat) = if (1 : Nat) = 1 then 0 else e.val; rw [if_pos rfl]
      | ⟨1, _⟩ => by show t.val = if (2 : Nat) = 1 then 0 else t.val; rw [if_neg (by decide)])
  show (((IntOp.cmpi .eq (broadcastInDim S600000x2 ![0, 1] bcast_S600000x1_S600000x2_0_1 (colK et) (ix2 e t))
      (broadcastInDim S600000x2 ![0, 1] bcast_S1x2_S600000x2_0_1 (iotaInDim S1x2 32 1) (ix2 e t))).toNat : ℝ) : EReal) = _
  rw [h1, h2]
  exact onehot_word _ he t

/-- Entry (n, t) of the reciprocal counts: one over the larger of 1 and the number of edges of relation t into n, the
    count accumulated from zero. -/
theorem invCntK_apply (het : ∀ e : Fin 600000, et (ix1 e) = 0#32 ∨ et (ix1 e) = 1#32) (n : Fin 50000) (t : Fin 2) :
    invCntK (F := Ideal) (dstK ei) et (ix2 n t)
      = Ideal.div 1 (max (0 + ∑ e' ∈ inEdges ei n, (if relOf et e' = t then (1 : EReal) else 0)) 1) := by
  unfold invCntK
  rw [hostDivf_apply, maximumf_apply, broadcastInDim_scalar_apply, constant_apply, Ideal.ofBits_one_f32,
    Cert.LibIndexing.scatterAdd_rows_apply scatter_S50000x2_S600000x1_S600000x2_1_0_0_1 rfl rfl rfl rfl,
    broadcastInDim_scalar_apply, constant_apply, Ideal.ofBits_zero_f32, filter_dst_eq]
  exact congrArg (fun s : EReal => Ideal.div 1 (max (0 + s) 1))
    (Finset.sum_congr rfl fun e' _ => onehotK_apply et e' t (het e'))

/-- The scale of an edge e into n: the reciprocal count at (n, e's relation). -/
theorem scaleK_apply (e : Fin 600000) (n : Fin 50000) (hn : (ei (ix2 (1 : Fin 2) e)).toInt = (n.val : ℤ))
    (he : et (ix1 e) = 0#32 ∨ et (ix1 e) = 1#32) :
    scaleK (F := Ideal) (dstK ei) et (ix1 e) = invCntK (F := Ideal) (dstK ei) et (ix2 n (relOf et e)) := by
  unfold scaleK
  rw [Cert.LibIndexing.gather_pair_scalar_apply gather_S50000x2_S600000x2_S600000_n_01_n_n_01_1_11 rfl rfl rfl rfl rfl rfl _ _ e
    (by omega) (by omega), dstRow_eq ei et e n hn, relRow_eq et _ e he]

/-- A vector of scales laid along the rows of [600000, 128] reads the vector at the row. -/
theorem scaleCols_apply (sc : FVec Ideal S600000 .f32) (e : Fin 600000) (h : Fin 128) :
    broadcastInDim S600000x128 ![0, 1] bcast_S600000x1_S600000x128_0_1
      (broadcastInDim S600000x1 ![0] bcast_S600000_S600000x1_0 sc) (ix2 e h) = sc (ix1 e) := by
  refine (broadcastInDim_apply _ bcast_S600000x1_S600000x128_0_1 _ (ix2 e h) (ix2 e (0 : Fin 1)) (fun a => match a with
    | ⟨0, _⟩ => by show e.val = if (600000 : Nat) = 1 then 0 else e.val; rw [if_neg (by decide)]
    | ⟨1, _⟩ => by show (0 : Nat) = if (1 : Nat) = 1 then 0 else h.val; rw [if_pos rfl])).trans ?_
  exact broadcastInDim_apply _ bcast_S600000_S600000x1_0 sc (ix2 e (0 : Fin 1)) (ix1 e) (fun a => match a with
    | ⟨0, _⟩ => by show e.val = if (600000 : Nat) = 1 then 0 else e.val; rw [if_neg (by decide)])

end Edges

/-- The row of the relation columns the message gather reads at edge e, column h: e's message under its own relation,
    plus the zero of the padded bias. -/
theorem msgK_apply (x : FVec Ideal S50000x128 .f32) (wrel : FVec Ideal S2x128x128 .f32) (wroot : FVec Ideal S128x128 .f32)
    (bconv : FVec Ideal S128 .f32) (ei : IVec S2x600000 32) (et : IVec S600000 32) (e : Fin 600000) (h : Fin 128)
    (he : et (ix1 e) = 0#32 ∨ et (ix1 e) = 1#32) :
    Host.gather gather_S50000x2x128_S600000x2_S600000x128_1_01_n_n_01_1_11128
        (shapeCast S50000x2x128 (extractStridedSlice S50000x256 ![0, 128] (lin x (wcombK wrel wroot) (bcombK bconv))
          slices_S50000x384_S50000x256_0_128) shapeCasts_S50000x256_S50000x2x128)
        (pairK (wrapK 50000#32 (srcK ei)) (wrapK 2#32 et)) (ix2 e h)
      = msgAt x wrel ei h (relOf et e) e + 0 := by
  rw [Cert.LibIndexing.gather_pair_rows_apply gather_S50000x2x128_S600000x2_S600000x128_1_01_n_n_01_1_11128 rfl rfl rfl rfl rfl rfl _ _ e h
    (by omega) (by omega), srcRow_eq ei et e, relRow_eq et _ e he, relCols_apply]
  rfl

end KernelAt

open KernelAt in
/-- THE KERNEL PROGRAM'S LAYER AT (n, h). What follows the dense layer of width 384 — its root columns plus, summed into
    each destination node, the gathered (source, relation) rows of its relation columns times the edge's scale — read at
    row n, column h, is the root term plus the sum over the edges into n of the edge's message under its own relation
    times the reciprocal of that relation's count at n. -/
theorem kernel_conv_at (x : FVec Ideal ⟨2, ![50000, 128]⟩ .f32) (ei : IVec ⟨2, ![2, 600000]⟩ 32) (et : IVec ⟨1, ![600000]⟩ 32)
    (wrel : FVec Ideal ⟨3, ![2, 128, 128]⟩ .f32) (wroot : FVec Ideal ⟨2, ![128, 128]⟩ .f32) (bconv : FVec Ideal ⟨1, ![128]⟩ .f32)
    (het : ∀ e : Fin 600000, et (ix1 e) = 0#32 ∨ et (ix1 e) = 1#32) (n : Fin 50000) (h : Fin 128) :
    convTailK (F := Ideal) (lin x (wcombK wrel wroot) (bcombK bconv)) (srcK ei) (dstK ei) et (scaleK (dstK ei) et) (ix2 n h)
      = convKAt x ei et wrel wroot bconv n h := by
  unfold convTailK convKAt
  rw [addf_apply, rootCols_apply,
    Cert.LibIndexing.scatterAdd_rows_apply scatter_S50000x128_S600000x1_S600000x128_1_0_0_1 rfl rfl rfl rfl,
    broadcastInDim_scalar_apply, constant_apply, Ideal.ofBits_zero_f32, filter_dst_eq]
  refine congrArg (rootAt x wroot bconv n h + ·) (congrArg ((0 : EReal) + ·) (Finset.sum_congr rfl fun e he => ?_))
  have hn : (ei (ix2 (1 : Fin 2) e)).toInt = (n.val : ℤ) := (Finset.mem_filter.1 he).2
  rw [mulf_apply, msgK_apply x wrel wroot bconv ei et e h (het e), scaleCols_apply,
    scaleK_apply ei et e n hn (het e), invCntK_apply ei et het n (relOf et e)]

end Cert.RGCN

end
-- ==== Proof.LibIdealWords.lean ====
/-
  Binary32 words as extended reals: the word of 1.0.

  0x3F800000 has sign 0, biased exponent 127 and a zero fraction, so it denotes (2^23 + 0) · 2^(127 − 127 − 23) = 1.
-/
import Idealize.ShloMosaic.PureOps.Ideal
import Idealize.ShloMosaic.PureOps.Ideal.Laws

noncomputable section

open Idealize.ShloMosaic

namespace Cert.LibIndexing

/-- The binary32 word 0x3F800000 denotes the extended real 1. -/
theorem ofBits_one_f32 : Ideal.ofBits .f32 0x3F800000#32 = 1 := by
  simp [Ideal.ofBits, Ideal.ieee]
  rw [← EReal.coe_mul, ← EReal.coe_one]
  congr 1
  norm_num

end Cert.LibIndexing
-- ==== Proof.ConvReferenceAt.lean ====
/-
  The reference's graph layer read at one entry (n, h).

  Its host operations, read one element at a time: a slice and a reshape of the edge list give each edge's source and
  destination word; a word is wrapped once before it indexes a take, which reads it signed and clamps it; a product of
  matrices at (e, h) is the sum over the contracted coordinate; a broadcast reads its operand at the coordinates it
  keeps; the accumulating scatter into row n collects the edges whose destination word, read signed, is n. Relation t's
  masked messages summed into node n, over the larger of 1 and the number of relation-t edges into n, is one relation's
  term; the layer is the root term plus relation 0's plus relation 1's.
-/
import proofs.«429306_j3298534884295_1_alg».proof.Proof.RRaw
import proofs.«429306_j3298534884295_1_alg».proof.Proof.ConvSpec
import proofs.«429306_j3298534884295_1_alg».proof.Proof.LibGatherAt
import proofs.«429306_j3298534884295_1_alg».proof.Proof.LibScatterAddAt
import proofs.«429306_j3298534884295_1_alg».proof.Proof.LibIdealWords
import Idealize.ShloMosaic.Lib.Pipeline.Value
import Idealize.ShloMosaic.Lib.StackMember
import Idealize.ShloMosaic.Lib.StableHlo.Predicate
import Idealize.ShloMosaic.PureOps.Ideal.Laws

noncomputable section

open scoped BigOperators

namespace Cert.ReferenceIdeal.ConvAt

open Cert.ReferenceIdeal Cert.ReferenceIdeal.Raw Cert.RGCN Idealize.ShloMosaic Idealize.ShloMosaic.ValueIdx
open Cert.ReferenceIdeal.Facts₀ Cert.ReferenceIdeal.Facts

variable [Cert.ReferenceIdeal.Facts]
/-! ## Splats and broadcasts at an index -/

/-- A scalar word laid over any shape reads that word everywhere. -/
theorem splatI_apply {t : Shape} (hb : S_.BroadcastsInDim t ![]) (c : BitVec 32) (j : t.Idx) :
    broadcastInDim t ![] hb (constantI S_ 32 c) j = c :=
  broadcastInDim_apply _ hb (constantI S_ 32 c) j (fun a => a.elim0) (fun a => a.elim0)

/-- A scalar binary32 constant laid over any shape reads, everywhere, the extended real its word denotes. -/
theorem splatF_apply {t : Shape} (hb : S_.BroadcastsInDim t ![]) (c : BitVec 32) (j : t.Idx) :
    broadcastInDim t ![] hb (constant (F := Ideal) S_ .f32 c) j = Ideal.ofBits .f32 c :=
  broadcastInDim_apply _ hb (constant (F := Ideal) S_ .f32 c) j (fun a => a.elim0) (fun a => a.elim0)

/-- A vector over the edges kept as a column reads, in row e, the vector at e. -/
theorem colE_apply {α : Type} (v : S600000.Idx → α) (e : Fin 600000) :
    broadcastInDim S600000x1 ![0] bcast_S600000_S600000x1_0 v (ix2 e (0 : Fin 1)) = v (ix1 e) :=
  broadcastInDim_apply _ bcast_S600000_S600000x1_0 v (ix2 e 0) (ix1 e) (fun a => match a with
    | ⟨0, _⟩ => by show e.val = if (600000 : Nat) = 1 then 0 else e.val; rw [if_neg (by decide)])

/-- A column over the edges laid along 128 columns reads, at (e, h), the column at e. -/
theorem rowsE_apply {α : Type} (c : S600000x1.Idx → α) (e : Fin 600000) (h : Fin 128) :
    broadcastInDim S600000x128 ![0, 1] bcast_S600000x1_S600000x128_0_1 c (ix2 e h) = c (ix2 e (0 : Fin 1)) :=
  broadcastInDim_apply _ bcast_S600000x1_S600000x128_0_1 c (ix2 e h) (ix2 e 0) (fun a => match a with
    | ⟨0, _⟩ => by show e.val = if (600000 : Nat) = 1 then 0 else e.val; rw [if_neg (by decide)]
    | ⟨1, _⟩ => by show (0 : Nat) = if (1 : Nat) = 1 then 0 else h.val; rw [if_pos rfl])

/-- A vector over the nodes kept as a column and laid along 128 columns reads, at (n, h), the vector at n. -/
theorem rowsN_apply {α : Type} (v : S50000.Idx → α) (n : Fin 50000) (h : Fin 128) :
    broadcastInDim S50000x128 ![0, 1] bcast_S50000x1_S50000x128_0_1 (broadcastInDim S50000x1 ![0] bcast_S50000_S50000x1_0 v) (ix2 n h)
      = v (ix1 n) := by
  refine (broadcastInDim_apply _ bcast_S50000x1_S50000x128_0_1 _ (ix2 n h) (ix2 n (0 : Fin 1)) (fun a => match a with
    | ⟨0, _⟩ => by show n.val = if (50000 : Nat) = 1 then 0 else n.val; rw [if_neg (by decide)]
    | ⟨1, _⟩ => by show (0 : Nat) = if (1 : Nat) = 1 then 0 else h.val; rw [if_pos rfl])).trans ?_
  exact broadcastInDim_apply _ bcast_S50000_S50000x1_0 v (ix2 n 0) (ix1 n) (fun a => match a with
    | ⟨0, _⟩ => by show n.val = if (50000 : Nat) = 1 then 0 else n.val; rw [if_neg (by decide)])

/-- The bias kept as one row and laid along the 50000 rows reads, at (n, h), the bias at h. -/
theorem bias_apply {α : Type} (b : S128.Idx → α) (n : Fin 50000) (h : Fin 128) :
    broadcastInDim S50000x128 ![0, 1] bcast_S1x128_S50000x128_0_1 (broadcastInDim S1x128 ![1] bcast_S128_S1x128_1 b) (ix2 n h)
      = b (ix1 h) := by
  refine (broadcastInDim_apply _ bcast_S1x128_S50000x128_0_1 _ (ix2 n h) (ix2 (0 : Fin 1) h) (fun a => match a with
    | ⟨0, _⟩ => by show (0 : Nat) = if (1 : Nat) = 1 then 0 else n.val; rw [if_pos rfl]
    | ⟨1, _⟩ => by show h.val = if (128 : Nat) = 1 then 0 else h.val; rw [if_neg (by decide)])).trans ?_
  exact broadcastInDim_apply _ bcast_S128_S1x128_1 b (ix2 0 h) (ix1 h) (fun a => match a with
    | ⟨0, _⟩ => by show h.val = if (128 : Nat) = 1 then 0 else h.val; rw [if_neg (by decide)])

/-! ## The edge list's rows, the wrap, the masks, the relation weights -/

/-- Edge e's source word is entry (0, e) of the edge list. -/
theorem srcR_apply (ei : IVec S2x600000 32) (e : Fin 600000) : srcR ei (ix1 e) = ei (ix2 (0 : Fin 2) e) := by
  unfold srcR
  refine (shapeCast_apply _ shapeCasts_S1x600000_S600000 (ix1 e) (ix2 (0 : Fin 1) e) ?_).trans ?_
  · rw [Shape.rowMajor_val_two, Shape.rowMajor_val_one]
    show 0 * 600000 + e.val = e.val
    omega
  · exact extractStridedSlice_apply ![0, 0] ei slices_S2x600000_S1x600000_0_0 (ix2 (0 : Fin 1) e) (ix2 (0 : Fin 2) e)
      (fun a => match a with
        | ⟨0, _⟩ => by show (0 : Nat) = 0 + 0; rfl
        | ⟨1, _⟩ => by show e.val = 0 + e.val; omega)

/-- Edge e's destination word is entry (1, e) of the edge list. -/
theorem dstR_apply (ei : IVec S2x600000 32) (e : Fin 600000) : dstR ei (ix1 e) = ei (ix2 (1 : Fin 2) e) := by
  unfold dstR
  refine (shapeCast_apply _ shapeCasts_S1x600000_S600000 (ix1 e) (ix2 (0 : Fin 1) e) ?_).trans ?_
  · rw [Shape.rowMajor_val_two, Shape.rowMajor_val_one]
    show 0 * 600000 + e.val = e.val
    omega
  · exact extractStridedSlice_apply ![1, 0] ei slices_S2x600000_S1x600000_1_0 (ix2 (0 : Fin 1) e) (ix2 (1 : Fin 2) e)
      (fun a => match a with
        | ⟨0, _⟩ => by show (1 : Nat) = 1 + 0; rfl
        | ⟨1, _⟩ => by show e.val = 0 + e.val; omega)

/-- The wrap, word by word. -/
theorem wrapR_apply (n : BitVec 32) (v : IVec S600000 32) (i : S600000.Idx) : wrapR n v i = wrapW n (v i) := by
  show Scalar.select (IntOp.cmpi .slt (v i) (broadcastInDim S600000 ![] bcast_S_S600000 (constantI S_ 32 0#32) i))
      (IntOp.addi (v i) (broadcastInDim S600000 ![] bcast_S_S600000 (constantI S_ 32 n) i)) (v i) = _
  rw [splatI_apply, splatI_apply]
  rfl

/-- A vector of words kept as a column reads, in row e, the word at e. -/
theorem colR_apply (v : IVec S600000 32) (e : Fin 600000) : colR v (ix2 e (0 : Fin 1)) = v (ix1 e) := colE_apply v e

/-- Bit e of relation word t's mask compares edge e's relation word with t. -/
theorem maskR_apply (t : BitVec 32) (et : IVec S600000 32) (i : S600000.Idx) : maskR t et i = IntOp.cmpi .eq (et i) t := by
  show IntOp.cmpi .eq (et i) (broadcastInDim S600000 ![] bcast_S_S600000 (constantI S_ 32 t) i) = _
  rw [splatI_apply]

/-- Relation 0's weight matrix at (k, h) is entry (0, k, h) of the stack. -/
theorem wrel0R_apply (wrel : FVec Ideal S2x128x128 .f32) (k h : Fin 128) :
    wrel0R (F := Ideal) wrel (ix2 k h) = wrel (ix3 (0 : Fin 2) k h) := by
  unfold wrel0R
  refine (shapeCast_apply _ shapeCasts_S1x128x128_S128x128 (ix2 k h) (ix3 (0 : Fin 1) k h) ?_).trans ?_
  · rw [Shape.rowMajor_val_three, Shape.rowMajor_val_two]
    show (0 * 128 + k.val) * 128 + h.val = k.val * 128 + h.val
    omega
  · exact extractStridedSlice_apply ![0, 0, 0] wrel slices_S2x128x128_S1x128x128_0_0_0 (ix3 (0 : Fin 1) k h) (ix3 (0 : Fin 2) k h)
      (fun a => match a with
        | ⟨0, _⟩ => by show (0 : Nat) = 0 + 0; rfl
        | ⟨1, _⟩ => by show k.val = 0 + k.val; omega
        | ⟨2, _⟩ => by show h.val = 0 + h.val; omega)

/-- Relation 1's weight matrix at (k, h) is entry (1, k, h) of the stack. -/
theorem wrel1R_apply (wrel : FVec Ideal S2x128x128 .f32) (k h : Fin 128) :
    wrel1R (F := Ideal) wrel (ix2 k h) = wrel (ix3 (1 : Fin 2) k h) := by
  unfold wrel1R
  refine (shapeCast_apply _ shapeCasts_S1x128x128_S128x128 (ix2 k h) (ix3 (0 : Fin 1) k h) ?_).trans ?_
  · rw [Shape.rowMajor_val_three, Shape.rowMajor_val_two]
    show (0 * 128 + k.val) * 128 + h.val = k.val * 128 + h.val
    omega
  · exact extractStridedSlice_apply ![1, 0, 0] wrel slices_S2x128x128_S1x128x128_1_0_0 (ix3 (0 : Fin 1) k h) (ix3 (1 : Fin 2) k h)
      (fun a => match a with
        | ⟨0, _⟩ => by show (1 : Nat) = 1 + 0; rfl
        | ⟨1, _⟩ => by show k.val = 0 + k.val; omega
        | ⟨2, _⟩ => by show h.val = 0 + h.val; omega)

/-! ## The products at an index -/

/-- The node-side product x · w at (n, h): the sum over the contracted coordinate. -/
theorem dotN_apply (a : FVec Ideal S50000x128 .f32) (b : FVec Ideal S128x128 .f32) (n : Fin 50000) (h : Fin 128) :
    Host.dotGeneral dot_S50000x128_S128x128_S50000x128_1_0_0_1_n_n none a b (ix2 n h) = ∑ k : Fin 128, a (ix2 n k) * b (ix2 k h) := by
  have hd : dot_S50000x128_S128x128_S50000x128_1_0_0_1_n_n = DotDims.plain 50000 128 128 := rfl
  rw [hd]
  exact StackMember.dotGeneral_plain_apply none a b n h

/-- The edge-side product at (e, h): the sum over the contracted coordinate. -/
theorem dotE_apply (a : FVec Ideal S600000x128 .f32) (b : FVec Ideal S128x128 .f32) (e : Fin 600000) (h : Fin 128) :
    Host.dotGeneral dot_S600000x128_S128x128_S600000x128_1_0_0_1_n_n none a b (ix2 e h) = ∑ k : Fin 128, a (ix2 e k) * b (ix2 k h) := by
  have hd : dot_S600000x128_S128x128_S600000x128_1_0_0_1_n_n = DotDims.plain 600000 128 128 := rfl
  rw [hd]
  exact StackMember.dotGeneral_plain_apply none a b e h

/-- The row the take reads for edge e: the source word wrapped once, read signed, clamped. -/
theorem gatherE_apply (x : FVec Ideal S50000x128 .f32) (ei : IVec S2x600000 32) (e : Fin 600000) (k : Fin 128) :
    Host.gather gather_S50000x128_S600000x1_S600000x128_1_0_n_n_0_1_1128 x (colR (wrapR 50000#32 (srcR ei))) (ix2 e k)
      = x (ix2 (rowOf (ei (ix2 (0 : Fin 2) e))) k) := by
  rw [Cert.LibIndexing.gather_rows_apply (N := 50000) (H := 128) (E := 600000) gather_S50000x128_S600000x1_S600000x128_1_0_n_n_0_1_1128
    rfl rfl rfl rfl rfl rfl x _ e k (by decide)]
  congr 1
  have hw : colR (wrapR 50000#32 (srcR ei)) (ix2 e (0 : Fin 1)) = wrapW 50000#32 (ei (ix2 (0 : Fin 2) e)) := by
    rw [colR_apply, wrapR_apply, srcR_apply]
  funext a
  match a with
  | ⟨0, _⟩ => exact Fin.ext (by show min _ _ = min _ _; rw [hw])
  | ⟨1, _⟩ => rfl

/-! ## The root term -/

/-- The root term at (n, h): x[n] · w_root, plus the bias at h. -/
theorem root_apply (x : FVec Ideal S50000x128 .f32) (wroot : FVec Ideal S128x128 .f32) (bconv : FVec Ideal S128 .f32)
    (n : Fin 50000) (h : Fin 128) :
    addf (Host.dotGeneral dot_S50000x128_S128x128_S50000x128_1_0_0_1_n_n none x wroot)
      (broadcastInDim S50000x128 ![0, 1] bcast_S1x128_S50000x128_0_1 (broadcastInDim S1x128 ![1] bcast_S128_S1x128_1 bconv)) (ix2 n h)
      = rootAt x wroot bconv n h := by
  rw [addf_apply, dotN_apply, bias_apply]
  rfl

/-! ## One relation's term -/

/-- The host's quotient at an index is the extended reals' division of the elements. -/
theorem hostDivf_apply {s : Shape} (a b : FVec Ideal s .f32) (i : s.Idx) : Host.divf a b i = Ideal.div (a i) (b i) := rfl

section Relation

variable (x : FVec Ideal S50000x128 .f32) (ei : IVec S2x600000 32) (et : IVec S600000 32) (wrel : FVec Ideal S2x128x128 .f32)
  (tw : BitVec 32) (wT : FVec Ideal S128x128 .f32) (t : Fin 2)
  (hbit : ∀ e : Fin 600000, IntOp.cmpi .eq (et (ix1 e)) tw = 1#1 ↔ relOf et e = t)
  (hwT : ∀ k h : Fin 128, wT (ix2 k h) = wrel (ix3 t k h))

/-- The rows the scatter adds into node n are the edges into n. -/
theorem filter_dst (n : Fin 50000) :
    (Finset.univ.filter fun e : Fin 600000 => (colR (dstR ei) (ix2 e (0 : Fin 1))).toInt = (n.val : ℤ)) = inEdges ei n := by
  unfold inEdges
  refine Finset.filter_congr fun e _ => ?_
  rw [colR_apply, dstR_apply]

include hbit hwT in
/-- The numerator: zero plus, over the edges into n, the message of each edge of relation t (the others add the zero
    word's 0). -/
theorem aggNum_apply (n : Fin 50000) (h : Fin 128) :
    Host.scatterAdd scatter_S50000x128_S600000x1_S600000x128_1_0_0_1
      (broadcastInDim S50000x128 ![] bcast_S_S50000x128 (constant (F := Ideal) S_ .f32 0x00000000#32)) (colR (dstR ei))
      (select (broadcastInDim S600000x128 ![0, 1] bcast_S600000x1_S600000x128_0_1 (broadcastInDim S600000x1 ![0] bcast_S600000_S600000x1_0 (maskR tw et)))
        (Host.dotGeneral dot_S600000x128_S128x128_S600000x128_1_0_0_1_n_n none
          (Host.gather gather_S50000x128_S600000x1_S600000x128_1_0_n_n_0_1_1128 x (colR (wrapR 50000#32 (srcR ei)))) wT)
        (broadcastInDim S600000x128 ![] bcast_S_S600000x128 (constant (F := Ideal) S_ .f32 0x00000000#32))) (ix2 n h)
      = 0 + ∑ e ∈ inEdges ei n, (if relOf et e = t then msgAt x wrel ei h t e else 0) := by
  rw [Cert.LibIndexing.scatterAdd_rows_apply (N := 50000) (H := 128) (E := 600000) scatter_S50000x128_S600000x1_S600000x128_1_0_0_1
    rfl rfl rfl rfl _ _ _ n h, splatF_apply, Ideal.ofBits_zero_f32, filter_dst]
  refine congrArg (fun z : EReal => 0 + z) (Finset.sum_congr rfl fun e _ => ?_)
  rw [select_apply, rowsE_apply, colE_apply, maskR_apply, splatF_apply, Ideal.ofBits_zero_f32]
  by_cases ht : relOf et e = t
  · rw [if_pos ht, (hbit e).2 ht, select_one, dotE_apply]
    unfold msgAt
    refine Finset.sum_congr rfl fun k _ => ?_
    rw [gatherE_apply, hwT]
  · have hb : IntOp.cmpi .eq (et (ix1 e)) tw = 0#1 := eq_zero_of_ne_one (fun hc => ht ((hbit e).1 hc))
    rw [if_neg ht, hb, select_zero]

include hbit in
/-- The denominator: the larger of 1 and zero plus one per edge of relation t into n. -/
theorem aggDen_apply (n : Fin 50000) (h : Fin 128) :
    broadcastInDim S50000x128 ![0, 1] bcast_S50000x1_S50000x128_0_1 (broadcastInDim S50000x1 ![0] bcast_S50000_S50000x1_0
      (maximumf
        (Host.scatterAdd scatter_S50000_S600000x1_S600000_n_0_0_1
          (broadcastInDim S50000 ![] bcast_S_S50000 (constant (F := Ideal) S_ .f32 0x00000000#32)) (colR (dstR ei)) (uitofp .f32 (maskR tw et)))
        (broadcastInDim S50000 ![] bcast_S_S50000 (constant (F := Ideal) S_ .f32 0x3F800000#32)))) (ix2 n h)
      = max (0 + ∑ e' ∈ inEdges ei n, (if relOf et e' = t then (1 : EReal) else 0)) 1 := by
  rw [rowsN_apply, maximumf_apply,
    Cert.LibIndexing.scatterAdd_vec_apply (N := 50000) (E := 600000) scatter_S50000_S600000x1_S600000_n_0_0_1 rfl rfl rfl rfl _ _ _ n,
    splatF_apply, splatF_apply, Ideal.ofBits_zero_f32, Cert.LibIndexing.ofBits_one_f32, filter_dst]
  refine congrArg (fun z : EReal => max (0 + z) 1) (Finset.sum_congr rfl fun e _ => ?_)
  show (((maskR tw et (ix1 e)).toNat : ℝ) : EReal) = _
  rw [maskR_apply]
  by_cases ht : relOf et e = t
  · rw [if_pos ht, (hbit e).2 ht]
    show (((1 : Nat) : ℝ) : EReal) = 1
    rw [Nat.cast_one, EReal.coe_one]
  · have hb : IntOp.cmpi .eq (et (ix1 e)) tw = 0#1 := eq_zero_of_ne_one (fun hc => ht ((hbit e).1 hc))
    rw [if_neg ht, hb]
    show (((0 : Nat) : ℝ) : EReal) = 0
    rw [Nat.cast_zero, EReal.coe_zero]

include hbit hwT in
/-- Relation t's term at (n, h): its masked messages into n over the larger of 1 and its edge count at n. -/
theorem aggR_apply (n : Fin 50000) (h : Fin 128) :
    aggR (F := Ideal) x (srcR ei) (dstR ei) (maskR tw et) wT (ix2 n h)
      = Ideal.div (0 + ∑ e ∈ inEdges ei n, (if relOf et e = t then msgAt x wrel ei h t e else 0))
          (max (0 + ∑ e' ∈ inEdges ei n, (if relOf et e' = t then (1 : EReal) else 0)) 1) := by
  unfold aggR
  rw [hostDivf_apply, aggNum_apply x ei et wrel tw wT t hbit hwT n h, aggDen_apply ei et tw t hbit n h]

end Relation

/-! ## The relation words -/

/-- The mask of word 0 is set exactly on the edges of relation 0. -/
theorem bit0_iff (et : IVec S600000 32) (e : Fin 600000) : IntOp.cmpi .eq (et (ix1 e)) 0#32 = 1#1 ↔ relOf et e = 0 := by
  rw [StableHlo.Predicate.cmpi_eq_iff]
  unfold relOf
  constructor
  · intro h0; rw [if_pos h0]
  · intro hr
    by_contra hne
    rw [if_neg hne] at hr
    exact absurd hr (by decide)

/-- When every relation word is 0 or 1, the mask of word 1 is set exactly on the edges of relation 1. -/
theorem bit1_iff (et : IVec S600000 32) (het : ∀ e : Fin 600000, et (ix1 e) = 0#32 ∨ et (ix1 e) = 1#32) (e : Fin 600000) :
    IntOp.cmpi .eq (et (ix1 e)) 1#32 = 1#1 ↔ relOf et e = 1 := by
  rw [StableHlo.Predicate.cmpi_eq_iff]
  unfold relOf
  constructor
  · intro h1
    rw [if_neg (by rw [h1]; decide)]
  · intro hr
    rcases het e with h0 | h1
    · rw [if_pos h0] at hr
      exact absurd hr (by decide)
    · exact h1

/-! ## The layer -/

/-- The reference's graph layer at (n, h), when every relation word is 0 or 1: the root term, plus relation 0's masked
    sum over its count, plus relation 1's. -/
theorem reference_conv_at (x : FVec Ideal ⟨2, ![50000, 128]⟩ .f32) (ei : IVec ⟨2, ![2, 600000]⟩ 32) (et : IVec ⟨1, ![600000]⟩ 32)
    (wrel : FVec Ideal ⟨3, ![2, 128, 128]⟩ .f32) (wroot : FVec Ideal ⟨2, ![128, 128]⟩ .f32) (bconv : FVec Ideal ⟨1, ![128]⟩ .f32)
    (het : ∀ e : Fin 600000, et (ix1 e) = 0#32 ∨ et (ix1 e) = 1#32) (n : Fin 50000) (h : Fin 128) :
    convR (F := Ideal) x ei et wrel wroot bconv (ix2 n h) = convRAt x ei et wrel wroot bconv n h := by
  unfold convR convRAt
  rw [addf_apply, addf_apply, root_apply,
    aggR_apply x ei et wrel 0#32 (wrel0R (F := Ideal) wrel) 0 (bit0_iff et) (wrel0R_apply wrel) n h,
    aggR_apply x ei et wrel 1#32 (wrel1R (F := Ideal) wrel) 1 (bit1_iff et het) (wrel1R_apply wrel) n h]

end Cert.ReferenceIdeal.ConvAt

end
-- ==== Proof.ConvAlgebra.lean ====
import Idealize.ShloMosaic.PureOps.Ideal
import Mathlib.Data.EReal.Operations
import Mathlib.Algebra.BigOperators.Group.Finset.Basic
import Mathlib.Data.Finset.Card
import Mathlib.Tactic.FinCases

/-!
# Per-relation means of edge messages, over the extended reals

A node of a graph receives messages along a finite set `S` of incoming edges; each edge `e`
carries a relation `ρ e ∈ {0, 1}`, and `a t e` is the message of `e` computed with the weights of
relation `t`.  For each relation the node takes the mean of the messages of that relation's
edges (with the convention that an empty relation divides by `1`).  The mean can be formed in two
ways: scale every edge's message by the reciprocal of its relation's count and sum once over all
edges, or sum each relation apart and divide each sum by its count.  The two agree on the extended
reals with no finiteness assumption on the messages, because each reciprocal `1 / max n 1` is a
nonnegative real, and multiplication by a nonnegative real distributes over extended-real addition.
-/

namespace Cert.RGCN

open scoped BigOperators
open Idealize.ShloMosaic

/-- Multiplication by a nonnegative real constant commutes with a finite sum of extended reals. -/
theorem sum_mul_coe_nonneg {E : Type*} [DecidableEq E] (S : Finset E) (f : E → EReal) {r : ℝ}
    (hr : 0 ≤ r) : (∑ e ∈ S, f e) * (r : EReal) = ∑ e ∈ S, f e * (r : EReal) := by
  induction S using Finset.induction_on with
  | empty => simp
  | insert x s hx ih =>
    rw [Finset.sum_insert hx, Finset.sum_insert hx,
      EReal.right_distrib_of_nonneg_of_ne_top (EReal.coe_nonneg.mpr hr) (EReal.coe_ne_top r), ih]

/-- The sum of the indicator of a relation over the edges is the number of edges of that
    relation. -/
theorem count_eq_coe_card {E : Type*} [DecidableEq E] (S : Finset E) (ρ : E → Fin 2) (t : Fin 2) :
    (0 + ∑ e' ∈ S, (if ρ e' = t then (1 : EReal) else 0))
      = (((S.filter (fun e' => ρ e' = t)).card : ℝ) : EReal) := by
  rw [zero_add]
  induction S using Finset.induction_on with
  | empty => simp
  | insert x s hx ih =>
    rw [Finset.sum_insert hx, ih, Finset.filter_insert]
    by_cases h : ρ x = t
    · have hx' : x ∉ s.filter (fun e' => ρ e' = t) := fun hmem => hx (Finset.mem_filter.mp hmem).1
      rw [if_pos h, if_pos h, Finset.card_insert_of_notMem hx', Nat.cast_add, Nat.cast_one,
        EReal.coe_add, EReal.coe_one, add_comm]
    · rw [if_neg h, if_neg h, zero_add]

/-- The count of a relation, floored at one, is the coercion of a real that is at least one. -/
theorem max_count_one {E : Type*} [DecidableEq E] (S : Finset E) (ρ : E → Fin 2) (t : Fin 2) :
    max (0 + ∑ e' ∈ S, (if ρ e' = t then (1 : EReal) else 0)) 1
      = ((max ((S.filter (fun e' => ρ e' = t)).card : ℝ) 1 : ℝ) : EReal) := by
  rw [count_eq_coe_card, EReal.coe_strictMono.monotone.map_max, EReal.coe_one]

/-- Division by a natural count floored at one is multiplication by the reciprocal, a real. -/
theorem div_max_card (n : ℕ) (x : EReal) :
    Ideal.div x ((max (n : ℝ) 1 : ℝ) : EReal) = x * ((1 / max (n : ℝ) 1 : ℝ) : EReal) :=
  Ideal.div_coe (lt_of_lt_of_le one_pos (le_max_right _ _)).ne' x

/-- With a nonnegative real weight per relation, the sum over all edges of each edge's message
    times its relation's weight is the sum over the two relations of that relation's total
    message times its weight. -/
theorem weighted_sum_split {E : Type*} [DecidableEq E] (S : Finset E) (ρ : E → Fin 2)
    (a : Fin 2 → E → EReal) (r : Fin 2 → ℝ) (hr : ∀ t, 0 ≤ r t) :
    ∑ e ∈ S, a (ρ e) e * (r (ρ e) : EReal)
      = (∑ e ∈ S, (if ρ e = 0 then a 0 e else 0)) * (r 0 : EReal)
        + (∑ e ∈ S, (if ρ e = 1 then a 1 e else 0)) * (r 1 : EReal) := by
  rw [sum_mul_coe_nonneg _ _ (hr 0), sum_mul_coe_nonneg _ _ (hr 1), ← Finset.sum_add_distrib]
  refine Finset.sum_congr rfl fun e _ => ?_
  generalize ρ e = t
  fin_cases t <;> simp

/-- Per relation, the node takes the mean of that relation's messages.  The sum over all incoming
    edges of each message times the reciprocal of its relation's count equals the sum over the two
    relations of each relation's mean (its total message divided by its count); the node's own
    term `root` is carried along unchanged. -/
theorem conv_node_identity {E : Type*} [DecidableEq E] (S : Finset E) (ρ : E → Fin 2) (a : Fin 2 → E → EReal) (root : EReal) :
    root + (0 + ∑ e ∈ S, (a (ρ e) e + 0) * Ideal.div 1 (max (0 + ∑ e' ∈ S, (if ρ e' = ρ e then (1 : EReal) else 0)) 1))
    = (root + Ideal.div (0 + ∑ e ∈ S, (if ρ e = 0 then a 0 e else 0)) (max (0 + ∑ e' ∈ S, (if ρ e' = 0 then (1 : EReal) else 0)) 1))
      + Ideal.div (0 + ∑ e ∈ S, (if ρ e = 1 then a 1 e else 0)) (max (0 + ∑ e' ∈ S, (if ρ e' = 1 then (1 : EReal) else 0)) 1) := by
  have hr : ∀ t : Fin 2, 0 ≤ (1 / max ((S.filter (fun e' => ρ e' = t)).card : ℝ) 1 : ℝ) := fun t =>
    one_div_nonneg.mpr (le_trans zero_le_one (le_max_right _ _))
  have hsplit := weighted_sum_split S ρ a
    (fun t => 1 / max ((S.filter (fun e' => ρ e' = t)).card : ℝ) 1) hr
  simp only [max_count_one, div_max_card]
  simp only [add_zero, zero_add, one_mul]
  rw [hsplit, add_assoc]

end Cert.RGCN
-- ==== Proof.DenseBridge.lean ====
import proofs.«429306_j3298534884295_1_alg».proof.Proof.Spec
import proofs.«429306_j3298534884295_1_alg».proof.Proof.RRaw
import Idealize.ShloMosaic.Lib.Pipeline.Value
import Idealize.ShloMosaic.Lib.ValueIdx
import Idealize.ShloMosaic.PureOps.Ideal.Laws

/-!
# The dense layers: matrix product plus a row of biases, in two spellings

One side states a dense layer entry by entry: entry (p, q) of `x · w + b` is the sum over k of
`x[p, k] · w[k, q]`, plus `b[0, q]`, the bias being a one-row matrix made from a vector by a change
of shape.  The other side states it with a general contraction (one contracted axis, no batch
axes), and lays the bias vector first along a new unit axis and then along the rows.  Read at an
entry the two are the same sum: the contraction's index set is one axis of length K, the two
operand indices at output (p, q) and contraction position k are (p, k) and (k, q), and the bias
read at (p, q) is `b[q]` in both.  The leaky rectifier, spelled with arrays of constants, is the
scalar rectifier at every entry.
-/

noncomputable section

open scoped BigOperators

namespace Cert.RGCN

open Cert.ReferenceIdeal Cert.ReferenceIdeal.Raw Idealize.ShloMosaic Idealize.ShloMosaic.ValueIdx
open Cert.ReferenceIdeal.Facts₀ Cert.ReferenceIdeal.Facts

variable [Cert.ReferenceIdeal.Facts]

/-- A contraction of an `[M, K]` by a `[K, N]` array over one axis, whose operand indices at output
    `i` and contraction position `c` are `(i 0, c)` and `(c, i 1)`, read at entry (p, q), is the sum
    over k of `x[p, k] · w[k, q]`. -/
theorem dot2_at {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (c : D.contr.Idx), (D.lhsIdx i c ⟨0, Nat.zero_lt_two⟩).val = (i ⟨0, Nat.zero_lt_two⟩).val)
    (hl1 : ∀ (i : (⟨2, ![M, N]⟩ : Shape).Idx) (c : D.contr.Idx), (D.lhsIdx i c ⟨1, Nat.one_lt_two⟩).val = (c ⟨0, by omega⟩).val)
    (hr0 : ∀ (i : (⟨2, ![M, N]⟩ : Shape).Idx) (c : D.contr.Idx), (D.rhsIdx i c ⟨0, Nat.zero_lt_two⟩).val = (c ⟨0, by omega⟩).val)
    (hr1 : ∀ (i : (⟨2, ![M, N]⟩ : Shape).Idx) (c : D.contr.Idx), (D.rhsIdx i c ⟨1, Nat.one_lt_two⟩).val = (i ⟨1, Nat.one_lt_two⟩).val)
    (x : FVec Ideal ⟨2, ![M, K]⟩ .f32) (w : FVec Ideal ⟨2, ![K, N]⟩ .f32) (p : Fin M) (q : Fin N) :
    Host.dotGeneral D none x w (ix2 p q) = ∑ k : Fin K, x (ix2 p k) * w (ix2 k q) := by
  show FloatOps.dotGeneral D none .single x w (ix2 p q) = _
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- The first layer's contraction, `[50000, 768]` by `[768, 128]`, at an entry. -/
theorem dot_stage1_at (x0 : FVec Ideal S50000x768 .f32) (x3 : FVec Ideal S768x128 .f32) (p : Fin 50000) (q : Fin 128) :
    Host.dotGeneral dot_S50000x768_S768x128_S50000x128_1_0_0_1_n_n none x0 x3 (ix2 p q)
      = ∑ k : Fin 768, x0 (ix2 p k) * x3 (ix2 k q) :=
  dot2_at dot_S50000x768_S768x128_S50000x128_1_0_0_1_n_n rfl rfl
    (fun i c => by
      show (dot_S50000x768_S768x128_S50000x128_1_0_0_1_n_n.lhsIdx i c (0 : Fin S50000x768.rank)).val = (i 0).val
      unfold DotDims.lhsIdx
      rw [dif_neg (show ¬(0 : Fin S50000x768.rank) ∈ dot_S50000x768_S768x128_S50000x128_1_0_0_1_n_n.lhsBatch from List.not_mem_nil),
        dif_pos (show (0 : Fin S50000x768.rank) ∈ dot_S50000x768_S768x128_S50000x128_1_0_0_1_n_n.lhsNonContracting from List.mem_singleton.mpr rfl)]
      rfl)
    (fun i c => dot_S50000x768_S768x128_S50000x128_1_0_0_1_n_n.lhsIdx_val_of_single rfl i c)
    (fun i c => dot_S50000x768_S768x128_S50000x128_1_0_0_1_n_n.rhsIdx_val_of_single rfl i c)
    (fun i c => by
      show (dot_S50000x768_S768x128_S50000x128_1_0_0_1_n_n.rhsIdx i c (1 : Fin S768x128.rank)).val = (i 1).val
      unfold DotDims.rhsIdx
      rw [dif_neg (show ¬(1 : Fin S768x128.rank) ∈ dot_S50000x768_S768x128_S50000x128_1_0_0_1_n_n.rhsBatch from List.not_mem_nil),
        dif_pos (show (1 : Fin S768x128.rank) ∈ dot_S50000x768_S768x128_S50000x128_1_0_0_1_n_n.rhsNonContracting from List.mem_singleton.mpr rfl)]
      rfl)
    x0 x3 p q

/-- The last layer's contraction, `[50000, 128]` by `[128, 3]`, at an entry. -/
theorem dot_out_at (x : FVec Ideal S50000x128 .f32) (x8 : FVec Ideal S128x3 .f32) (p : Fin 50000) (q : Fin 3) :
    Host.dotGeneral dot_S50000x128_S128x3_S50000x3_1_0_0_1_n_n none x x8 (ix2 p q)
      = ∑ k : Fin 128, x (ix2 p k) * x8 (ix2 k q) :=
  dot2_at dot_S50000x128_S128x3_S50000x3_1_0_0_1_n_n rfl rfl
    (fun i c => by
      show (dot_S50000x128_S128x3_S50000x3_1_0_0_1_n_n.lhsIdx i c (0 : Fin S50000x128.rank)).val = (i 0).val
      unfold DotDims.lhsIdx
      rw [dif_neg (show ¬(0 : Fin S50000x128.rank) ∈ dot_S50000x128_S128x3_S50000x3_1_0_0_1_n_n.lhsBatch from List.not_mem_nil),
        dif_pos (show (0 : Fin S50000x128.rank) ∈ dot_S50000x128_S128x3_S50000x3_1_0_0_1_n_n.lhsNonContracting from List.mem_singleton.mpr rfl)]
      rfl)
    (fun i c => dot_S50000x128_S128x3_S50000x3_1_0_0_1_n_n.lhsIdx_val_of_single rfl i c)
    (fun i c => dot_S50000x128_S128x3_S50000x3_1_0_0_1_n_n.rhsIdx_val_of_single rfl i c)
    (fun i c => by
      show (dot_S50000x128_S128x3_S50000x3_1_0_0_1_n_n.rhsIdx i c (1 : Fin S128x3.rank)).val = (i 1).val
      unfold DotDims.rhsIdx
      rw [dif_neg (show ¬(1 : Fin S128x3.rank) ∈ dot_S50000x128_S128x3_S50000x3_1_0_0_1_n_n.rhsBatch from List.not_mem_nil),
        dif_pos (show (1 : Fin S128x3.rank) ∈ dot_S50000x128_S128x3_S50000x3_1_0_0_1_n_n.rhsNonContracting from List.mem_singleton.mpr rfl)]
      rfl)
    x x8 p q

/-- A vector of 128 biases laid along a new unit axis and then along 50000 rows reads `b[q]` at (p, q). -/
theorem bias128_at (x4 : FVec Ideal S128 .f32) (p : Fin 50000) (q : Fin 128) :
    broadcastInDim S50000x128 ![0, 1] bcast_S1x128_S50000x128_0_1 (broadcastInDim S1x128 ![1] bcast_S128_S1x128_1 x4) (ix2 p q)
      = x4 (ix1 q) := by
  refine (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 x4 (ix2 (0 : Fin 1) q) (ix1 q) (fun a => match a with
    | ⟨0, _⟩ => by show q.val = if (128 : Nat) = 1 then 0 else q.val; rw [if_neg (by decide)])

/-- A vector of 3 biases laid along a new unit axis and then along 50000 rows reads `b[q]` at (p, q). -/
theorem bias3_at (x9 : FVec Ideal S3 .f32) (p : Fin 50000) (q : Fin 3) :
    broadcastInDim S50000x3 ![0, 1] bcast_S1x3_S50000x3_0_1 (broadcastInDim S1x3 ![1] bcast_S3_S1x3_1 x9) (ix2 p q)
      = x9 (ix1 q) := by
  refine (broadcastInDim_apply _ bcast_S1x3_S50000x3_0_1 _ (ix2 p q) (ix2 (0 : Fin 1) q) (fun a => match a with
    | ⟨0, _⟩ => by show 0 = if (1 : Nat) = 1 then 0 else p.val; rw [if_pos rfl]
    | ⟨1, _⟩ => by show q.val = if (3 : Nat) = 1 then 0 else q.val; rw [if_neg (by decide)])).trans ?_
  exact broadcastInDim_apply _ bcast_S3_S1x3_1 x9 (ix2 (0 : Fin 1) q) (ix1 q) (fun a => match a with
    | ⟨0, _⟩ => by show q.val = if (3 : Nat) = 1 then 0 else q.val; rw [if_neg (by decide)])

/-- A vector of length N recast as a one-row matrix reads `b[q]` at (0, q): both have row-major position q. -/
theorem cast_row_at {N : Nat} (x : FVec Ideal ⟨1, ![N]⟩ .f32) (h : (⟨1, ![N]⟩ : Shape).ShapeCasts ⟨2, ![1, N]⟩) (q : Fin N) :
    shapeCast ⟨2, ![1, N]⟩ x h (ix2 (0 : Fin 1) q) = x (ix1 q) :=
  shapeCast_apply x h (ix2 (0 : Fin 1) q) (ix1 q) (by
    rw [Shape.rowMajor_val_one, Shape.rowMajor_val_two]
    show q.val = 0 * N + q.val
    omega)

/-- The rectifier spelled with arrays of constants is the scalar rectifier at every entry. -/
theorem leakyR_at (v : FVec Ideal S50000x128 .f32) (i : S50000x128.Idx) : leakyR (F := Ideal) v i = leakyE (v i) := rfl

/-- The first dense layer with its rectifier: the entrywise statement equals the contraction-and-broadcast spelling. -/
theorem stage1_bridge (x0 : FVec Ideal S50000x768 .f32) (x3 : FVec Ideal S768x128 .f32) (x4 : FVec Ideal S128 .f32) (h4 : S128.ShapeCasts S1x128) :
    leaky (lin x0 x3 (shapeCast S1x128 x4 h4)) = leakyR (F := Ideal) (stage1R x0 x3 x4) := by
  funext i
  obtain ⟨p, q, rfl⟩ : ∃ p q, i = ix2 p q := ⟨i 0, i 1, eq_ix2 i⟩
  rw [leaky_apply, leakyR_at, lin_ix2]
  refine congrArg leakyE ?_
  unfold stage1R linAt
  rw [addf_apply, dot_stage1_at, bias128_at, cast_row_at]

/-- The last dense layer: the entrywise statement equals the contraction-and-broadcast spelling. -/
theorem out_bridge (x : FVec Ideal S50000x128 .f32) (x8 : FVec Ideal S128x3 .f32) (x9 : FVec Ideal S3 .f32) (h9 : S3.ShapeCasts S1x3) :
    lin x x8 (shapeCast S1x3 x9 h9) = outR (F := Ideal) x x8 x9 := by
  funext i
  obtain ⟨p, q, rfl⟩ : ∃ p q, i = ix2 p q := ⟨i 0, i 1, eq_ix2 i⟩
  rw [lin_ix2]
  unfold outR linAt
  rw [addf_apply, dot_out_at, bias3_at, cast_row_at]

end Cert.RGCN

end
-- ==== Proof.Bridge.lean ====
/-
  The two programs are one function of their arguments when every relation word is 0 or 1.

  Layer by layer: the first dense layer with the rectifier is the same sum on both sides; a graph layer is, at each entry
  (n, h), the root term plus over the edges into n — on the kernel side — each message under its own relation times the
  reciprocal of that relation's count, and — on the reference's side — for each relation the masked messages' sum over
  the count: equal because a count's reciprocal is a nonnegative real, which distributes over sums of extended reals;
  the last dense layer is the same sum again.
-/
import proofs.«429306_j3298534884295_1_alg».proof.Proof.KFn
import proofs.«429306_j3298534884295_1_alg».proof.Proof.RValue
import proofs.«429306_j3298534884295_1_alg».proof.Proof.ConvKernelAt
import proofs.«429306_j3298534884295_1_alg».proof.Proof.ConvReferenceAt
import proofs.«429306_j3298534884295_1_alg».proof.Proof.ConvAlgebra
import proofs.«429306_j3298534884295_1_alg».proof.Proof.DenseBridge

noncomputable section

namespace Cert.RGCN

open Cert.KernelIdeal.Raw Cert.ReferenceIdeal.Raw Cert.ReferenceIdeal.RefValue
open Idealize.ShloMosaic Idealize.ShloMosaic.ValueIdx

variable [Cert.KernelIdeal.Facts] [Cert.ReferenceIdeal.Facts]

/-- One graph layer: the kernel side's gather, scale and sum equals the reference's per-relation means. -/
theorem conv_bridge (x : FVec Ideal ⟨2, ![50000, 128]⟩ .f32) (ei : IVec ⟨2, ![2, 600000]⟩ 32) (et : IVec ⟨1, ![600000]⟩ 32)
    (wrel : FVec Ideal ⟨3, ![2, 128, 128]⟩ .f32) (wroot : FVec Ideal ⟨2, ![128, 128]⟩ .f32) (bconv : FVec Ideal ⟨1, ![128]⟩ .f32)
    (het : ∀ e : Fin 600000, et (ix1 e) = 0#32 ∨ et (ix1 e) = 1#32) :
    convK x ei et wrel wroot bconv = convR (F := Ideal) x ei et wrel wroot bconv := by
  funext i
  obtain ⟨n, h, rfl⟩ : ∃ (n : Fin 50000) (h : Fin 128), i = ix2 n h := ⟨i 0, i 1, eq_ix2 i⟩
  refine (Cert.RGCN.kernel_conv_at x ei et wrel wroot bconv het n h).trans
    (Eq.trans ?_ (Cert.ReferenceIdeal.ConvAt.reference_conv_at x ei et wrel wroot bconv het n h).symm)
  exact conv_node_identity (inEdges ei n) (relOf et) (msgAt x wrel ei h) (rootAt x wroot bconv n h)

/-- The whole programs. -/
theorem main_bridge (x0 : FVec Ideal ⟨2, ![50000, 768]⟩ .f32) (x1 : IVec ⟨2, ![2, 600000]⟩ 32) (x2 : IVec ⟨1, ![600000]⟩ 32)
    (x3 : FVec Ideal ⟨2, ![768, 128]⟩ .f32) (x4 : FVec Ideal ⟨1, ![128]⟩ .f32) (x5 : FVec Ideal ⟨3, ![2, 128, 128]⟩ .f32)
    (x6 : FVec Ideal ⟨2, ![128, 128]⟩ .f32) (x7 : FVec Ideal ⟨1, ![128]⟩ .f32) (x8 : FVec Ideal ⟨2, ![128, 3]⟩ .f32)
    (x9 : FVec Ideal ⟨1, ![3]⟩ .f32) (het : ∀ e : Fin 600000, x2 (ix1 e) = 0#32 ∨ x2 (ix1 e) = 1#32) :
    kernelFn x0 x1 x2 x3 x4 x5 x6 x7 x8 x9 = refFn (F := Ideal) x0 x1 x2 x3 x4 x5 x6 x7 x8 x9 := by
  unfold kernelFn refFn
  rw [stage1_bridge x0 x3 x4 _, conv_bridge _ x1 x2 x5 x6 x7 het, conv_bridge _ x1 x2 x5 x6 x7 het]
  exact out_bridge _ x8 x9 _

end Cert.RGCN

end
-- ==== Proof.lean ====
/-
  The certificate: the kernel program (two dense Pallas stages around two relational graph-convolution layers and a
  final dense stage) against its jnp reference, over the extended reals, for relation labels in {0, 1}.

  The three frames: the two kernel programs' are the generated ones; the reference's is its run with the result dropped.
  The idealization rewrote nothing, so `preserves` is trivial. The value claim: the idealized kernel's run ends with
  its result buffer at the program's function of the arguments (the four regions' dense layers threaded through the host
  stretches), the reference's run ends at its layers composed, and the two functions agree when every relation word is
  0 or 1 — which the precondition's last conjunct says. Finiteness of the float inputs is not used.
-/
import proofs.«429306_j3298534884295_1_alg».proof.Defs
import proofs.«429306_j3298534884295_1_alg».proof.Proof.Gen.Kernel
import proofs.«429306_j3298534884295_1_alg».proof.Proof.Gen.Kernel.Frame
import proofs.«429306_j3298534884295_1_alg».proof.Proof.Gen.KernelIdeal
import proofs.«429306_j3298534884295_1_alg».proof.Proof.Gen.KernelIdeal.Frame
import proofs.«429306_j3298534884295_1_alg».proof.Proof.Gen.ReferenceIdeal
import proofs.«429306_j3298534884295_1_alg».proof.Proof.Gen.Pre_finite_inputs
import proofs.«429306_j3298534884295_1_alg».proof.Proof.Gen.ReferenceIdeal.Run
import proofs.«429306_j3298534884295_1_alg».proof.Proof.KRun
import proofs.«429306_j3298534884295_1_alg».proof.Proof.KValue
import proofs.«429306_j3298534884295_1_alg».proof.Proof.RValue
import proofs.«429306_j3298534884295_1_alg».proof.Proof.PreFacts
import proofs.«429306_j3298534884295_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at one function of the arguments: the kernel program's, which under the relation
    labels' range is the reference's. -/
theorem algebraic : Cert.algebraic_KernelIdeal_ReferenceIdeal := by
  intro m ρ m' ρ' hpre hagree
  refine ⟨fun c => Cert.KernelIdeal.Raw.kernelFn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.kernel_value m ρ c), (h c).2⟩)
      (Cert.KernelIdeal.RunNamed.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.RefValue.res_eq m' c, h0, h1, h2, h3, h4, h5, h6, h7, h8, h9]
    exact (Cert.RGCN.main_bridge _ _ _ _ _ _ _ _ _ _ (Cert.RGCN.etype_range _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
